-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1728x128 : Shape := ⟨2, ![1728, 128]⟩
abbrev S128 : Shape := ⟨1, ![128]⟩
abbrev S100000x27 : Shape := ⟨2, ![100000, 27]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1728x128 : S_.BroadcastsInDim S1728x128 (![] : Fin 0 → Fin S1728x128.rank)
  reducesTo_S1728x128_S_d0_1 : S1728x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg5 : IVec S100000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S100000 32 := broadcastInDim S100000 ![] bcast_S_S100000 main_c_6
  let main_v20 : IVec S100000 1 := cmpi .sge main_arg5 main_v19
  let main_c_7 : IVec S_ 32 := constantI S_ 32 8#32
  let main_v21 : IVec S100000 32 := broadcastInDim S100000 ![] bcast_S_S100000 main_c_7
  let main_v22 : IVec S100000 1 := cmpi .slt main_arg5 main_v21
  let main_v23 : IVec S100000 1 := andi main_v20 main_v22
  let main_c_8 : IVec S_ 1 := constantI S_ 1 1#1
  let main_v24 : IVec S_ 1 := (fun x v => Host.reduce IntOp.andi x v reducesTo_S100000_S_d0 h_S_) main_v23 main_c_8
  let main_v25 : IVec S_ 1 := andi main_v18 main_v24
  main_v25

def fn {F : FTy → Type} [FloatOps F] (main_arg0 : FVec F S100000x64 .f32) (main_arg1 : FVec F S1728x128 .f32) (main_arg2 : FVec F S128 .f32) (main_arg3 : FVec F S128 .f32) (main_arg4 : IVec S100000x27 32) (main_arg5 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1728x128 .f32 := Host.absf main_arg1
  let main_cst_0 : FVec F S_ .f32 := constant S_ .f32 0x7F800000#32
  let main_v5 : FVec F S1728x128 .f32 := broadcastInDim S1728x128 ![] bcast_S_S1728x128 main_cst_0
  let main_v6 : IVec S1728x128 1 := cmpf .olt main_v4 main_v5
  let main_c_1 : IVec S_ 1 := constantI S_ 1 1#1
  let main_v7 : IVec S_ 1 := (fun x v => Host.reduce IntOp.andi x v reducesTo_S1728x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x64 : Shape := ⟨2, ![100000, 64]⟩
abbrev S1728x128 : Shape := ⟨2, ![1728, 128]⟩
abbrev S128 : Shape := ⟨1, ![128]⟩
abbrev S100000x27 : Shape := ⟨2, ![100000, 27]⟩
abbrev S100000 : Shape := ⟨1, ![100000]⟩
abbrev S_ : Shape := ⟨0, ![]⟩
abbrev S100000x27x1 : Shape := ⟨3, ![100000, 27, 1]⟩
abbrev S100000x27x64 : Shape := ⟨3, ![100000, 27, 64]⟩
abbrev S100000x1728 : Shape := ⟨2, ![100000, 1728]⟩
abbrev S100000x128 : Shape := ⟨2, ![100000, 128]⟩
abbrev S2000x1728 : Shape := ⟨2, ![2000, 1728]⟩
abbrev S2000x128 : Shape := ⟨2, ![2000, 128]⟩
abbrev S100000x1 : Shape := ⟨2, ![100000, 1]⟩
abbrev S8x128 : Shape := ⟨2, ![8, 128]⟩
abbrev S8x1 : Shape := ⟨2, ![8, 1]⟩
abbrev S10000x128 : Shape := ⟨2, ![10000, 128]⟩
abbrev S10000x1 : Shape := ⟨2, ![10000, 1]⟩
abbrev S10000x8 : Shape := ⟨2, ![10000, 8]⟩
abbrev S8 : Shape := ⟨1, ![8]⟩
abbrev S1x8 : Shape := ⟨2, ![1, 8]⟩
abbrev S32 : Shape := ⟨1, ![32]⟩
abbrev S32x1 : Shape := ⟨2, ![32, 1]⟩
abbrev S1x128 : Shape := ⟨2, ![1, 128]⟩
abbrev S32x128 : Shape := ⟨2, ![32, 128]⟩
abbrev S128x32 : Shape := ⟨2, ![128, 32]⟩
abbrev S8x32 : Shape := ⟨2, ![8, 32]⟩
abbrev S10000x32 : Shape := ⟨2, ![10000, 32]⟩

abbrev nBuf : Space → Nat
  | .hbm => 85
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S1728x128, .f32⟩
  | .hbm, ⟨2, _⟩ => ⟨S128, .f32⟩
  | .hbm, ⟨3, _⟩ => ⟨S128, .f32⟩
  | .hbm, ⟨4, _⟩ => ⟨S100000x27, .i32⟩
  | .hbm, ⟨5, _⟩ => ⟨S100000, .i32⟩
  | .hbm, ⟨6, _⟩ => ⟨S_, .i32⟩
  | .hbm, ⟨7, _⟩ => ⟨S100000x27, .i32⟩
  | .hbm, ⟨8, _⟩ => ⟨S100000x27, .i1⟩
  | .hbm, ⟨9, _⟩ => ⟨S_, .i32⟩
  | .hbm, ⟨10, _⟩ => ⟨S_, .i32⟩
  | .hbm, ⟨11, _⟩ => ⟨S100000x27, .i32⟩
  | .hbm, ⟨12, _⟩ => ⟨S100000x27, .i32⟩
  | .hbm, ⟨13, _⟩ => ⟨S_, .i32⟩
  | .hbm, ⟨14, _⟩ => ⟨S100000x27, .i32⟩
  | .hbm, ⟨15, _⟩ => ⟨S100000x27, .i1⟩
  | .hbm, ⟨16, _⟩ => ⟨S_, .i32⟩
  | .hbm, ⟨17, _⟩ => ⟨S100000x27, .i32⟩
  | .hbm, ⟨18, _⟩ => ⟨S100000x27, .i32⟩
  | .hbm, ⟨19, _⟩ => ⟨S100000x27, .i32⟩
  | .hbm, ⟨20, _⟩ => ⟨S100000x27x1, .i32⟩
  | .hbm, ⟨21, _⟩ => ⟨S100000x27x64, .f32⟩
  | .hbm, ⟨22, _⟩ => ⟨S100000x27x1, .i1⟩
  | .hbm, ⟨23, _⟩ => ⟨S100000x27x1, .f32⟩
  | .hbm, ⟨24, _⟩ => ⟨S100000x27x64, .f32⟩
  | .hbm, ⟨25, _⟩ => ⟨S100000x27x64, .f32⟩
  | .hbm, ⟨26, _⟩ => ⟨S100000x1728, .f32⟩
  | .hbm, ⟨27, _⟩ => ⟨S100000x1728, .bf16⟩
  | .hbm, ⟨28, _⟩ => ⟨S1728x128, .bf16⟩
  | .hbm, ⟨29, _⟩ => ⟨S100000x128, .f32⟩
  | .hbm, ⟨30, _⟩ => ⟨S100000x1, .i32⟩
  | .hbm, ⟨31, _⟩ => ⟨S8x128, .f32⟩
  | .hbm, ⟨32, _⟩ => ⟨S8x128, .f32⟩
  | .hbm, ⟨33, _⟩ => ⟨S8x1, .f32⟩
  | .hbm, ⟨34, _⟩ => ⟨S128, .i32⟩
  | .hbm, ⟨35, _⟩ => ⟨S_, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S32, .i32⟩
  | .hbm, ⟨54, _⟩ => ⟨S32x1, .i32⟩
  | .hbm, ⟨55, _⟩ => ⟨S1x128, .i32⟩
  | .hbm, ⟨56, _⟩ => ⟨S32x128, .i32⟩
  | .hbm, ⟨57, _⟩ => ⟨S32x128, .i32⟩
  | .hbm, ⟨58, _⟩ => ⟨S32x128, .i1⟩
  | .hbm, ⟨59, _⟩ => ⟨S32x128, .f32⟩
  | .hbm, ⟨60, _⟩ => ⟨S128x32, .f32⟩
  | .hbm, ⟨61, _⟩ => ⟨S8x32, .f32⟩
  | .hbm, ⟨62, _⟩ => ⟨S8x32, .f32⟩
  | .hbm, ⟨63, _⟩ => ⟨S_, .f32⟩
  | .hbm, ⟨64, _⟩ => ⟨S8x1, .f32⟩
  | .hbm, ⟨65, _⟩ => ⟨S8x1, .f32⟩
  | .hbm, ⟨66, _⟩ => ⟨S_, .f32⟩
  | .hbm, ⟨67, _⟩ => ⟨S8x1, .f32⟩
  | .hbm, ⟨68, _⟩ => ⟨S8x1, .f32⟩
  | .hbm, ⟨69, _⟩ => ⟨S_, .f32⟩
  | .hbm, ⟨70, _⟩ => ⟨S8x1, .f32⟩
  | .hbm, ⟨71, _⟩ => ⟨S8x1, .f32⟩
  | .hbm, ⟨72, _⟩ => ⟨S8x32, .f32⟩
  | .hbm, ⟨73, _⟩ => ⟨S8x32, .f32⟩
  | .hbm, ⟨74, _⟩ => ⟨S8x32, .f32⟩
  | .hbm, ⟨75, _⟩ => ⟨S8x32, .f32⟩
  | .hbm, ⟨76, _⟩ => ⟨S8x32, .f32⟩
  | .hbm, ⟨77, _⟩ => ⟨S8x32, .f32⟩
  | .hbm, ⟨78, _⟩ => ⟨S_, .f32⟩
  | .hbm, ⟨79, _⟩ => ⟨S8x32, .f32⟩
  | .hbm, ⟨80, _⟩ => ⟨S8x32, .f32⟩
  | .hbm, ⟨81, _⟩ => ⟨S8x32, .f32⟩
  | .hbm, ⟨82, _⟩ => ⟨S1x128, .f32⟩
  | .hbm, ⟨83, _⟩ => ⟨S1x128, .f32⟩
  | .hbm, ⟨84, _⟩ => ⟨S100000x128, .f32⟩
  | .local _ .vmem, ⟨0, _⟩ => ⟨S2000x1728, .bf16⟩
  | .local _ .vmem, ⟨1, _⟩ => ⟨S2000x1728, .bf16⟩
  | .local _ .vmem, ⟨2, _⟩ => ⟨S1728x128, .bf16⟩
  | .local _ .vmem, ⟨3, _⟩ => ⟨S2000x128, .f32⟩
  | .local _ .vmem, ⟨4, _⟩ => ⟨S2000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .i32⟩
  | .local _ .vmem, ⟨8, _⟩ => ⟨S10000x1, .i32⟩
  | .local _ .vmem, ⟨9, _⟩ => ⟨S8x128, .f32⟩
  | .local _ .vmem, ⟨10, _⟩ => ⟨S8x128, .f32⟩
  | .local _ .vmem, ⟨11, _⟩ => ⟨S8x1, .f32⟩
  | .local _ .vmem, ⟨12, _⟩ => ⟨S10000x128, .f32⟩
  | .local _ .vmem, ⟨13, _⟩ => ⟨S10000x128, .f32⟩
  | .local _ .vmem, ⟨14, _⟩ => ⟨S10000x1, .i32⟩
  | .local _ .vmem, ⟨15, _⟩ => ⟨S10000x1, .i32⟩
  | .local _ .vmem, ⟨16, _⟩ => ⟨S8x32, .f32⟩
  | .local _ .vmem, ⟨17, _⟩ => ⟨S8x32, .f32⟩
  | .local _ .vmem, ⟨18, _⟩ => ⟨S32x128, .f32⟩
  | .local _ .vmem, ⟨19, _⟩ => ⟨S1x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v20 : Ref sig .tc := ⟨.hbm, 34, rfl⟩
abbrev main_c_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst : Ref sig .tc := ⟨.hbm, 63, rfl⟩
abbrev main_v32 : Ref sig .tc := ⟨.hbm, 64, rfl⟩
abbrev main_v33 : Ref sig .tc := ⟨.hbm, 65, rfl⟩
abbrev main_cst_4 : Ref sig .tc := ⟨.hbm, 66, rfl⟩
abbrev main_v34 : Ref sig .tc := ⟨.hbm, 67, rfl⟩
abbrev main_v35 : Ref sig .tc := ⟨.hbm, 68, rfl⟩
abbrev main_cst_5 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_6 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1728 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1728x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S100000x27 : S_.BroadcastsInDim S100000x27 (![] : Fin 0 → Fin S100000x27.rank)
  bcast_S100000x27_S100000x27x1_0_1 : S100000x27.BroadcastsInDim S100000x27x1 (![0, 1] : Fin 2 → Fin S100000x27x1.rank)
  bcast_S100000x27x1_S100000x27x64_0_1_2 : S100000x27x1.BroadcastsInDim S100000x27x64 (![0, 1, 2] : Fin 3 → Fin S100000x27x64.rank)
  shapeCasts_S100000x27x64_S100000x1728 : S100000x27x64.ShapeCasts S100000x1728
  bitsLt_bf16_f32 : FTy.bits .bf16 < FTy.bits .f32
  inb_S2000x1728_S2000x1728_0_0 : ∀ a, (![0, 0] : Fin 2 → Nat) a + S2000x1728.size a ≤ S2000x1728.size a
  h_S2000x1728 : 0 < S2000x1728.numel
  shapeCasts_S2000x1728_S2000x1728 : S2000x1728.ShapeCasts S2000x1728
  inb_S1728x128_S1728x128_0_0 : ∀ a, (![0, 0] : Fin 2 → Nat) a + S1728x128.size a ≤ S1728x128.size a
  h_S1728x128 : 0 < S1728x128.numel
  shapeCasts_S1728x128_S1728x128 : S1728x128.ShapeCasts S1728x128
  inb_S2000x128_S2000x128_0_0 : ∀ a, (![0, 0] : Fin 2 → Nat) a + S2000x128.size a ≤ S2000x128.size a
  h_S2000x128 : 0 < S2000x128.numel
  shapeCasts_S100000_S100000x1 : S100000.ShapeCasts S100000x1
  inb_S8x128_S8x128_0_0 : ∀ a, (![0, 0] : Fin 2 → Nat) a + S8x128.size a ≤ S8x128.size a
  h_S8x128 : 0 < S8x128.numel
  inb_S8x1_S8x1_0_0 : ∀ a, (![0, 0] : Fin 2 → Nat) a + S8x1.size a ≤ S8x1.size a
  h_S8x1 : 0 < S8x1.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x8_d1_w32 : S10000x8.Iotas .tc 32 [1]
  broadcasts_S10000x1_S10000x8 : S10000x1.Broadcasts S10000x8
  natLt_1_32 : 1 < 32
  shapeCasts_S8x128_S8x128 : S8x128.ShapeCasts S8x128
  shapeCasts_S8x1_S8x1 : S8x1.ShapeCasts S8x1
  reduces_S10000x8_S8 : S10000x8.Reduces [0] S8
  shapeCasts_S8_S1x8 : S8.ShapeCasts S1x8
  transposes_S1x8_p1_0_S8x1 : S1x8.Transposes [1, 0] S8x1
  bcast_S_S128 : S_.BroadcastsInDim S128 (![] : Fin 0 → Fin S128.rank)
  bcast_S32_S32x1_0 : S32.BroadcastsInDim S32x1 (![0] : Fin 1 → Fin S32x1.rank)
  bcast_S128_S1x128_1 : S128.BroadcastsInDim S1x128 (![1] : Fin 1 → Fin S1x128.rank)
  bcast_S32x1_S32x128_0_1 : S32x1.BroadcastsInDim S32x128 (![0, 1] : Fin 2 → Fin S32x128.rank)
  bcast_S1x128_S32x128_0_1 : S1x128.BroadcastsInDim S32x128 (![0, 1] : Fin 2 → Fin S32x128.rank)
  transposes_S32x128_S128x32_1_0 : S32x128.Transposes [1, 0] S128x32
  bcast_S_S8x1 : S_.BroadcastsInDim S8x1 (![] : Fin 0 → Fin S8x1.rank)
  bcast_S8x1_S8x32_0_1 : S8x1.BroadcastsInDim S8x32 (![0, 1] : Fin 2 → Fin S8x32.rank)
  bcast_S_S8x32 : S_.BroadcastsInDim S8x32 (![] : Fin 0 → Fin S8x32.rank)
  shapeCasts_S128_S1x128 : S128.ShapeCasts S1x128
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x64_S100000x27x1_S100000x27x64_2_0_n_n_0_2_164_wf : GatherDims.WF S100000x64 S100000x27x1 S100000x27x64 [2] [0] [] [0] [] 2 ![1, 64]
  dot_S2000x1728_S1728x128_S2000x128_1_0_0_1_n_n_wf : DotDims.WF S2000x1728 S1728x128 S2000x128 [1] [0] [0] [1] [] []
  dot_S10000x8_S10000x128_S8x128_0_0_1_1_n_n_wf : DotDims.WF S10000x8 S10000x128 S8x128 [0] [0] [1] [1] [] []
  dot_S8x128_S128x32_S8x32_1_0_0_1_n_n_wf : DotDims.WF S8x128 S128x32 S8x32 [1] [0] [0] [1] [] []
  dot_S10000x8_S8x32_S10000x32_1_0_0_1_n_n_wf : DotDims.WF S10000x8 S8x32 S10000x32 [1] [0] [0] [1] [] []
  dot_S10000x32_S32x128_S10000x128_1_0_0_1_n_n_wf : DotDims.WF S10000x32 S32x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1728.size a ≤ S100000x1728.size a
  hwx0_0 : ∀ i : grid0.Coords, EltTy.bits .bf16 = 32 ∨ (Rect.block (s := S100000x1728) S2000x1728.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1728x128.size a ≤ S1728x128.size a
  hwx0_1 : ∀ i : grid0.Coords, EltTy.bits .bf16 = 32 ∨ (Rect.block (s := S1728x128) S1728x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .i32 = 32 ∨ (Rect.block (s := S100000x1) S10000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S8x128.size a
  hwx1_2 : ∀ i : grid1.Coords, EltTy.bits .f32 = 32 ∨ (Rect.block (s := S8x128) S8x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S8x128.size a
  hwx1_3 : ∀ i : grid1.Coords, EltTy.bits .f32 = 32 ∨ (Rect.block (s := S8x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .i32 = 32 ∨ (Rect.block (s := S100000x1) S10000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x32.size a ≤ S8x32.size a
  hwx2_2 : ∀ i : grid2.Coords, EltTy.bits .f32 = 32 ∨ (Rect.block (s := S8x32) S8x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x32.size a ≤ S8x32.size a
  hwx2_3 : ∀ i : grid2.Coords, EltTy.bits .f32 = 32 ∨ (Rect.block (s := S8x32) S8x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x128.size a ≤ S32x128.size a
  hwx2_4 : ∀ i : grid2.Coords, EltTy.bits .f32 = 32 ∨ (Rect.block (s := S32x128) S32x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)

variable [Facts₀]

def gather_S100000x64_S100000x27x1_S100000x27x64_2_0_n_n_0_2_164 : GatherDims S100000x64 S100000x27x1 S100000x27x64 where
  offsetDims := [2]
  collapsedSliceDims := [0]
  operandBatchingDims := []
  startIndicesBatchingDims := []
  startIndexMap := [0]
  indexVectorDim := 2
  sliceSizes := ![1, 64]
  wf := gather_S100000x64_S100000x27x1_S100000x27x64_2_0_n_n_0_2_164_wf
def dot_S2000x1728_S1728x128_S2000x128_1_0_0_1_n_n : DotDims S2000x1728 S1728x128 S2000x128 where
  lhsContracting := [1]
  rhsContracting := [0]
  lhsNonContracting := [0]
  rhsNonContracting := [1]
  lhsBatch := []
  rhsBatch := []
  wf := dot_S2000x1728_S1728x128_S2000x128_1_0_0_1_n_n_wf
def dot_S10000x8_S10000x128_S8x128_0_0_1_1_n_n : DotDims S10000x8 S10000x128 S8x128 where
  lhsContracting := [0]
  rhsContracting := [0]
  lhsNonContracting := [1]
  rhsNonContracting := [1]
  lhsBatch := []
  rhsBatch := []
  wf := dot_S10000x8_S10000x128_S8x128_0_0_1_1_n_n_wf
def dot_S8x128_S128x32_S8x32_1_0_0_1_n_n : DotDims S8x128 S128x32 S8x32 where
  lhsContracting := [1]
  rhsContracting := [0]
  lhsNonContracting := [0]
  rhsNonContracting := [1]
  lhsBatch := []
  rhsBatch := []
  wf := dot_S8x128_S128x32_S8x32_1_0_0_1_n_n_wf
def dot_S10000x8_S8x32_S10000x32_1_0_0_1_n_n : DotDims S10000x8 S8x32 S10000x32 where
  lhsContracting := [1]
  rhsContracting := [0]
  lhsNonContracting := [0]
  rhsNonContracting := [1]
  lhsBatch := []
  rhsBatch := []
  wf := dot_S10000x8_S8x32_S10000x32_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf

abbrev win0_0 : Pipeline.Window sig grid0 :=
  Pipeline.Window.ofSpec (Memref.whole main_v15) S2000x1728.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1728x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19_0) S8x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19_1) S8x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19_2) S8x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v17) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S8x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S8x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S32x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v49) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S1728x128 : Shape := ⟨2, ![1728, 128]⟩
abbrev S128 : Shape := ⟨1, ![128]⟩
abbrev S100000x27 : Shape := ⟨2, ![100000, 27]⟩
abbrev S100000 : Shape := ⟨1, ![100000]⟩
abbrev S_ : Shape := ⟨0, ![]⟩
abbrev S100000x27x1 : Shape := ⟨3, ![100000, 27, 1]⟩
abbrev S100000x27x64 : Shape := ⟨3, ![100000, 27, 64]⟩
abbrev S100000x1728 : Shape := ⟨2, ![100000, 1728]⟩
abbrev S100000x128 : Shape := ⟨2, ![100000, 128]⟩
abbrev S8 : Shape := ⟨1, ![8]⟩
abbrev S100000x1 : Shape := ⟨2, ![100000, 1]⟩
abbrev S100000x32x4 : Shape := ⟨3, ![100000, 32, 4]⟩
abbrev S8x32x4 : Shape := ⟨3, ![8, 32, 4]⟩
abbrev S8x32 : Shape := ⟨2, ![8, 32]⟩
abbrev S8x1 : Shape := ⟨2, ![8, 1]⟩
abbrev S100000x32 : Shape := ⟨2, ![100000, 32]⟩
abbrev S100000x32x1 : Shape := ⟨3, ![100000, 32, 1]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1728x128, .f32⟩
  | .hbm, ⟨2, _⟩ => ⟨S128, .f32⟩
  | .hbm, ⟨3, _⟩ => ⟨S128, .f32⟩
  | .hbm, ⟨4, _⟩ => ⟨S100000x27, .i32⟩
  | .hbm, ⟨5, _⟩ => ⟨S100000, .i32⟩
  | .hbm, ⟨6, _⟩ => ⟨S_, .i32⟩
  | .hbm, ⟨7, _⟩ => ⟨S100000x27, .i32⟩
  | .hbm, ⟨8, _⟩ => ⟨S100000x27, .i1⟩
  | .hbm, ⟨9, _⟩ => ⟨S_, .i32⟩
  | .hbm, ⟨10, _⟩ => ⟨S_, .i32⟩
  | .hbm, ⟨11, _⟩ => ⟨S100000x27, .i32⟩
  | .hbm, ⟨12, _⟩ => ⟨S100000x27, .i32⟩
  | .hbm, ⟨13, _⟩ => ⟨S_, .i32⟩
  | .hbm, ⟨14, _⟩ => ⟨S100000x27, .i32⟩
  | .hbm, ⟨15, _⟩ => ⟨S100000x27, .i1⟩
  | .hbm, ⟨16, _⟩ => ⟨S_, .i32⟩
  | .hbm, ⟨17, _⟩ => ⟨S100000x27, .i32⟩
  | .hbm, ⟨18, _⟩ => ⟨S100000x27, .i32⟩
  | .hbm, ⟨19, _⟩ => ⟨S100000x27, .i32⟩
  | .hbm, ⟨20, _⟩ => ⟨S100000x27x1, .i32⟩
  | .hbm, ⟨21, _⟩ => ⟨S100000x27x64, .f32⟩
  | .hbm, ⟨22, _⟩ => ⟨S100000x27x1, .i1⟩
  | .hbm, ⟨23, _⟩ => ⟨S100000x27x1, .f32⟩
  | .hbm, ⟨24, _⟩ => ⟨S100000x27x64, .f32⟩
  | .hbm, ⟨25, _⟩ => ⟨S100000x27x64, .f32⟩
  | .hbm, ⟨26, _⟩ => ⟨S100000x1728, .f32⟩
  | .hbm, ⟨27, _⟩ => ⟨S100000x128, .f32⟩
  | .hbm, ⟨28, _⟩ => ⟨S_, .f32⟩
  | .hbm, ⟨29, _⟩ => ⟨S100000, .f32⟩
  | .hbm, ⟨30, _⟩ => ⟨S_, .f32⟩
  | .hbm, ⟨31, _⟩ => ⟨S8, .f32⟩
  | .hbm, ⟨32, _⟩ => ⟨S100000x1, .i32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S100000x32x4, .f32⟩
  | .hbm, ⟨44, _⟩ => ⟨S_, .f32⟩
  | .hbm, ⟨45, _⟩ => ⟨S8x32x4, .f32⟩
  | .hbm, ⟨46, _⟩ => ⟨S100000x1, .i32⟩
  | .hbm, ⟨47, _⟩ => ⟨S8x32x4, .f32⟩
  | .hbm, ⟨48, _⟩ => ⟨S_, .f32⟩
  | .hbm, ⟨49, _⟩ => ⟨S8x32, .f32⟩
  | .hbm, ⟨50, _⟩ => ⟨S100000x32x4, .f32⟩
  | .hbm, ⟨51, _⟩ => ⟨S_, .f32⟩
  | .hbm, ⟨52, _⟩ => ⟨S8x32x4, .f32⟩
  | .hbm, ⟨53, _⟩ => ⟨S100000x1, .i32⟩
  | .hbm, ⟨54, _⟩ => ⟨S8x32x4, .f32⟩
  | .hbm, ⟨55, _⟩ => ⟨S_, .f32⟩
  | .hbm, ⟨56, _⟩ => ⟨S8x32, .f32⟩
  | .hbm, ⟨57, _⟩ => ⟨S8x1, .f32⟩
  | .hbm, ⟨58, _⟩ => ⟨S8x32, .f32⟩
  | .hbm, ⟨59, _⟩ => ⟨S8x32, .f32⟩
  | .hbm, ⟨60, _⟩ => ⟨S8x1, .f32⟩
  | .hbm, ⟨61, _⟩ => ⟨S8x32, .f32⟩
  | .hbm, ⟨62, _⟩ => ⟨S8x32, .f32⟩
  | .hbm, ⟨63, _⟩ => ⟨S8x32, .f32⟩
  | .hbm, ⟨64, _⟩ => ⟨S8x32, .f32⟩
  | .hbm, ⟨65, _⟩ => ⟨S_, .f32⟩
  | .hbm, ⟨66, _⟩ => ⟨S8x32, .f32⟩
  | .hbm, ⟨67, _⟩ => ⟨S8x32, .f32⟩
  | .hbm, ⟨68, _⟩ => ⟨S8x32, .f32⟩
  | .hbm, ⟨69, _⟩ => ⟨S_, .i32⟩
  | .hbm, ⟨70, _⟩ => ⟨S100000, .i32⟩
  | .hbm, ⟨71, _⟩ => ⟨S100000, .i1⟩
  | .hbm, ⟨72, _⟩ => ⟨S_, .i32⟩
  | .hbm, ⟨73, _⟩ => ⟨S100000, .i32⟩
  | .hbm, ⟨74, _⟩ => ⟨S100000, .i32⟩
  | .hbm, ⟨75, _⟩ => ⟨S100000, .i32⟩
  | .hbm, ⟨76, _⟩ => ⟨S100000x1, .i32⟩
  | .hbm, ⟨77, _⟩ => ⟨S100000x32, .f32⟩
  | .hbm, ⟨78, _⟩ => ⟨S100000x32x1, .f32⟩
  | .hbm, ⟨79, _⟩ => ⟨S100000x32x4, .f32⟩
  | .hbm, ⟨80, _⟩ => ⟨S100000x32x4, .f32⟩
  | .hbm, ⟨81, _⟩ => ⟨S_, .i32⟩
  | .hbm, ⟨82, _⟩ => ⟨S100000, .i32⟩
  | .hbm, ⟨83, _⟩ => ⟨S100000, .i1⟩
  | .hbm, ⟨84, _⟩ => ⟨S_, .i32⟩
  | .hbm, ⟨85, _⟩ => ⟨S100000, .i32⟩
  | .hbm, ⟨86, _⟩ => ⟨S100000, .i32⟩
  | .hbm, ⟨87, _⟩ => ⟨S100000, .i32⟩
  | .hbm, ⟨88, _⟩ => ⟨S100000x1, .i32⟩
  | .hbm, ⟨89, _⟩ => ⟨S100000x32, .f32⟩
  | .hbm, ⟨90, _⟩ => ⟨S100000x32x1, .f32⟩
  | .hbm, ⟨91, _⟩ => ⟨S100000x32x4, .f32⟩
  | .hbm, ⟨92, _⟩ => ⟨S100000x32x4, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_v47 : Ref sig .tc := ⟨.hbm, 70, rfl⟩
abbrev main_v48 : Ref sig .tc := ⟨.hbm, 71, rfl⟩
abbrev main_c_13 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_v57 : Ref sig .tc := ⟨.hbm, 82, rfl⟩
abbrev main_v58 : Ref sig .tc := ⟨.hbm, 83, rfl⟩
abbrev main_c_15 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  bcast_S_S100000x27 : S_.BroadcastsInDim S100000x27 (![] : Fin 0 → Fin S100000x27.rank)
  bcast_S100000x27_S100000x27x1_0_1 : S100000x27.BroadcastsInDim S100000x27x1 (![0, 1] : Fin 2 → Fin S100000x27x1.rank)
  bcast_S100000x27x1_S100000x27x64_0_1_2 : S100000x27x1.BroadcastsInDim S100000x27x64 (![0, 1, 2] : Fin 3 → Fin S100000x27x64.rank)
  shapeCasts_S100000x27x64_S100000x1728 : S100000x27x64.ShapeCasts S100000x1728
  bcast_S_S100000 : S_.BroadcastsInDim S100000 (![] : Fin 0 → Fin S100000.rank)
  bcast_S_S8 : S_.BroadcastsInDim S8 (![] : Fin 0 → Fin S8.rank)
  bcast_S100000_S100000x1_0 : S100000.BroadcastsInDim S100000x1 (![0] : Fin 1 → Fin S100000x1.rank)
  shapeCasts_S100000x128_S100000x32x4 : S100000x128.ShapeCasts S100000x32x4
  bcast_S_S8x32x4 : S_.BroadcastsInDim S8x32x4 (![] : Fin 0 → Fin S8x32x4.rank)
  reducesTo_S8x32x4_S8x32_d2 : S8x32x4.ReducesTo [2] S8x32
  h_S_ : 0 < S_.numel
  bcast_S8_S8x1_0 : S8.BroadcastsInDim S8x1 (![0] : Fin 1 → Fin S8x1.rank)
  bcast_S8x1_S8x32_0_1 : S8x1.BroadcastsInDim S8x32 (![0, 1] : Fin 2 → Fin S8x32.rank)
  bcast_S_S8x32 : S_.BroadcastsInDim S8x32 (![] : Fin 0 → Fin S8x32.rank)
  bcast_S100000x32_S100000x32x1_0_1 : S100000x32.BroadcastsInDim S100000x32x1 (![0, 1] : Fin 2 → Fin S100000x32x1.rank)
  bcast_S100000x32x1_S100000x32x4_0_1_2 : S100000x32x1.BroadcastsInDim S100000x32x4 (![0, 1, 2] : Fin 3 → Fin S100000x32x4.rank)
  shapeCasts_S100000x32x4_S100000x128 : S100000x32x4.ShapeCasts S100000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x64_S100000x27x1_S100000x27x64_2_0_n_n_0_2_164_wf : GatherDims.WF S100000x64 S100000x27x1 S100000x27x64 [2] [0] [] [0] [] 2 ![1, 64]
  dot_S100000x1728_S1728x128_S100000x128_1_0_0_1_n_n_wf : DotDims.WF S100000x1728 S1728x128 S100000x128 [1] [0] [0] [1] [] []
  scatter_S8_S100000x1_S100000_n_0_0_1_wf : ScatterDims.WF S8 S100000x1 S100000 [] [0] [0] 1
  scatter_S8x32x4_S100000x1_S100000x32x4_12_0_0_1_wf : ScatterDims.WF S8x32x4 S100000x1 S100000x32x4 [1, 2] [0] [0] 1
  gather_S8x32_S100000x1_S100000x32_1_0_n_n_0_1_132_wf : GatherDims.WF S8x32 S100000x1 S100000x32 [1] [0] [] [0] [] 1 ![1, 32]

variable [Facts₀]

def gather_S100000x64_S100000x27x1_S100000x27x64_2_0_n_n_0_2_164 : GatherDims S100000x64 S100000x27x1 S100000x27x64 where
  offsetDims := [2]
  collapsedSliceDims := [0]
  operandBatchingDims := []
  startIndicesBatchingDims := []
  startIndexMap := [0]
  indexVectorDim := 2
  sliceSizes := ![1, 64]
  wf := gather_S100000x64_S100000x27x1_S100000x27x64_2_0_n_n_0_2_164_wf
def dot_S100000x1728_S1728x128_S100000x128_1_0_0_1_n_n : DotDims S100000x1728 S1728x128 S100000x128 where
  lhsContracting := [1]
  rhsContracting := [0]
  lhsNonContracting := [0]
  rhsNonContracting := [1]
  lhsBatch := []
  rhsBatch := []
  wf := dot_S100000x1728_S1728x128_S100000x128_1_0_0_1_n_n_wf
def scatter_S8_S100000x1_S100000_n_0_0_1 : ScatterDims S8 S100000x1 S100000 where
  updateWindowDims := []
  insertedWindowDims := [0]
  scatterDimsToOperandDims := [0]
  indexVectorDim := 1
  wf := scatter_S8_S100000x1_S100000_n_0_0_1_wf
def scatter_S8x32x4_S100000x1_S100000x32x4_12_0_0_1 : ScatterDims S8x32x4 S100000x1 S100000x32x4 where
  updateWindowDims := [1, 2]
  insertedWindowDims := [0]
  scatterDimsToOperandDims := [0]
  indexVectorDim := 1
  wf := scatter_S8x32x4_S100000x1_S100000x32x4_12_0_0_1_wf
def gather_S8x32_S100000x1_S100000x32_1_0_n_n_0_1_132 : GatherDims S8x32 S100000x1 S100000x32 where
  offsetDims := [1]
  collapsedSliceDims := [0]
  operandBatchingDims := []
  startIndicesBatchingDims := []
  startIndexMap := [0]
  indexVectorDim := 1
  sliceSizes := ![1, 32]
  wf := gather_S8x32_S100000x1_S100000x32_1_0_n_n_0_1_132_wf

class Facts : Prop extends Facts₀ where

variable [Facts]
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.Spec.lean ====
/-
  What the octree convolution followed by the per-sample group normalisation computes, on the extended reals.

  A node is a row; its 27 gathered neighbour rows, laid side by side, form one row of a [100000, 1728] matrix,
  and the convolution is that matrix times the [1728, 128] weight. Each node carries the id of its batch sample
  (eight samples). For every sample b and every group g of four consecutive channels the normalisation takes the
  sum and the sum of squares of the convolution over the nodes of b and the channels of g, divides by
  (4 * number of nodes of b + eps), and normalises each entry by the mean and the inverse standard deviation of
  its own sample and group, then scales and shifts channel by channel.
-/
import Idealize.ShloMosaic.PureOps.Ideal
import Idealize.ShloMosaic.PureOps.Ideal.Laws
import Idealize.ShloMosaic.Lib.ValueIdx
import proofs.«424105_j4612794876216_1_alg».proof.Proof.LibIndex

noncomputable section

open scoped BigOperators

namespace Cert.Oct

open Idealize.ShloMosaic Idealize.ShloMosaic.ValueIdx

/-- The convolution's result: one row per node, 128 channels. -/
abbrev Sx : Shape := ⟨2, ![100000, 128]⟩
/-- The gathered neighbourhoods: one row per node, 27 neighbours of 64 features. -/
abbrev Scol : Shape := ⟨2, ![100000, 1728]⟩
/-- The weight. -/
abbrev Sw : Shape := ⟨2, ![1728, 128]⟩
/-- The batch ids as a column. -/
abbrev Sbid : Shape := ⟨2, ![100000, 1]⟩
/-- The batch ids as given. -/
abbrev Sid : Shape := ⟨1, ![100000]⟩
/-- A per-channel vector. -/
abbrev Sch : Shape := ⟨1, ![128]⟩

/-- The batch ids laid out as a column. -/
def bidCol (a : Sid.Idx → BitVec 32) : Sbid.Idx → BitVec 32 := fun i => a (ix1 (i 0))

/-- The nodes of batch sample b: the rows whose id word, read as a signed integer, is b. -/
def seg (bid : Sbid.Idx → BitVec 32) (b : Fin 8) : Finset (Fin 100000) :=
  Finset.univ.filter fun e => (bid (ix2 e (0 : Fin 1))).toInt = (b.val : Int)

/-- One if node r belongs to sample b, zero otherwise. -/
def oh (bid : Sbid.Idx → BitVec 32) (r : Fin 100000) (b : Fin 8) : EReal :=
  if (bid (ix2 r (0 : Fin 1))).toInt = (b.val : Int) then 1 else 0

/-- The convolution: entry (r, q) is the sum over the 1728 gathered features of feature times weight. -/
def conv (col : Scol.Idx → EReal) (w : Sw.Idx → EReal) : Sx.Idx → EReal :=
  fun i => ∑ k : Fin 1728, col (ix2 (i 0) k) * w (ix2 k (i 1))

/-- Channel q of the nodes of sample b, summed. -/
def segSum (x : Sx.Idx → EReal) (bid : Sbid.Idx → BitVec 32) (b : Fin 8) (q : Fin 128) : EReal :=
  ∑ e ∈ seg bid b, x (ix2 e q)

/-- The squares of channel q of the nodes of sample b, summed. -/
def segSq (x : Sx.Idx → EReal) (bid : Sbid.Idx → BitVec 32) (b : Fin 8) (q : Fin 128) : EReal :=
  ∑ e ∈ seg bid b, x (ix2 e q) * x (ix2 e q)

/-- The number of nodes of sample b. -/
def segCnt (bid : Sbid.Idx → BitVec 32) (b : Fin 8) : EReal :=
  ∑ _e ∈ seg bid b, (1 : EReal)

/-- Channel j of group g. -/
def chan (g : Fin 32) (j : Fin 4) : Fin 128 := ⟨4 * g.val + j.val, by omega⟩

/-- The group of channel q. -/
def grp (q : Fin 128) : Fin 32 := ⟨q.val / 4, by omega⟩

/-- The sum over sample b and group g. -/
def gSum (x : Sx.Idx → EReal) (bid : Sbid.Idx → BitVec 32) (b : Fin 8) (g : Fin 32) : EReal :=
  ∑ j : Fin 4, segSum x bid b (chan g j)

/-- The sum of squares over sample b and group g. -/
def gSq (x : Sx.Idx → EReal) (bid : Sbid.Idx → BitVec 32) (b : Fin 8) (g : Fin 32) : EReal :=
  ∑ j : Fin 4, segSq x bid b (chan g j)

/-- One over (four times the number of nodes of sample b, plus eps). -/
def inv (bid : Sbid.Idx → BitVec 32) (b : Fin 8) : EReal :=
  Ideal.div (Ideal.ofBits .f32 0x3F800000#32)
    (segCnt bid b * Ideal.ofBits .f32 0x40800000#32 + Ideal.ofBits .f32 0x3727C5AC#32)

/-- The mean of sample b and group g. -/
def mean (x : Sx.Idx → EReal) (bid : Sbid.Idx → BitVec 32) (b : Fin 8) (g : Fin 32) : EReal :=
  gSum x bid b g * inv bid b

/-- The inverse standard deviation of sample b and group g. -/
def istd (x : Sx.Idx → EReal) (bid : Sbid.Idx → BitVec 32) (b : Fin 8) (g : Fin 32) : EReal :=
  Ideal.rsqrt ((gSq x bid b g * inv bid b - mean x bid b g * mean x bid b g) + Ideal.ofBits .f32 0x3727C5AC#32)

/-- The sample of node r: its id word clamped into the eight samples (the word itself when it is in range). -/
def sample (bid : Sbid.Idx → BitVec 32) (r : Fin 100000) : Fin 8 :=
  Cert.Gcn.crow 8 (by decide) (bid (ix2 r (0 : Fin 1)))

/-- The normalised, scaled and shifted convolution at node r, channel q. -/
def out (x : Sx.Idx → EReal) (bid : Sbid.Idx → BitVec 32) (gw gb : Sch.Idx → EReal) (r : Fin 100000) (q : Fin 128) : EReal :=
  (x (ix2 r q) - mean x bid (sample bid r) (grp q)) * istd x bid (sample bid r) (grp q) * gw (ix1 q) + gb (ix1 q)

end Cert.Oct

end
-- ==== Proof.Arrays.lean ====
import proofs.«424105_j4612794876216_1_alg».proof.Proof.Gen.KernelIdeal.Frame
import proofs.«424105_j4612794876216_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

/-! The arrays the three kernels read and write, each named at its literal type: what the TensorCore's buffers hold
    when a region is entered (the parameter V), and what a region's write-backs leave in its result arrays. -/

section
variable (V : (c : Dev nD) → (b : Ref sig .tc) → Buf (Elt Ideal) ((c : Thread nD τ).loc b))

/-- The gathered neighbourhoods, one row per node. -/
abbrev colA (c : Dev nD) : Cert.Oct.Scol.Idx → EReal := V c main_v15
/-- The weight. -/
abbrev wA (c : Dev nD) : Cert.Oct.Sw.Idx → EReal := V c main_v16
/-- The convolution's result. -/
abbrev xA (c : Dev nD) : Cert.Oct.Sx.Idx → EReal := V c main_v17
/-- The batch ids as a column. -/
abbrev bidA (c : Dev nD) : Cert.Oct.Sbid.Idx → BitVec 32 := V c main_v18
/-- The means, per sample and group. -/
abbrev meanA (c : Dev nD) : (⟨2, ![8, 32]⟩ : Shape).Idx → EReal := V c main_v39
/-- The inverse standard deviations, per sample and group. -/
abbrev istdA (c : Dev nD) : (⟨2, ![8, 32]⟩ : Shape).Idx → EReal := V c main_v46
/-- The group-to-channel indicator. -/
abbrev gexpA (c : Dev nD) : (⟨2, ![32, 128]⟩ : Shape).Idx → EReal := V c main_v28
/-- The scale, as a row. -/
abbrev gwA (c : Dev nD) : (⟨2, ![1, 128]⟩ : Shape).Idx → EReal := V c main_v47
/-- The shift, as a row. -/
abbrev gbA (c : Dev nD) : (⟨2, ![1, 128]⟩ : Shape).Idx → EReal := V c main_v48

/-- What the first kernel leaves in its result array. -/
abbrev convOut (c : Dev nD) : Cert.Oct.Sx.Idx → EReal := (dat0 (F := Ideal) V c).arrAt 2 cfg0.N
/-- What the second kernel leaves in its three result arrays: sums, sums of squares, counts. -/
abbrev sumOut (c : Dev nD) : (⟨2, ![8, 128]⟩ : Shape).Idx → EReal := (dat1 (F := Ideal) V c).arrAt 2 cfg1.N
abbrev sqOut (c : Dev nD) : (⟨2, ![8, 128]⟩ : Shape).Idx → EReal := (dat1 (F := Ideal) V c).arrAt 3 cfg1.N
abbrev cntOut (c : Dev nD) : (⟨2, ![8, 1]⟩ : Shape).Idx → EReal := (dat1 (F := Ideal) V c).arrAt 4 cfg1.N
/-- What the third kernel leaves in its result array. -/
abbrev normOut (c : Dev nD) : Cert.Oct.Sx.Idx → EReal := (dat2 (F := Ideal) V c).arrAt 7 cfg2.N

end

end Cert.KernelIdeal.Val

end
-- ==== Proof.Algebra.lean ====
/-
  The three sums the kernel uses in place of indexing, on the extended reals.

  The kernel never indexes a table by a batch id or a group number: it multiplies by an indicator and sums.
  A sum of indicator times value over all samples is the value at the node's own sample; a sum of value times
  the group indicator over all groups is the value at the channel's own group; and a sum of value times the
  group indicator over all channels is the sum over the group's four channels. Each holds on the extended reals
  with no finiteness assumption, because zero times anything is zero and one times anything is itself; no
  distributive law is used.
-/
import proofs.«424105_j4612794876216_1_alg».proof.Proof.Spec
import Mathlib.Algebra.BigOperators.Group.Finset.Basic
import Mathlib.Algebra.BigOperators.Ring.Finset

noncomputable section

open scoped BigOperators

namespace Cert.Oct

open Idealize.ShloMosaic Idealize.ShloMosaic.ValueIdx

/-- A sum against the sample indicator picks the node's own sample, when its id is one of the eight. -/
theorem sum_oh_mul (bid : Sbid.Idx → BitVec 32) (r : Fin 100000)
    (h0 : 0 ≤ (bid (ix2 r (0 : Fin 1))).toInt) (h1 : (bid (ix2 r (0 : Fin 1))).toInt < 8) (M : Fin 8 → EReal) :
    ∑ b : Fin 8, oh bid r b * M b = M (sample bid r) := by
  -- the id word, read signed, is b exactly when b is the clamped word
  have hs : ((sample bid r).val : Int) = (bid (ix2 r (0 : Fin 1))).toInt :=
    Cert.Gcn.crow_val_of_range (by decide) _ h0 (by exact_mod_cast h1)
  have hiff : ∀ b : Fin 8, ((bid (ix2 r (0 : Fin 1))).toInt = (b.val : Int)) ↔ b = sample bid r := by
    intro b
    constructor
    · intro h; apply Fin.ext; omega
    · intro h; subst h; exact hs.symm
  unfold oh
  simp only [hiff, ite_mul, one_mul, zero_mul, Finset.sum_ite_eq', Finset.mem_univ, if_true]

/-- A sum against the group indicator over the groups picks the channel's own group. -/
theorem sum_grp_expand (R : Fin 32 → EReal) (q : Fin 128) :
    ∑ g : Fin 32, R g * (if grp q = g then (1 : EReal) else 0) = R (grp q) := by
  simp only [mul_ite, mul_one, mul_zero, Finset.sum_ite_eq, Finset.mem_univ, if_true]

/-- A sum against the group indicator over the channels is the sum over the group's four channels. -/
theorem sum_grp_reduce (f : Fin 128 → EReal) (g : Fin 32) :
    ∑ q : Fin 128, f q * (if grp q = g then (1 : EReal) else 0) = ∑ j : Fin 4, f (chan g j) := by
  have hfil : (∑ q : Fin 128, f q * (if grp q = g then (1 : EReal) else 0))
      = ∑ q ∈ Finset.univ.filter (fun q : Fin 128 => grp q = g), f q := by
    rw [Finset.sum_filter]
    refine Finset.sum_congr rfl fun q _ => ?_
    by_cases h : grp q = g
    · rw [if_pos h, if_pos h, mul_one]
    · rw [if_neg h, if_neg h, mul_zero]
  rw [hfil]
  symm
  -- the channels of group g are 4g, 4g+1, 4g+2, 4g+3
  refine Finset.sum_nbij' (fun j : Fin 4 => chan g j) (fun q : Fin 128 => (⟨q.val % 4, by omega⟩ : Fin 4)) ?_ ?_ ?_ ?_ ?_
  · intro j _
    refine Finset.mem_filter.mpr ⟨Finset.mem_univ _, ?_⟩
    apply Fin.ext
    show (4 * g.val + j.val) / 4 = g.val
    omega
  · intro q _; exact Finset.mem_univ _
  · intro j _
    apply Fin.ext
    show (4 * g.val + j.val) % 4 = j.val
    omega
  · intro q hq
    have hg : q.val / 4 = g.val := congrArg Fin.val (Finset.mem_filter.mp hq).2
    apply Fin.ext
    show 4 * g.val + q.val % 4 = q.val
    omega
  · intro j _; rfl

end Cert.Oct

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Region0.lean ====
import proofs.«424105_j4612794876216_1_alg».proof.Proof.Gen.KernelIdeal.Frame
import proofs.«424105_j4612794876216_1_alg».proof.Proof.Spec
import proofs.«424105_j4612794876216_1_alg».proof.Proof.Arrays
import proofs.«424105_j4612794876216_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# The convolution as one matrix product, block of rows by block of rows

The rows of the gathered neighbourhoods are cut into fifty blocks of 2000. At block `t` the product of rows
`2000 t … 2000 t + 1999` (all 1728 columns) with the whole weight is formed and written to the same rows of the
result. A row's product with a column of the weight depends on that row alone, so every block is the restriction of
one function of the whole arrays, `(r, q) ↦ ∑ k, col (r, k) * w (k, q)`; the blocks tile the rows (row `r` lies in
block `r / 2000`), hence the result array is that function everywhere.
-/

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Conv

/-- The zero offset of a whole-block access, as a constant function. -/
theorem hz : (![0, 0] : Fin 2 → Nat) = fun _ => 0 := funext fun a => by fin_cases a <;> rfl

/-- Where the three operands' blocks sit at grid point `t`: the gathered rows and the result at block row `t`,
    block column 0; the weight always at its one block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One block's product at an entry: a product into a zero accumulator is the plain sum over the contracted axis
    (the two re-shapings to the same shape change nothing). -/
theorem pay_apply (x0 : Vec Ideal S2000x1728 .bf16) (x1 : Vec Ideal S1728x128 .bf16) (j : S2000x128.Idx) :
    k0_pay1 (F := Ideal) x0 x1 j = ∑ k : Fin 1728, x0 (ix2 (j 0) k) * x1 (ix2 k (j 1)) := by
  unfold k0_pay1
  simp only [shapeCast_self]
  exact Cert.PlainDot.matmul_zero_apply dot_S2000x1728_S1728x128_S2000x128_1_0_0_1_n_n rfl none x0 x1 j

/-- The whole result as one function of the whole arrays: row of the gathered neighbourhoods times column of the weight. -/
abbrev G (c : Dev nD) : Cert.Oct.Sx.Idx → EReal :=
  fun i => ∑ k : Fin 1728, colA V c (ix2 (i 0) k) * wA V c (ix2 k (i 1))

/-- Block `t` of the gathered neighbourhoods, at its literal type. -/
abbrev colBlk (c : Dev nD) (t : Fin cfg0.N) : Vec Ideal S2000x1728 .bf16 := iblk0 V c 0 t
/-- The weight's block at point `t` (always the whole weight), at its literal type. -/
abbrev wBlk (c : Dev nD) (t : Fin cfg0.N) : Vec Ideal S1728x128 .bf16 := iblk0 V c 1 t

/-- Row `p` of block `t` of the gathered neighbourhoods is row `2000 t + p` of the array. -/
theorem colBlk_apply (c : Dev nD) (t : Fin cfg0.N) (p : Fin 2000) (k : Fin 1728) (r : Fin 100000)
    (hr : r.val = t.val * 2000 + p.val) : colBlk V c t (ix2 p k) = colA V c (ix2 r k) := by
  obtain ⟨e0, e1, e2, e3, e4, e5⟩ := idx_facts t
  show V c main_v15 (((cfg0.win 0).blk t).view.emb (ix2 p k)) = V c main_v15 (ix2 r k)
  refine congrArg (V c main_v15) ?_
  funext a; apply Fin.ext
  match a with
  | ⟨0, _⟩ => show win0_0.index t (0 : Fin 2) * 2000 + 1 * p.val = r.val; omega
  | ⟨1, _⟩ => show win0_0.index t (1 : Fin 2) * 1728 + 1 * k.val = k.val; omega

/-- The weight's block is the weight. -/
theorem wBlk_apply (c : Dev nD) (t : Fin cfg0.N) (k : Fin 1728) (q : Fin 128) :
    wBlk V c t (ix2 k q) = wA V c (ix2 k q) := by
  obtain ⟨e0, e1, e2, e3, e4, e5⟩ := idx_facts t
  show V c main_v16 (((cfg0.win 1).blk t).view.emb (ix2 k q)) = V c main_v16 (ix2 k q)
  refine congrArg (V c main_v16) ?_
  funext a; apply Fin.ext
  match a with
  | ⟨0, _⟩ => show win0_1.index t (0 : Fin 2) * 1728 + 1 * k.val = k.val; omega
  | ⟨1, _⟩ => show win0_1.index t (1 : Fin 2) * 128 + 1 * q.val = q.val; omega

/-- What point `t` writes back is block `t` of `G`: entry `(p, q)` of the block's product is the sum over `k` of
    row `2000 t + p` of the gathered neighbourhoods times column `q` of the weight. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero hz]
  simp only [View.ld_unit_zero (S := S2000x1728) hz, View.ld_unit_zero (S := S1728x128) hz]
  obtain ⟨e0, e1, e2, e3, e4, e5⟩ := idx_facts t
  funext j
  show k0_pay1 (F := Ideal) (colBlk V c t) (wBlk V c t) j = G V c (((cfg0.win 2).blk t).view.emb j)
  refine (pay_apply (colBlk V c t) (wBlk V c t) j).trans ?_
  refine Finset.sum_congr rfl fun k _ => ?_
  have h0 : ((((cfg0.win 2).blk t).view.emb j) 0).val = t.val * 2000 + (j 0).val := by
    show win0_2.index t (0 : Fin 2) * 2000 + 1 * (j 0).val = _; omega
  have h1 : (((cfg0.win 2).blk t).view.emb j) 1 = j 1 :=
    Fin.ext (by show win0_2.index t (1 : Fin 2) * 128 + 1 * (j 1).val = (j 1).val; omega)
  have hc : colBlk V c t (ix2 (j 0) k) = colA V c (ix2 ((((cfg0.win 2).blk t).view.emb j) 0) k) :=
    colBlk_apply V c t (j 0) k ((((cfg0.win 2).blk t).view.emb j) 0) h0
  have hw : wBlk V c t (ix2 k (j 1)) = wA V c (ix2 k ((((cfg0.win 2).blk t).view.emb j) 1)) :=
    (wBlk_apply V c t k (j 1)).trans (congrArg (fun q => wA V c (ix2 k q)) h1.symm)
  rw [hc, hw]

/-- An entry of the result lies in block `t` iff each of its coordinates lies in the block's range on that axis. -/
theorem mem_blk (t : Fin cfg0.N) (i : Cert.Oct.Sx.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v17).slice (win0_2.rect t)).set ↔ _
  rw [View.set_slice_whole, Rect.mem_set_unit]
  exact Iff.rfl

/-- The fifty blocks tile the rows: row `r` lies in block `r / 2000`, and every block spans all 128 columns. -/
theorem cover (i : Cert.Oct.Sx.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- Every block written is a block of `G` and the blocks cover the array, so the array ends holding `G`. -/
theorem final (c : Dev nD) : (dat0 (F := Ideal) V c).arrAt 2 cfg0.N = G V c :=
  (dat0 (F := Ideal) V c).arrAt_eq_of_cover 2 (G V c) (fun t _ => flushed_eq V c t) cover

end Conv

/-- The first kernel's result array: entry (r, q) is row r of the gathered neighbourhoods times column q of the weight. -/
theorem conv_arr (c : Dev nD) (r : Fin 100000) (q : Fin 128) :
    convOut V c (ix2 r q) = ∑ k : Fin 1728, colA V c (ix2 r k) * wA V c (ix2 k q) :=
  congrFun (Conv.final V c) (ix2 r q)

end Cert.KernelIdeal.Val

end
-- ==== Proof.Region1.lean ====
/-
  The second kernel: per-sample sums, sums of squares and counts of the convolution's rows.

  The grid has ten points; point t reads rows 10000 t … 10000 t + 9999 of the convolution and of the id column, and all
  ten points share ONE block of each of the three results. Point 0 first sets the three blocks to zero; every point
  then adds, to entry (b, q) of the sums, the rows of its block whose id word is b, channel q, summed (an indicator
  matrix contracted with the block over its rows); to the sums of squares the same with every entry squared; and to
  entry (b, 0) of the counts the number of those rows. By induction over the points, after point n an entry holds
  the sum over the rows below 10000 (n + 1); only the last point writes the blocks back, so the result arrays are
  the sums over all rows with id b, that is over the nodes of sample b. Only 0 * x = 0, 1 * x = x and the
  commutative-monoid laws of addition are used: entries may be infinite.
-/
import proofs.«424105_j4612794876216_1_alg».proof.Proof.Gen.KernelIdeal.Frame
import proofs.«424105_j4612794876216_1_alg».proof.Proof.Spec
import proofs.«424105_j4612794876216_1_alg».proof.Proof.Arrays
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

namespace Stats

/-! ## The per-point arithmetic, entry by entry -/

/-- An equality test of two words, widened to a word and read as a signed integer, is one or zero. -/
theorem flag_val (x y : BitVec 32) :
    ((((IntOp.cmpi .eq x y).setWidth 32).toInt : ℝ) : EReal) = if x = y then 1 else 0 := by
  unfold IntOp.cmpi
  by_cases h : x = y
  · subst h; simp
  · rw [if_neg h]
    have hb : (x == y) = false := by simpa using h
    simp [hb]

/-- The sample indicator of a block of id words: entry (r, b) is one when row r's word is b, else zero. -/
theorem onehot_apply (v5 : Vec Ideal S10000x1 .i32) (r : Fin 10000) (b : Fin 8) :
    k1_pay5 (F := Ideal) v5 (ix2 r b)
      = if v5 (ix2 r (0 : Fin 1)) = BitVec.ofNat 32 b.val then (1 : EReal) else 0 := by
  have e1 : broadcastTo S10000x8 (shapeCast S10000x1 v5 shapeCasts_S10000x1_S10000x1) broadcasts_S10000x1_S10000x8 (ix2 r b)
      = v5 (ix2 r (0 : Fin 1)) := by
    rw [shapeCast_self]
    refine broadcastTo_apply v5 broadcasts_S10000x1_S10000x8 (ix2 r b) (ix2 r (0 : Fin 1)) fun a => ?_
    match a with
    | ⟨0, _⟩ => rfl
    | ⟨1, _⟩ => rfl
  have e2 : iota .tc S10000x8 32 [1] iota_S10000x8_d1_w32 (ix2 r b) = BitVec.ofNat 32 b.val :=
    iota_single_apply .tc S10000x8 32 1 iota_S10000x8_d1_w32 (ix2 r b)
  unfold k1_pay5
  show (((((IntOp.cmpi .eq (broadcastTo S10000x8 (shapeCast S10000x1 v5 shapeCasts_S10000x1_S10000x1) broadcasts_S10000x1_S10000x8 (ix2 r b))
      (iota .tc S10000x8 32 [1] iota_S10000x8_d1_w32 (ix2 r b))).setWidth 32).toInt : ℝ)) : EReal) = _
  rw [e1, e2]
  exact flag_val _ _

/-! The product that contracts the ROWS of both operands: the four coordinate facts of its index maps. -/

theorem lhs_rows_0 (i : S8x128.Idx) (q : dot_S10000x8_S10000x128_S8x128_0_0_1_1_n_n.contr.Idx) :
    (dot_S10000x8_S10000x128_S8x128_0_0_1_1_n_n.lhsIdx i q 0).val = (q ⟨0, by decide⟩).val :=
  dot_S10000x8_S10000x128_S8x128_0_0_1_1_n_n.lhsIdx_val_of_single rfl i q
theorem lhs_rows_1 (i : S8x128.Idx) (q : dot_S10000x8_S10000x128_S8x128_0_0_1_1_n_n.contr.Idx) :
    (dot_S10000x8_S10000x128_S8x128_0_0_1_1_n_n.lhsIdx i q 1).val = (i 0).val := by
  unfold DotDims.lhsIdx
  rw [dif_neg (show ¬(1 : Fin S10000x8.rank) ∈ dot_S10000x8_S10000x128_S8x128_0_0_1_1_n_n.lhsBatch by decide), dif_pos (show (1 : Fin S10000x8.rank) ∈ dot_S10000x8_S10000x128_S8x128_0_0_1_1_n_n.lhsNonContracting by decide)]
  rfl
theorem rhs_rows_0 (i : S8x128.Idx) (q : dot_S10000x8_S10000x128_S8x128_0_0_1_1_n_n.contr.Idx) :
    (dot_S10000x8_S10000x128_S8x128_0_0_1_1_n_n.rhsIdx i q 0).val = (q ⟨0, by decide⟩).val :=
  dot_S10000x8_S10000x128_S8x128_0_0_1_1_n_n.rhsIdx_val_of_single rfl i q
theorem rhs_rows_1 (i : S8x128.Idx) (q : dot_S10000x8_S10000x128_S8x128_0_0_1_1_n_n.contr.Idx) :
    (dot_S10000x8_S10000x128_S8x128_0_0_1_1_n_n.rhsIdx i q 1).val = (i 1).val := by
  unfold DotDims.rhsIdx
  rw [dif_neg (show ¬(1 : Fin S10000x128.rank) ∈ dot_S10000x8_S10000x128_S8x128_0_0_1_1_n_n.rhsBatch by decide), dif_pos (show (1 : Fin S10000x128.rank) ∈ dot_S10000x8_S10000x128_S8x128_0_0_1_1_n_n.rhsNonContracting by decide)]
  rfl

/-- Into the zero accumulator that product's entry (b, q) is the sum over the rows k of l (k, b) * r (k, q). -/
theorem rows_dot_apply (l : FVec Ideal S10000x8 .f32) (r : FVec Ideal S10000x128 .f32) (b : Fin 8) (q : Fin 128) :
    FloatOps.matmul dot_S10000x8_S10000x128_S8x128_0_0_1_1_n_n none l r (constant S8x128 .f32 0x00000000#32) (ix2 b q)
      = ∑ k : Fin 10000, l (ix2 k b) * r (ix2 k q) := by
  rw [Ideal.matmul_constant_zero_apply, ← Equiv.sum_comp (contrEquiv1 dot_S10000x8_S10000x128_S8x128_0_0_1_1_n_n 10000 rfl rfl).symm]
  refine Finset.sum_congr rfl fun k _ => ?_
  have hk := contrEquiv1_symm_val dot_S10000x8_S10000x128_S8x128_0_0_1_1_n_n 10000 rfl rfl k
  have el : dot_S10000x8_S10000x128_S8x128_0_0_1_1_n_n.lhsIdx (ix2 b q) ((contrEquiv1 dot_S10000x8_S10000x128_S8x128_0_0_1_1_n_n 10000 rfl rfl).symm k) = ix2 k b := funext fun a => Fin.ext (by
    match a with
    | ⟨0, _⟩ => exact (lhs_rows_0 _ _).trans hk
    | ⟨1, _⟩ => exact lhs_rows_1 _ _)
  have er : dot_S10000x8_S10000x128_S8x128_0_0_1_1_n_n.rhsIdx (ix2 b q) ((contrEquiv1 dot_S10000x8_S10000x128_S8x128_0_0_1_1_n_n 10000 rfl rfl).symm k) = ix2 k q := funext fun a => Fin.ext (by
    match a with
    | ⟨0, _⟩ => exact (rhs_rows_0 _ _).trans hk
    | ⟨1, _⟩ => exact rhs_rows_1 _ _)
  rw [el, er]

/-- What a point adds to the sums: entry (b, q) becomes the old entry plus the block's rows with id word b,
    channel q, summed (zero times anything is zero and one times x is x: no distributivity is used). -/
theorem pay6_apply (v3 : Vec Ideal S10000x128 .f32) (v5 : Vec Ideal S10000x1 .i32) (v12 : Vec Ideal S8x128 .f32)
    (b : Fin 8) (q : Fin 128) :
    k1_pay6 (F := Ideal) v3 v5 v12 (ix2 b q)
      = v12 (ix2 b q) + ∑ k : Fin 10000,
          if v5 (ix2 k (0 : Fin 1)) = BitVec.ofNat 32 b.val then v3 (ix2 k q) else 0 := by
  unfold k1_pay6
  show shapeCast S8x128 v12 shapeCasts_S8x128_S8x128 (ix2 b q)
      + FloatOps.matmul dot_S10000x8_S10000x128_S8x128_0_0_1_1_n_n none (k1_pay5 (F := Ideal) v5) (k1_pay4 (F := Ideal) v3)
          (constant S8x128 .f32 0x00000000#32) (ix2 b q) = _
  rw [shapeCast_self, rows_dot_apply]
  refine congrArg (v12 (ix2 b q) + ·) (Finset.sum_congr rfl fun k _ => ?_)
  rw [onehot_apply]
  unfold k1_pay4
  rw [shapeCast_self, ite_mul, one_mul, zero_mul]

/-- The same for the sums of squares. -/
theorem pay7_apply (v3 : Vec Ideal S10000x128 .f32) (v5 : Vec Ideal S10000x1 .i32) (v17 : Vec Ideal S8x128 .f32)
    (b : Fin 8) (q : Fin 128) :
    k1_pay7 (F := Ideal) v3 v5 v17 (ix2 b q)
      = v17 (ix2 b q) + ∑ k : Fin 10000,
          if v5 (ix2 k (0 : Fin 1)) = BitVec.ofNat 32 b.val then v3 (ix2 k q) * v3 (ix2 k q) else 0 := by
  unfold k1_pay7
  show shapeCast S8x128 v17 shapeCasts_S8x128_S8x128 (ix2 b q)
      + FloatOps.matmul dot_S10000x8_S10000x128_S8x128_0_0_1_1_n_n none (k1_pay5 (F := Ideal) v5)
          (mulf (k1_pay4 (F := Ideal) v3) (k1_pay4 (F := Ideal) v3))
          (constant S8x128 .f32 0x00000000#32) (ix2 b q) = _
  rw [shapeCast_self, rows_dot_apply]
  refine congrArg (v17 (ix2 b q) + ·) (Finset.sum_congr rfl fun k _ => ?_)
  rw [onehot_apply, mulf_apply]
  unfold k1_pay4
  rw [shapeCast_self, ite_mul, one_mul, zero_mul]

/-- And for the counts: entry (b, 0) becomes the old entry plus the number of the block's rows with id word b. -/
theorem pay8_apply (v5 : Vec Ideal S10000x1 .i32) (v23 : Vec Ideal S8x1 .f32) (b : Fin 8) :
    k1_pay8 (F := Ideal) v5 v23 (ix2 b (0 : Fin 1))
      = v23 (ix2 b (0 : Fin 1)) + ∑ k : Fin 10000,
          if v5 (ix2 k (0 : Fin 1)) = BitVec.ofNat 32 b.val then (1 : EReal) else 0 := by
  unfold k1_pay8
  show shapeCast S8x1 v23 shapeCasts_S8x1_S8x1 (ix2 b (0 : Fin 1))
      + transpose S8x1 [1, 0] (shapeCast S1x8 (multiReduction (F := Ideal) .add [0] S8 (k1_pay5 (F := Ideal) v5) 0x00000000#32 reduces_S10000x8_S8 (.inl rfl) rfl)
          shapeCasts_S8_S1x8) transposes_S1x8_p1_0_S8x1 (ix2 b (0 : Fin 1)) = _
  rw [shapeCast_self, transpose_ix2_apply, shapeCast_a_1a_apply]
  refine congrArg (v23 (ix2 b (0 : Fin 1)) + ·)
    ((Ideal.multiReduction_add_single (k1_pay5 (F := Ideal) v5) 0x00000000#32 reduces_S10000x8_S8 (.inl rfl) rfl (ix1 b)).trans ?_)
  refine Finset.sum_congr rfl fun k _ => ?_
  have hk : reduces_S10000x8_S8.lift (ix1 b) k = ix2 k b := funext fun a => Fin.ext (by
    match a with
    | ⟨0, _⟩ => rfl
    | ⟨1, _⟩ => rfl)
  rw [hk]
  exact onehot_apply v5 k b

/-- The reset stores zero everywhere. -/
theorem pay1_apply (j : S8x128.Idx) : k1_pay1 (F := Ideal) j = 0 := Ideal.ofBits_zero_f32
theorem pay2_apply (j : S8x128.Idx) : k1_pay2 (F := Ideal) j = 0 := Ideal.ofBits_zero_f32
theorem pay3_apply (j : S8x1.Idx) : k1_pay3 (F := Ideal) j = 0 := Ideal.ofBits_zero_f32

/-! ## What a point's run leaves in each result block

At a later point each result block is stored once, whole: the stored value is the point's update of the block's
old contents. At the first point each block is stored twice, whole: zero, then the update of the zero just stored. -/

section Pieces
variable {F : FTy → Type} [FloatOps F]

/-- The zero offsets of a whole-block access. -/
theorem zeros2 : (![0, 0] : Fin 2 → Nat) = fun _ => 0 := funext fun a => by fin_cases a <;> rfl

/-- A later point leaves in result one the update of what the point before left. -/
theorem later_2 (c : Dev nD) (i : grid1.Coords) (a1 : Memref sig .tc .vmem S10000x128 .f32) (h1 : a1.IsWhole)
    (a2 : Memref sig .tc .vmem S10000x1 .i32) (h2 : a2.IsWhole) (a3 : Memref sig .tc .vmem S8x128 .f32) (h3 : a3.IsWhole)
    (a4 : Memref sig .tc .vmem S8x128 .f32) (h4 : a4.IsWhole) (a5 : Memref sig .tc .vmem S8x1 .f32) (h5 : a5.IsWhole)
    (hc : ¬cond1_0 i) (x0 : Vec F S10000x128 .f32) (x1 : Vec F S10000x1 .i32) (xo2 : Vec F S8x128 .f32)
    (xo3 : Vec F S8x128 .f32) (xo4 : Vec F S8x1 .f32) :
    out1_B_2 c i a1 h1 a2 h2 a3 h3 a4 h4 a5 h5 hc x0 x1 xo2 xo3 xo4 = k1_pay6 x0 x1 xo2 := by
  unfold out1_B_2
  rw [View.read_writes_eq_canon _ _ _ (cover1_B_2 c i a1 h1 a2 h2 a3 h3 a4 h4 a5 h5 hc x0 x1 xo2 xo3 xo4)]
  unfold kernelRun1_B
  dsimp only
  sl_unfold_words
  rw [View.canon_unit_zero zeros2]
  simp only [View.readAt_eq_ld, h1.read_unread, h2.read_unread, h3.read_unread, h4.read_unread, h5.read_unread,
    View.ld_unit_zero (S := S10000x128) zeros2, View.ld_unit_zero (S := S10000x1) zeros2,
    View.ld_unit_zero (S := S8x128) zeros2, View.ld_unit_zero (S := S8x1) zeros2]

/-- A later point leaves in result two the update of what the point before left. -/
theorem later_3 (c : Dev nD) (i : grid1.Coords) (a1 : Memref sig .tc .vmem S10000x128 .f32) (h1 : a1.IsWhole)
    (a2 : Memref sig .tc .vmem S10000x1 .i32) (h2 : a2.IsWhole) (a3 : Memref sig .tc .vmem S8x128 .f32) (h3 : a3.IsWhole)
    (a4 : Memref sig .tc .vmem S8x128 .f32) (h4 : a4.IsWhole) (a5 : Memref sig .tc .vmem S8x1 .f32) (h5 : a5.IsWhole)
    (hc : ¬cond1_0 i) (x0 : Vec F S10000x128 .f32) (x1 : Vec F S10000x1 .i32) (xo2 : Vec F S8x128 .f32)
    (xo3 : Vec F S8x128 .f32) (xo4 : Vec F S8x1 .f32) :
    out1_B_3 c i a1 h1 a2 h2 a3 h3 a4 h4 a5 h5 hc x0 x1 xo2 xo3 xo4 = k1_pay7 x0 x1 xo3 := by
  unfold out1_B_3
  rw [View.read_writes_eq_canon _ _ _ (cover1_B_3 c i a1 h1 a2 h2 a3 h3 a4 h4 a5 h5 hc x0 x1 xo2 xo3 xo4)]
  unfold kernelRun1_B
  dsimp only
  sl_unfold_words
  rw [View.canon_unit_zero zeros2]
  simp only [View.readAt_eq_ld, h1.read_unread, h2.read_unread, h3.read_unread, h4.read_unread, h5.read_unread,
    View.ld_unit_zero (S := S10000x128) zeros2, View.ld_unit_zero (S := S10000x1) zeros2,
    View.ld_unit_zero (S := S8x128) zeros2, View.ld_unit_zero (S := S8x1) zeros2]

/-- A later point leaves in result three the update of what the point before left. -/
theorem later_4 (c : Dev nD) (i : grid1.Coords) (a1 : Memref sig .tc .vmem S10000x128 .f32) (h1 : a1.IsWhole)
    (a2 : Memref sig .tc .vmem S10000x1 .i32) (h2 : a2.IsWhole) (a3 : Memref sig .tc .vmem S8x128 .f32) (h3 : a3.IsWhole)
    (a4 : Memref sig .tc .vmem S8x128 .f32) (h4 : a4.IsWhole) (a5 : Memref sig .tc .vmem S8x1 .f32) (h5 : a5.IsWhole)
    (hc : ¬cond1_0 i) (x0 : Vec F S10000x128 .f32) (x1 : Vec F S10000x1 .i32) (xo2 : Vec F S8x128 .f32)
    (xo3 : Vec F S8x128 .f32) (xo4 : Vec F S8x1 .f32) :
    out1_B_4 c i a1 h1 a2 h2 a3 h3 a4 h4 a5 h5 hc x0 x1 xo2 xo3 xo4 = k1_pay8 x1 xo4 := by
  unfold out1_B_4
  rw [View.read_writes_eq_canon _ _ _ (cover1_B_4 c i a1 h1 a2 h2 a3 h3 a4 h4 a5 h5 hc x0 x1 xo2 xo3 xo4)]
  unfold kernelRun1_B
  dsimp only
  sl_unfold_words
  rw [View.canon_unit_zero zeros2]
  simp only [View.readAt_eq_ld, h1.read_unread, h2.read_unread, h3.read_unread, h4.read_unread, h5.read_unread,
    View.ld_unit_zero (S := S10000x128) zeros2, View.ld_unit_zero (S := S10000x1) zeros2,
    View.ld_unit_zero (S := S8x128) zeros2, View.ld_unit_zero (S := S8x1) zeros2]

/-- The first point leaves in result one the update of the zero block. -/
theorem first_2 (c : Dev nD) (i : grid1.Coords) (a1 : Memref sig .tc .vmem S10000x128 .f32) (h1 : a1.IsWhole)
    (a2 : Memref sig .tc .vmem S10000x1 .i32) (h2 : a2.IsWhole) (a3 : Memref sig .tc .vmem S8x128 .f32) (h3 : a3.IsWhole)
    (a4 : Memref sig .tc .vmem S8x128 .f32) (h4 : a4.IsWhole) (a5 : Memref sig .tc .vmem S8x1 .f32) (h5 : a5.IsWhole)
    (hc : cond1_0 i) (x0 : Vec F S10000x128 .f32) (x1 : Vec F S10000x1 .i32) :
    out1_A_2 c i a1 h1 a2 h2 a3 h3 a4 h4 a5 h5 hc x0 x1 = k1_pay6 x0 x1 (k1_pay1 (F := F)) := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_cons_unit_zero (S := S8x128) zeros2]
  simp only [View.readAt_eq_ld, h1.read_unread, h2.read_unread, View.readCov_unit_zero (S := S8x128) _ zeros2,
    View.ld_unit_zero (S := S10000x128) zeros2, View.ld_unit_zero (S := S10000x1) zeros2]

/-- The first point leaves in result two the update of the zero block. -/
theorem first_3 (c : Dev nD) (i : grid1.Coords) (a1 : Memref sig .tc .vmem S10000x128 .f32) (h1 : a1.IsWhole)
    (a2 : Memref sig .tc .vmem S10000x1 .i32) (h2 : a2.IsWhole) (a3 : Memref sig .tc .vmem S8x128 .f32) (h3 : a3.IsWhole)
    (a4 : Memref sig .tc .vmem S8x128 .f32) (h4 : a4.IsWhole) (a5 : Memref sig .tc .vmem S8x1 .f32) (h5 : a5.IsWhole)
    (hc : cond1_0 i) (x0 : Vec F S10000x128 .f32) (x1 : Vec F S10000x1 .i32) :
    out1_A_3 c i a1 h1 a2 h2 a3 h3 a4 h4 a5 h5 hc x0 x1 = k1_pay7 x0 x1 (k1_pay2 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S8x128) zeros2]
  simp only [View.readAt_eq_ld, h1.read_unread, h2.read_unread, View.readCov_unit_zero (S := S8x128) _ zeros2,
    View.ld_unit_zero (S := S10000x128) zeros2, View.ld_unit_zero (S := S10000x1) zeros2]

/-- The first point leaves in result three the update of the zero block. -/
theorem first_4 (c : Dev nD) (i : grid1.Coords) (a1 : Memref sig .tc .vmem S10000x128 .f32) (h1 : a1.IsWhole)
    (a2 : Memref sig .tc .vmem S10000x1 .i32) (h2 : a2.IsWhole) (a3 : Memref sig .tc .vmem S8x128 .f32) (h3 : a3.IsWhole)
    (a4 : Memref sig .tc .vmem S8x128 .f32) (h4 : a4.IsWhole) (a5 : Memref sig .tc .vmem S8x1 .f32) (h5 : a5.IsWhole)
    (hc : cond1_0 i) (x0 : Vec F S10000x128 .f32) (x1 : Vec F S10000x1 .i32) :
    out1_A_4 c i a1 h1 a2 h2 a3 h3 a4 h4 a5 h5 hc x0 x1 = k1_pay8 x1 (k1_pay3 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S8x1) zeros2]
  simp only [View.readAt_eq_ld, h1.read_unread, h2.read_unread, View.readCov_unit_zero (S := S8x1) _ zeros2,
    View.ld_unit_zero (S := S10000x128) zeros2, View.ld_unit_zero (S := S10000x1) zeros2]

end Pieces

/-! ## The blocks a point reads -/

variable (V : (c : Dev nD) → (b : Ref sig .tc) → Buf (Elt Ideal) ((c : Thread nD τ).loc b))

/-- The block of convolution rows point t reads, and the block of id words. -/
abbrev xblk (c : Dev nD) (t : Fin cfg1.N) : Vec Ideal S10000x128 .f32 := iblk1 V c 0 t
abbrev idblk (c : Dev nD) (t : Fin cfg1.N) : Vec Ideal S10000x1 .i32 := iblk1 V c 1 t

/-- Both input windows step down the rows with the point and stay in column block zero. -/
theorem in_idx : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row k of point t's block is row 10000 t + k of the array. -/
theorem xblk_apply (c : Dev nD) (t : Fin cfg1.N) (k : Fin 10000) (q : Fin 128) (e : Fin 100000)
    (he : e.val = 10000 * t.val + k.val) : xblk V c t (ix2 k q) = xA V c (ix2 e q) := by
  show iblk1 V c 0 t (ix2 k q) = _
  unfold iblk1
  rw [View.read_apply]
  show V c main_v17 _ = V c main_v17 _
  refine congrArg (V c main_v17) (funext fun a => Fin.ext ?_)
  obtain ⟨e0, e1, -, -⟩ := in_idx t
  match a with
  | ⟨0, _⟩ => show win1_0.index t (0 : Fin 2) * 10000 + 1 * k.val = e.val; rw [e0, he]; omega
  | ⟨1, _⟩ => show win1_0.index t (1 : Fin 2) * 128 + 1 * q.val = q.val; rw [e1]; omega

/-- The same for the id words. -/
theorem idblk_apply (c : Dev nD) (t : Fin cfg1.N) (k : Fin 10000) (e : Fin 100000)
    (he : e.val = 10000 * t.val + k.val) : idblk V c t (ix2 k (0 : Fin 1)) = bidA V c (ix2 e (0 : Fin 1)) := by
  show iblk1 V c 1 t (ix2 k (0 : Fin 1)) = _
  unfold iblk1
  rw [View.read_apply]
  show V c main_v18 _ = V c main_v18 _
  refine congrArg (V c main_v18) (funext fun a => Fin.ext ?_)
  obtain ⟨-, -, e0, e1⟩ := in_idx t
  match a with
  | ⟨0, _⟩ => show win1_1.index t (0 : Fin 2) * 10000 + 1 * k.val = e.val; rw [e0, he]; omega
  | ⟨1, _⟩ => show win1_1.index t (1 : Fin 2) * 1 + 1 * (0 : Fin 1).val = (0 : Fin 1).val; rw [e1]; omega

/-! ## Sums over the nodes, cut into the points' blocks -/

/-- A function on the nodes, continued by zero over all naturals. -/
def ext0 (f : Fin 100000 → EReal) (e : ℕ) : EReal := if h : e < 100000 then f ⟨e, h⟩ else 0

/-- The sum of f over all nodes is the sum of its continuation below 100000. -/
theorem sum_ext0 (f : Fin 100000 → EReal) : ∑ e ∈ Finset.range 100000, ext0 f e = ∑ e : Fin 100000, f e := by
  rw [Finset.sum_range]
  refine Finset.sum_congr rfl fun e _ => ?_
  unfold ext0
  rw [dif_pos e.isLt]

/-- One more block of 10000: the sum below m + 10000 is the sum below m plus the block's own sum, whatever
    names the block's entries by their row inside the block. -/
theorem sum_ext0_block (f : Fin 100000 → EReal) (m : ℕ) (hm : m + 10000 ≤ 100000) (g : Fin 10000 → EReal)
    (hg : ∀ (k : Fin 10000) (e : Fin 100000), e.val = m + k.val → g k = f e) :
    ∑ e ∈ Finset.range (m + 10000), ext0 f e = ∑ e ∈ Finset.range m, ext0 f e + ∑ k : Fin 10000, g k := by
  rw [Finset.sum_range_add]
  refine congrArg (_ + ·) ?_
  rw [Finset.sum_range (fun x => ext0 f (m + x))]
  refine Finset.sum_congr rfl fun k _ => ?_
  have hk : m + k.val < 100000 := by have := k.isLt; omega
  unfold ext0
  rw [dif_pos hk]
  exact (hg k ⟨m + k.val, hk⟩ rfl).symm

/-- For a sample b < 8, a word is the word of b exactly when it reads b as a signed integer. -/
theorem word_eq_iff (w : BitVec 32) (b : Fin 8) : w = BitVec.ofNat 32 b.val ↔ w.toInt = (b.val : Int) := by
  have hb : (BitVec.ofNat 32 b.val).toInt = (b.val : Int) := by
    fin_cases b <;> decide
  constructor
  · intro h; rw [h, hb]
  · intro h; exact BitVec.eq_of_toInt_eq (h.trans hb.symm)

/-- Over all the nodes the picked-out sum is the sum over the sample's nodes. -/
theorem seg_sum (bid : Cert.Oct.Sbid.Idx → BitVec 32) (b : Fin 8) (f : Fin 100000 → EReal) :
    ∑ e ∈ Finset.range 100000, ext0 (fun e => if bid (ix2 e (0 : Fin 1)) = BitVec.ofNat 32 b.val then f e else 0) e
      = ∑ e ∈ Cert.Oct.seg bid b, f e := by
  rw [sum_ext0]
  unfold Cert.Oct.seg
  rw [Finset.sum_filter]
  refine Finset.sum_congr rfl fun e _ => ?_
  exact if_congr (word_eq_iff _ b) rfl rfl

/-! ## The accumulation over the points -/

/-- An entry that starts, at the first point, as the first block's picked-out sum and grows, at every later point,
    by that point's picked-out sum, holds after point n the picked-out sum over the rows below 10000 (n + 1). -/
theorem acc_upto (c : Dev nD) (b : Fin 8) (f : Fin 100000 → EReal) (g : Fin cfg1.N → Fin 10000 → EReal)
    (hg : ∀ (t : Fin cfg1.N) (k : Fin 10000) (e : Fin 100000), e.val = 10000 * t.val + k.val → g t k = f e)
    (A : (n : ℕ) → n < cfg1.N → EReal)
    (hA0 : ∀ t : Fin cfg1.N, t.val % 10 = 0 → A t.val t.isLt
      = ∑ k : Fin 10000, if idblk V c t (ix2 k (0 : Fin 1)) = BitVec.ofNat 32 b.val then g t k else 0)
    (hAS : ∀ t : Fin cfg1.N, ¬t.val % 10 = 0 → A t.val t.isLt
      = A (t.val - 1) (Nat.lt_of_le_of_lt (Nat.sub_le _ _) t.isLt)
        + ∑ k : Fin 10000, if idblk V c t (ix2 k (0 : Fin 1)) = BitVec.ofNat 32 b.val then g t k else 0) :
    ∀ (n : ℕ) (h : n < cfg1.N), A n h = ∑ e ∈ Finset.range (10000 * n + 10000),
      ext0 (fun e => if bidA V c (ix2 e (0 : Fin 1)) = BitVec.ofNat 32 b.val then f e else 0) e
  | 0, h => by
    refine (hA0 ⟨0, h⟩ rfl).trans ?_
    have hb := sum_ext0_block (fun e => if bidA V c (ix2 e (0 : Fin 1)) = BitVec.ofNat 32 b.val then f e else 0) 0 (by omega)
      (fun k => if idblk V c ⟨0, h⟩ (ix2 k (0 : Fin 1)) = BitVec.ofNat 32 b.val then g ⟨0, h⟩ k else 0)
      (fun k e he => by
        have he' : e.val = 10000 * (⟨0, h⟩ : Fin cfg1.N).val + k.val := by
          rw [he]; show 0 + k.val = 10000 * 0 + k.val; omega
        rw [idblk_apply V c ⟨0, h⟩ k e he', hg ⟨0, h⟩ k e he'])
    rw [show 10000 * 0 + 10000 = 0 + 10000 from rfl, hb, Finset.range_zero, Finset.sum_empty, zero_add]
  | n + 1, h => by
    have hN : cfg1.N = 10 := N_1
    have hB : ¬(⟨n + 1, h⟩ : Fin cfg1.N).val % 10 = 0 := by dsimp only; omega
    refine (hAS ⟨n + 1, h⟩ hB).trans ?_
    show A n _ + _ = _
    rw [acc_upto c b f g hg A hA0 hAS n (Nat.lt_of_succ_lt h)]
    have hb := sum_ext0_block (fun e => if bidA V c (ix2 e (0 : Fin 1)) = BitVec.ofNat 32 b.val then f e else 0)
      (10000 * n + 10000) (by omega)
      (fun k => if idblk V c ⟨n + 1, h⟩ (ix2 k (0 : Fin 1)) = BitVec.ofNat 32 b.val then g ⟨n + 1, h⟩ k else 0)
      (fun k e he => by
        have he' : e.val = 10000 * (⟨n + 1, h⟩ : Fin cfg1.N).val + k.val := by
          rw [he]; show 10000 * n + 10000 + k.val = 10000 * (n + 1) + k.val; omega
        rw [idblk_apply V c ⟨n + 1, h⟩ k e he', hg ⟨n + 1, h⟩ k e he'])
    rw [show 10000 * (n + 1) + 10000 = (10000 * n + 10000) + 10000 from by omega, hb]

/-! ## What each point leaves in the three results, entry by entry -/

/-- The sums: the first point leaves its block's picked-out sum, -/
theorem sums_first (c : Dev nD) (t : Fin cfg1.N) (h0 : t.val % 10 = 0) (b : Fin 8) (q : Fin 128) :
    (outsAt1 V c t.val t.isLt).1 (ix2 b q)
      = ∑ k : Fin 10000, if idblk V c t (ix2 k (0 : Fin 1)) = BitVec.ofNat 32 b.val then xblk V c t (ix2 k q) else 0 := by
  rw [outsAt1_A V c t h0]
  dsimp only
  refine (congrFun (first_2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (xblk V c t) (idblk V c t)) (ix2 b q)).trans ?_
  refine (pay6_apply (xblk V c t) (idblk V c t) (k1_pay1 (F := Ideal)) b q).trans ?_
  rw [pay1_apply, zero_add]

/-- and a later point adds its own to what the point before left. -/
theorem sums_later (c : Dev nD) (t : Fin cfg1.N) (h0 : ¬t.val % 10 = 0) (b : Fin 8) (q : Fin 128) :
    (outsAt1 V c t.val t.isLt).1 (ix2 b q)
      = (outsAt1 V c (t.val - 1) (Nat.lt_of_le_of_lt (Nat.sub_le _ _) t.isLt)).1 (ix2 b q)
        + ∑ k : Fin 10000, if idblk V c t (ix2 k (0 : Fin 1)) = BitVec.ofNat 32 b.val then xblk V c t (ix2 k q) else 0 := by
  rw [outsAt1_B V c t h0]
  dsimp only
  refine (congrFun (later_2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (xblk V c t) (idblk V c t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) (ix2 b q)).trans ?_
  exact pay6_apply (xblk V c t) (idblk V c t) (outsAt1 V c (t.val - 1) (Nat.lt_of_le_of_lt (Nat.sub_le _ _) t.isLt)).1 b q

/-- The sums of squares likewise, -/
theorem sqs_first (c : Dev nD) (t : Fin cfg1.N) (h0 : t.val % 10 = 0) (b : Fin 8) (q : Fin 128) :
    (outsAt1 V c t.val t.isLt).2.1 (ix2 b q)
      = ∑ k : Fin 10000, if idblk V c t (ix2 k (0 : Fin 1)) = BitVec.ofNat 32 b.val
          then xblk V c t (ix2 k q) * xblk V c t (ix2 k q) else 0 := by
  rw [outsAt1_A V c t h0]
  dsimp only
  refine (congrFun (first_3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (xblk V c t) (idblk V c t)) (ix2 b q)).trans ?_
  refine (pay7_apply (xblk V c t) (idblk V c t) (k1_pay2 (F := Ideal)) b q).trans ?_
  rw [pay2_apply, zero_add]

theorem sqs_later (c : Dev nD) (t : Fin cfg1.N) (h0 : ¬t.val % 10 = 0) (b : Fin 8) (q : Fin 128) :
    (outsAt1 V c t.val t.isLt).2.1 (ix2 b q)
      = (outsAt1 V c (t.val - 1) (Nat.lt_of_le_of_lt (Nat.sub_le _ _) t.isLt)).2.1 (ix2 b q)
        + ∑ k : Fin 10000, if idblk V c t (ix2 k (0 : Fin 1)) = BitVec.ofNat 32 b.val
            then xblk V c t (ix2 k q) * xblk V c t (ix2 k q) else 0 := by
  rw [outsAt1_B V c t h0]
  dsimp only
  refine (congrFun (later_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (xblk V c t) (idblk V c t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) (ix2 b q)).trans ?_
  exact pay7_apply (xblk V c t) (idblk V c t) (outsAt1 V c (t.val - 1) (Nat.lt_of_le_of_lt (Nat.sub_le _ _) t.isLt)).2.1 b q

/-- and the counts. -/
theorem cnts_first (c : Dev nD) (t : Fin cfg1.N) (h0 : t.val % 10 = 0) (b : Fin 8) :
    (outsAt1 V c t.val t.isLt).2.2 (ix2 b (0 : Fin 1))
      = ∑ k : Fin 10000, if idblk V c t (ix2 k (0 : Fin 1)) = BitVec.ofNat 32 b.val then (1 : EReal) else 0 := by
  rw [outsAt1_A V c t h0]
  dsimp only
  refine (congrFun (first_4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (xblk V c t) (idblk V c t)) (ix2 b (0 : Fin 1))).trans ?_
  refine (pay8_apply (idblk V c t) (k1_pay3 (F := Ideal)) b).trans ?_
  rw [pay3_apply, zero_add]

theorem cnts_later (c : Dev nD) (t : Fin cfg1.N) (h0 : ¬t.val % 10 = 0) (b : Fin 8) :
    (outsAt1 V c t.val t.isLt).2.2 (ix2 b (0 : Fin 1))
      = (outsAt1 V c (t.val - 1) (Nat.lt_of_le_of_lt (Nat.sub_le _ _) t.isLt)).2.2 (ix2 b (0 : Fin 1))
        + ∑ k : Fin 10000, if idblk V c t (ix2 k (0 : Fin 1)) = BitVec.ofNat 32 b.val then (1 : EReal) else 0 := by
  rw [outsAt1_B V c t h0]
  dsimp only
  refine (congrFun (later_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (xblk V c t) (idblk V c t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) (ix2 b (0 : Fin 1))).trans ?_
  exact pay8_apply (idblk V c t) (outsAt1 V c (t.val - 1) (Nat.lt_of_le_of_lt (Nat.sub_le _ _) t.isLt)).2.2 b

/-! ## After the last point -/

/-- The grid's last point. -/
theorem last_pt : (9 : ℕ) < cfg1.N := by rw [show cfg1.N = 10 from N_1]; decide

/-- After it each entry is the sum over ALL rows with the sample's id: the spec's sums. -/
theorem sums_last (c : Dev nD) (b : Fin 8) (q : Fin 128) :
    (outsAt1 V c 9 last_pt).1 (ix2 b q) = Cert.Oct.segSum (xA V c) (bidA V c) b q :=
  (acc_upto V c b (fun e => xA V c (ix2 e q)) (fun t k => xblk V c t (ix2 k q))
    (fun t k e he => xblk_apply V c t k q e he) (fun n h => (outsAt1 V c n h).1 (ix2 b q))
    (fun t h0 => sums_first V c t h0 b q) (fun t h0 => sums_later V c t h0 b q) 9 last_pt).trans
    (seg_sum (bidA V c) b _)

theorem sqs_last (c : Dev nD) (b : Fin 8) (q : Fin 128) :
    (outsAt1 V c 9 last_pt).2.1 (ix2 b q) = Cert.Oct.segSq (xA V c) (bidA V c) b q :=
  (acc_upto V c b (fun e => xA V c (ix2 e q) * xA V c (ix2 e q)) (fun t k => xblk V c t (ix2 k q) * xblk V c t (ix2 k q))
    (fun t k e he => by rw [xblk_apply V c t k q e he]) (fun n h => (outsAt1 V c n h).2.1 (ix2 b q))
    (fun t h0 => sqs_first V c t h0 b q) (fun t h0 => sqs_later V c t h0 b q) 9 last_pt).trans
    (seg_sum (bidA V c) b _)

theorem cnts_last (c : Dev nD) (b : Fin 8) :
    (outsAt1 V c 9 last_pt).2.2 (ix2 b (0 : Fin 1)) = Cert.Oct.segCnt (bidA V c) b :=
  (acc_upto V c b (fun _ => (1 : EReal)) (fun _ _ => (1 : EReal))
    (fun _ _ _ _ => rfl) (fun n h => (outsAt1 V c n h).2.2 (ix2 b (0 : Fin 1)))
    (fun t h0 => cnts_first V c t h0 b) (fun t h0 => cnts_later V c t h0 b) 9 last_pt).trans
    (seg_sum (bidA V c) b _)

/-! ## The result arrays -/

/-- The three result arrays as functions of their index. -/
abbrev sumG (c : Dev nD) : S8x128.Idx → EReal := fun j => Cert.Oct.segSum (xA V c) (bidA V c) (j 0) (j 1)
abbrev sqG (c : Dev nD) : S8x128.Idx → EReal := fun j => Cert.Oct.segSq (xA V c) (bidA V c) (j 0) (j 1)
abbrev cntG (c : Dev nD) : S8x1.Idx → EReal := fun j => Cert.Oct.segCnt (bidA V c) (j 0)

/-- Only the last point writes a result block back, and the block is the whole array. -/
theorem flushed_sum (c : Dev nD) (t : Fin cfg1.N) (hf : (cfg1.win 2).flush t = true) :
    (dat1 V c).flushed 2 t = ((cfg1.win 2).blk t).view.read (Elt Ideal) (sumG V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have e : (outsAt1 V c t1_9.val t1_9.isLt).1 = sumG V c := funext fun j => by
    obtain ⟨b, q, rfl⟩ : ∃ (b : Fin 8) (q : Fin 128), j = ix2 b q := ⟨j 0, j 1, eq_ix2 j⟩
    exact sums_last V c b q
  rw [e]
  have hz' : (fun a => win1_2.index t1_9 a * main_v19_0.ty.shape.size a) = fun _ => 0 := funext fun a => by fin_cases a <;> decide
  exact (Memref.read_access_unit_zero (Elt Ideal) main_v19_0 hz' (fun a => by rw [congrFun hz' a]; simp) (sumG V c)).symm

/-- So the array ends holding the sums. -/
theorem sum_arr (c : Dev nD) : (dat1 V c).arrAt 2 cfg1.N = sumG V c :=
  (dat1 V c).arrAt_eq_of_cover 2 (sumG V c) (flushed_sum V c) fun i =>
    ⟨t1_9, (flush1_2 t1_9).mpr rfl, by
      show i ∈ ((View.whole main_v19_0).slice (win1_2.rect t1_9)).set
      rw [View.set_slice_whole, Rect.mem_set_unit]
      intro a
      have h0 : (i 0 : Nat) < 8 := (i 0).isLt
      have h1 : (i 1 : Nat) < 128 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 8 from by decide +kernel]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 128 from by decide +kernel]; omega⟩

theorem flushed_sq (c : Dev nD) (t : Fin cfg1.N) (hf : (cfg1.win 3).flush t = true) :
    (dat1 V c).flushed 3 t = ((cfg1.win 3).blk t).view.read (Elt Ideal) (sqG V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have e : (outsAt1 V c t1_9.val t1_9.isLt).2.1 = sqG V c := funext fun j => by
    obtain ⟨b, q, rfl⟩ : ∃ (b : Fin 8) (q : Fin 128), j = ix2 b q := ⟨j 0, j 1, eq_ix2 j⟩
    exact sqs_last V c b q
  rw [e]
  have hz' : (fun a => win1_3.index t1_9 a * main_v19_1.ty.shape.size a) = fun _ => 0 := funext fun a => by fin_cases a <;> decide
  exact (Memref.read_access_unit_zero (Elt Ideal) main_v19_1 hz' (fun a => by rw [congrFun hz' a]; simp) (sqG V c)).symm

theorem sq_arr (c : Dev nD) : (dat1 V c).arrAt 3 cfg1.N = sqG V c :=
  (dat1 V c).arrAt_eq_of_cover 3 (sqG V c) (flushed_sq V c) fun i =>
    ⟨t1_9, (flush1_3 t1_9).mpr rfl, by
      show i ∈ ((View.whole main_v19_1).slice (win1_3.rect t1_9)).set
      rw [View.set_slice_whole, Rect.mem_set_unit]
      intro a
      have h0 : (i 0 : Nat) < 8 := (i 0).isLt
      have h1 : (i 1 : Nat) < 128 := (i 1).isLt
      match a with
      | ⟨0, _⟩ =>
        show win1_3.index t1_9 0 * win1_3.size 0 ≤ (i 0 : Nat) ∧ (i 0 : Nat) < win1_3.index t1_9 0 * win1_3.size 0 + win1_3.xsize (grid1.coords t1_9) 0
        rw [show win1_3.index t1_9 0 * win1_3.size 0 = 0 from by decide +kernel, show win1_3.xsize (grid1.coords t1_9) 0 = 8 from by decide +kernel]; omega
      | ⟨1, _⟩ =>
        show win1_3.index t1_9 1 * win1_3.size 1 ≤ (i 1 : Nat) ∧ (i 1 : Nat) < win1_3.index t1_9 1 * win1_3.size 1 + win1_3.xsize (grid1.coords t1_9) 1
        rw [show win1_3.index t1_9 1 * win1_3.size 1 = 0 from by decide +kernel, show win1_3.xsize (grid1.coords t1_9) 1 = 128 from by decide +kernel]; omega⟩

theorem flushed_cnt (c : Dev nD) (t : Fin cfg1.N) (hf : (cfg1.win 4).flush t = true) :
    (dat1 V c).flushed 4 t = ((cfg1.win 4).blk t).view.read (Elt Ideal) (cntG V c) := by
  have hN : cfg1.N = 10 := N_1
  have h9 : t.val = 9 := by have := (flush1_4 t).mp hf; have := t.isLt; omega
  obtain rfl : t = t1_9 := Fin.ext h9
  show (cfg1.win 4).cut (grid1.coords t1_9) ((dat1 V c).after 4 t1_9) = _
  rw [after1_4]
  have e : (outsAt1 V c t1_9.val t1_9.isLt).2.2 = cntG V c := funext fun j => by
    obtain ⟨b, u, rfl⟩ : ∃ (b : Fin 8) (u : Fin 1), j = ix2 b u := ⟨j 0, j 1, eq_ix2 j⟩
    obtain rfl : u = 0 := Subsingleton.elim _ _
    exact cnts_last V c b
  rw [e]
  have hz' : (fun a => win1_4.index t1_9 a * main_v19_2.ty.shape.size a) = fun _ => 0 := funext fun a => by fin_cases a <;> decide
  exact (Memref.read_access_unit_zero (Elt Ideal) main_v19_2 hz' (fun a => by rw [congrFun hz' a]; simp) (cntG V c)).symm

theorem cnt_arr (c : Dev nD) : (dat1 V c).arrAt 4 cfg1.N = cntG V c :=
  (dat1 V c).arrAt_eq_of_cover 4 (cntG V c) (flushed_cnt V c) fun i =>
    ⟨t1_9, (flush1_4 t1_9).mpr rfl, by
      show i ∈ ((View.whole main_v19_2).slice (win1_4.rect t1_9)).set
      rw [View.set_slice_whole, Rect.mem_set_unit]
      intro a
      have h0 : (i 0 : Nat) < 8 := (i 0).isLt
      have h1 : (i 1 : Nat) < 1 := (i 1).isLt
      match a with
      | ⟨0, _⟩ =>
        show win1_4.index t1_9 0 * win1_4.size 0 ≤ (i 0 : Nat) ∧ (i 0 : Nat) < win1_4.index t1_9 0 * win1_4.size 0 + win1_4.xsize (grid1.coords t1_9) 0
        rw [show win1_4.index t1_9 0 * win1_4.size 0 = 0 from by decide +kernel, show win1_4.xsize (grid1.coords t1_9) 0 = 8 from by decide +kernel]; omega
      | ⟨1, _⟩ =>
        show win1_4.index t1_9 1 * win1_4.size 1 ≤ (i 1 : Nat) ∧ (i 1 : Nat) < win1_4.index t1_9 1 * win1_4.size 1 + win1_4.xsize (grid1.coords t1_9) 1
        rw [show win1_4.index t1_9 1 * win1_4.size 1 = 0 from by decide +kernel, show win1_4.xsize (grid1.coords t1_9) 1 = 1 from by decide +kernel]; omega⟩

end Stats

open Stats

variable (V : (c : Dev nD) → (b : Ref sig .tc) → Buf (Elt Ideal) ((c : Thread nD τ).loc b))

/-- The second kernel's first result array: channel q summed over the nodes of sample b. -/
theorem stats_sum (c : Dev nD) (b : Fin 8) (q : Fin 128) :
    sumOut V c (ix2 b q) = Cert.Oct.segSum (xA V c) (bidA V c) b q :=
  congrFun (sum_arr V c) (ix2 b q)

/-- Its second: the squares of channel q summed over the nodes of sample b. -/
theorem stats_sq (c : Dev nD) (b : Fin 8) (q : Fin 128) :
    sqOut V c (ix2 b q) = Cert.Oct.segSq (xA V c) (bidA V c) b q :=
  congrFun (sq_arr V c) (ix2 b q)

/-- Its third: the number of nodes of sample b. -/
theorem stats_cnt (c : Dev nD) (b : Fin 8) :
    cntOut V c (ix2 b (0 : Fin 1)) = Cert.Oct.segCnt (bidA V c) b :=
  congrFun (cnt_arr V c) (ix2 b (0 : Fin 1))

end Cert.KernelIdeal.Val

end
-- ==== Proof.Region2.lean ====
import proofs.«424105_j4612794876216_1_alg».proof.Proof.Gen.KernelIdeal.Frame
import proofs.«424105_j4612794876216_1_alg».proof.Proof.Spec
import proofs.«424105_j4612794876216_1_alg».proof.Proof.Arrays
import proofs.«424105_j4612794876216_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Normalize

/-- A word compared for equality with the word of b < 8, the bit zero-extended and read as a signed integer:
    one exactly when the word, read signed, is b. -/
theorem ind_eq (w : BitVec 32) (b : Fin 8) :
    ((((IntOp.cmpi .eq w (BitVec.ofNat 32 b.val)).setWidth 32).toInt : ℝ) : EReal)
      = if w.toInt = (b.val : Int) then 1 else 0 := by
  have hb : (BitVec.ofNat 32 b.val).toInt = (b.val : Int) := by
    fin_cases b <;> rfl
  have h1 : (BitVec.setWidth 32 (1#1)).toInt = 1 := by decide
  have h0 : (BitVec.setWidth 32 (0#1)).toInt = 0 := by decide
  by_cases h : w = BitVec.ofNat 32 b.val
  · rw [if_pos (h ▸ hb)]
    subst h
    have e : IntOp.cmpi CmpIPredicate.eq (BitVec.ofNat 32 b.val) (BitVec.ofNat 32 b.val) = 1#1 := by
      show BitVec.ofBool (BitVec.ofNat 32 b.val == BitVec.ofNat 32 b.val) = 1#1
      rw [beq_self_eq_true]; rfl
    rw [e, h1, Int.cast_one, EReal.coe_one]
  · have hne : ¬ w.toInt = (b.val : Int) := fun e => h (BitVec.eq_of_toInt_eq (e.trans hb.symm))
    rw [if_neg hne]
    have e : IntOp.cmpi CmpIPredicate.eq w (BitVec.ofNat 32 b.val) = 0#1 := by
      show BitVec.ofBool (w == BitVec.ofNat 32 b.val) = 0#1
      rw [beq_eq_false_iff_ne.mpr h]; rfl
    rw [e, h0, Int.cast_zero, EReal.coe_zero]

/-- A column broadcast along the rows' second axis reads the column at the row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One if the word, read signed, is b; zero otherwise. -/
def ind (w : BitVec 32) (b : Fin 8) : EReal := if w.toInt = (b.val : Int) then 1 else 0

/-- The sample indicator the body forms, at row p and sample b. -/
theorem onehot_apply (x1 : S10000x1.Idx → BitVec 32) (p : Fin 10000) (b : Fin 8) :
    (sitofp (F := Ideal) .f32 (extui 32 (cmpi .eq (broadcastTo S10000x8 x1 broadcasts_S10000x1_S10000x8)
        (iota .tc S10000x8 32 [1] iota_S10000x8_d1_w32)) natLt_1_32) : FVec Ideal S10000x8 .f32) (ix2 p b)
      = ind (x1 (ix2 p (0 : Fin 1))) b := by
  show ((((IntOp.cmpi .eq (broadcastTo S10000x8 x1 broadcasts_S10000x1_S10000x8 (ix2 p b))
      (iota .tc S10000x8 32 [1] iota_S10000x8_d1_w32 (ix2 p b))).setWidth 32).toInt : ℝ) : EReal) = _
  rw [broadcastTo_a1_ab_apply, iota_single_apply]
  exact ind_eq _ b

/-- Two matrix products in a row into zero accumulators, at an entry: a vector picked by the rows of the first
    factor, then spread by the columns of the last. -/
theorem pick_apply (o : FVec Ideal S10000x8 .f32) (y : FVec Ideal S8x32 .f32) (z : FVec Ideal S32x128 .f32)
    (p : Fin 10000) (q : Fin 128) :
    matmul dot_S10000x32_S32x128_S10000x128_1_0_0_1_n_n none
        (matmul dot_S10000x8_S8x32_S10000x32_1_0_0_1_n_n none o y (constant (F := Ideal) S10000x32 .f32 0x00000000#32))
        z (constant (F := Ideal) S10000x128 .f32 0x00000000#32) (ix2 p q)
      = ∑ g : Fin 32, (∑ b : Fin 8, o (ix2 p b) * y (ix2 b g)) * z (ix2 g q) := by
  refine (Cert.PlainDot.matmul_zero_apply dot_S10000x32_S32x128_S10000x128_1_0_0_1_n_n rfl none _ z (ix2 p q)).trans ?_
  refine Finset.sum_congr rfl fun g _ => ?_
  refine congrArg (· * z (ix2 g q)) ?_
  exact Cert.PlainDot.matmul_zero_apply dot_S10000x8_S8x32_S10000x32_1_0_0_1_n_n rfl none o y (ix2 p g)

/-- The body's arithmetic at row p, channel q of a block: the convolution minus the mean, times the inverse
    standard deviation, each picked by the row's sample indicator and spread from groups to channels by the group
    indicator, then scaled and shifted. -/
theorem pay_apply (x0 : S10000x128.Idx → EReal) (x1 : S10000x1.Idx → BitVec 32) (x2 x3 : S8x32.Idx → EReal)
    (x4 : S32x128.Idx → EReal) (x5 x6 : S1x128.Idx → EReal) (p : Fin 10000) (q : Fin 128) :
    k2_pay1 (F := Ideal) x0 x1 x2 x3 x4 x4 x5 x6 (ix2 p q)
      = (x0 (ix2 p q)
          - ∑ g : Fin 32, (∑ b : Fin 8, ind (x1 (ix2 p (0 : Fin 1))) b * x2 (ix2 b g)) * x4 (ix2 g q))
        * (∑ g : Fin 32, (∑ b : Fin 8, ind (x1 (ix2 p (0 : Fin 1))) b * x3 (ix2 b g)) * x4 (ix2 g q))
        * x5 (ix2 (0 : Fin 1) q) + x6 (ix2 (0 : Fin 1) q) := by
  unfold k2_pay1
  simp only [shapeCast_self]
  rw [addf_apply, mulf_apply, mulf_apply, subf_apply, pick_apply, pick_apply,
    broadcastTo_1b_ab_apply, broadcastTo_1b_ab_apply]
  refine congrArg₂ (· + ·) (congrArg₂ (· * ·) (congrArg₂ (· * ·) (congrArg₂ (· - ·) rfl ?_) ?_) rfl) rfl
  · refine Finset.sum_congr rfl fun g _ => congrArg (· * x4 (ix2 g q)) (Finset.sum_congr rfl fun b _ => congrArg (· * x2 (ix2 b g)) ?_)
    exact onehot_apply x1 p b
  · refine Finset.sum_congr rfl fun g _ => congrArg (· * x4 (ix2 g q)) (Finset.sum_congr rfl fun b _ => congrArg (· * x3 (ix2 b g)) ?_)
    exact onehot_apply x1 p b

/-- The zero offsets of an access to a whole block, as the constant function. -/
theorem hz : (![0, 0] : Fin 2 → Nat) = fun _ => 0 := funext fun a => by fin_cases a <;> rfl

/-- The windows' block indices over the ten grid points: the blocks of the convolution, of the ids and of the result
    move down the rows with the point; the five small arrays are read whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row p of the convolution's block at point t is row 10000 t + p of the convolution. -/
theorem iblk0_apply (c : Dev nD) (t : Fin cfg2.N) (p : Fin 10000) (q : Fin 128) (r : Fin 100000)
    (hr : r.val = 10000 * t.val + p.val) :
    (iblk2 (F := Ideal) V c 0 t : S10000x128.Idx → EReal) (ix2 p q) = xA V c (ix2 r q) := by
  obtain ⟨h0, h1, -⟩ := idx_facts t
  unfold iblk2
  rw [View.read_apply]
  show V c main_v17 _ = V c main_v17 _
  congr 1
  funext a
  apply Fin.ext
  match a with
  | ⟨0, _⟩ => show win2_0.index t (0 : Fin 2) * 10000 + 1 * p.val = r.val; rw [h0, hr]; omega
  | ⟨1, _⟩ => show win2_0.index t (1 : Fin 2) * 128 + 1 * q.val = q.val; rw [h1]; omega

/-- Row p of the ids' block at point t is row 10000 t + p of the ids. -/
theorem iblk1_apply (c : Dev nD) (t : Fin cfg2.N) (p : Fin 10000) (r : Fin 100000)
    (hr : r.val = 10000 * t.val + p.val) :
    (iblk2 (F := Ideal) V c 1 t : S10000x1.Idx → BitVec 32) (ix2 p (0 : Fin 1)) = bidA V c (ix2 r (0 : Fin 1)) := by
  obtain ⟨-, -, h0, h1, -⟩ := idx_facts t
  unfold iblk2
  rw [View.read_apply]
  show V c main_v18 _ = V c main_v18 _
  congr 1
  funext a
  apply Fin.ext
  match a with
  | ⟨0, _⟩ => show win2_1.index t (0 : Fin 2) * 10000 + 1 * p.val = r.val; rw [h0, hr]; omega
  | ⟨1, _⟩ => show win2_1.index t (1 : Fin 2) * 1 + 1 * 0 = 0; rw [h1]

/-- The means' block at every point is the whole array. -/
theorem iblkMean_apply (c : Dev nD) (t : Fin cfg2.N) (b : Fin 8) (g : Fin 32) :
    (iblk2 (F := Ideal) V c 2 t : S8x32.Idx → EReal) (ix2 b g) = meanA V c (ix2 b g) := by
  obtain ⟨-, -, -, -, h0, h1, -⟩ := idx_facts t
  unfold iblk2
  rw [View.read_apply]
  show V c main_v39 _ = V c main_v39 _
  congr 1
  funext a
  apply Fin.ext
  match a with
  | ⟨0, _⟩ => show win2_2.index t (0 : Fin 2) * 8 + 1 * b.val = b.val; rw [h0]; omega
  | ⟨1, _⟩ => show win2_2.index t (1 : Fin 2) * 32 + 1 * g.val = g.val; rw [h1]; omega

/-- The inverse standard deviations' block at every point is the whole array. -/
theorem iblkIstd_apply (c : Dev nD) (t : Fin cfg2.N) (b : Fin 8) (g : Fin 32) :
    (iblk2 (F := Ideal) V c 3 t : S8x32.Idx → EReal) (ix2 b g) = istdA V c (ix2 b g) := by
  obtain ⟨-, -, -, -, -, -, h0, h1, -⟩ := idx_facts t
  unfold iblk2
  rw [View.read_apply]
  show V c main_v46 _ = V c main_v46 _
  congr 1
  funext a
  apply Fin.ext
  match a with
  | ⟨0, _⟩ => show win2_3.index t (0 : Fin 2) * 8 + 1 * b.val = b.val; rw [h0]; omega
  | ⟨1, _⟩ => show win2_3.index t (1 : Fin 2) * 32 + 1 * g.val = g.val; rw [h1]; omega

/-- The group indicator's block at every point is the whole array. -/
theorem iblkGexp_apply (c : Dev nD) (t : Fin cfg2.N) (g : Fin 32) (q : Fin 128) :
    (iblk2 (F := Ideal) V c 4 t : S32x128.Idx → EReal) (ix2 g q) = gexpA V c (ix2 g q) := by
  obtain ⟨-, -, -, -, -, -, -, -, h0, h1, -⟩ := idx_facts t
  unfold iblk2
  rw [View.read_apply]
  show V c main_v28 _ = V c main_v28 _
  congr 1
  funext a
  apply Fin.ext
  match a with
  | ⟨0, _⟩ => show win2_4.index t (0 : Fin 2) * 32 + 1 * g.val = g.val; rw [h0]; omega
  | ⟨1, _⟩ => show win2_4.index t (1 : Fin 2) * 128 + 1 * q.val = q.val; rw [h1]; omega

/-- The scale's block at every point is the whole row. -/
theorem iblkGw_apply (c : Dev nD) (t : Fin cfg2.N) (q : Fin 128) :
    (iblk2 (F := Ideal) V c 5 t : S1x128.Idx → EReal) (ix2 (0 : Fin 1) q) = gwA V c (ix2 (0 : Fin 1) q) := by
  obtain ⟨-, -, -, -, -, -, -, -, -, -, h0, h1, -⟩ := idx_facts t
  unfold iblk2
  rw [View.read_apply]
  show V c main_v47 _ = V c main_v47 _
  congr 1
  funext a
  apply Fin.ext
  match a with
  | ⟨0, _⟩ => show win2_5.index t (0 : Fin 2) * 1 + 1 * 0 = 0; rw [h0]
  | ⟨1, _⟩ => show win2_5.index t (1 : Fin 2) * 128 + 1 * q.val = q.val; rw [h1]; omega

/-- The shift's block at every point is the whole row. -/
theorem iblkGb_apply (c : Dev nD) (t : Fin cfg2.N) (q : Fin 128) :
    (iblk2 (F := Ideal) V c 6 t : S1x128.Idx → EReal) (ix2 (0 : Fin 1) q) = gbA V c (ix2 (0 : Fin 1) q) := by
  obtain ⟨-, -, -, -, -, -, -, -, -, -, -, -, h0, h1, -⟩ := idx_facts t
  unfold iblk2
  rw [View.read_apply]
  show V c main_v48 _ = V c main_v48 _
  congr 1
  funext a
  apply Fin.ext
  match a with
  | ⟨0, _⟩ => show win2_6.index t (0 : Fin 2) * 1 + 1 * 0 = 0; rw [h0]
  | ⟨1, _⟩ => show win2_6.index t (1 : Fin 2) * 128 + 1 * q.val = q.val; rw [h1]; omega

/-- The normalised, scaled and shifted convolution at node r, channel q, from the arrays the third kernel reads. -/
def normAt (c : Dev nD) (r : Fin 100000) (q : Fin 128) : EReal :=
  (xA V c (ix2 r q)
      - ∑ g : Fin 32, (∑ b : Fin 8, Cert.Oct.oh (bidA V c) r b * meanA V c (ix2 b g)) * gexpA V c (ix2 g q))
    * (∑ g : Fin 32, (∑ b : Fin 8, Cert.Oct.oh (bidA V c) r b * istdA V c (ix2 b g)) * gexpA V c (ix2 g q))
    * gwA V c (ix2 (0 : Fin 1) q) + gbA V c (ix2 (0 : Fin 1) q)

/-- What point t writes back is block t of that function of the arrays: rows 10000 t to 10000 t + 9999. -/
theorem flushed_eq (c : Dev nD) (t : Fin cfg2.N) :
    (dat2 (F := Ideal) V c).flushed 7 t
      = ((cfg2.win 7).blk t).view.read (Elt Ideal) (fun i : Cert.Oct.Sx.Idx => normAt V c (i 0) (i 1)) := by
  show (cfg2.win 7).cut (grid2.coords t) ((dat2 (F := Ideal) V c).after 7 t) = _
  rw [after2_7]
  unfold out2_7
  rw [View.canon_unit_zero hz]
  simp only [View.ld_unit_zero (S := S10000x128) hz, View.ld_unit_zero (S := S10000x1) hz, View.ld_unit_zero (S := S8x32) hz,
    View.ld_unit_zero (S := S32x128) hz, View.ld_unit_zero (S := S1x128) hz]
  funext j
  have hj0 : (j 0).val < 10000 := (j 0).isLt
  have hj1 : (j 1).val < 128 := (j 1).isLt
  have hN : cfg2.N = 10 := N_2
  have ht : t.val < cfg2.N := t.isLt
  have hx : (win2 7).xinj (grid2.coords t) j = ix2 (⟨(j 0).val, hj0⟩ : Fin 10000) (⟨(j 1).val, hj1⟩ : Fin 128) := by
    funext a
    match a with
    | ⟨0, _⟩ => rfl
    | ⟨1, _⟩ => rfl
  refine (congrArg (k2_pay1 (F := Ideal) (iblk2 V c 0 t) (iblk2 V c 1 t) (iblk2 V c 2 t) (iblk2 V c 3 t) (iblk2 V c 4 t)
    (iblk2 V c 4 t) (iblk2 V c 5 t) (iblk2 V c 6 t)) hx).trans ?_
  refine (pay_apply (iblk2 V c 0 t) (iblk2 V c 1 t) (iblk2 V c 2 t) (iblk2 V c 3 t) (iblk2 V c 4 t) (iblk2 V c 5 t)
    (iblk2 V c 6 t) ⟨(j 0).val, hj0⟩ ⟨(j 1).val, hj1⟩).trans ?_
  obtain ⟨-, -, -, -, -, -, -, -, -, -, -, -, -, -, h70, h71⟩ := idx_facts t
  have hr : 10000 * t.val + (j 0).val < 100000 := by omega
  have e0 : (((cfg2.win 7).blk t).view.emb j) 0 = (⟨10000 * t.val + (j 0).val, hr⟩ : Fin 100000) :=
    Fin.ext (by show win2_7.index t (0 : Fin 2) * 10000 + 1 * (j 0).val = 10000 * t.val + (j 0).val; rw [h70]; omega)
  have e1 : (((cfg2.win 7).blk t).view.emb j) 1 = (⟨(j 1).val, hj1⟩ : Fin 128) :=
    Fin.ext (by show win2_7.index t (1 : Fin 2) * 128 + 1 * (j 1).val = (j 1).val; rw [h71]; omega)
  show _ = normAt V c ((((cfg2.win 7).blk t).view.emb j) 0) ((((cfg2.win 7).blk t).view.emb j) 1)
  refine Eq.trans ?_ (congrArg₂ (normAt V c) e0 e1).symm
  unfold normAt
  rw [iblk0_apply V c t ⟨(j 0).val, hj0⟩ ⟨(j 1).val, hj1⟩ ⟨10000 * t.val + (j 0).val, hr⟩ rfl,
    iblk1_apply V c t ⟨(j 0).val, hj0⟩ ⟨10000 * t.val + (j 0).val, hr⟩ rfl,
    iblkGw_apply V c t ⟨(j 1).val, hj1⟩, iblkGb_apply V c t ⟨(j 1).val, hj1⟩]
  simp only [iblkMean_apply V c t, iblkIstd_apply V c t, iblkGexp_apply V c t]
  rfl

/-- An index of the result array is in point t's block iff each coordinate is in the block's range on its axis. -/
theorem mem_blk (t : Fin cfg2.N) (i : Cert.Oct.Sx.Idx) :
    i ∈ ((cfg2.win 7).blk t).view.set
      ↔ ∀ a : Fin 2, win2_7.index t a * S10000x128.size a ≤ (i a).val
          ∧ (i a).val < win2_7.index t a * S10000x128.size a + S10000x128.size a := by
  show i ∈ ((View.whole main_v49).slice (win2_7.rect t)).set ↔ _
  rw [View.set_slice_whole, Rect.mem_set_unit]
  exact Iff.rfl

/-- The ten blocks cover the rows: row r lies in the block of point r / 10000. -/
theorem cover (i : Cert.Oct.Sx.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 10 := N_2
  have ht : (i 0).val / 10000 < cfg2.N := by rw [hN]; omega
  obtain ⟨-, -, -, -, -, -, -, -, -, -, -, -, -, -, h70, h71⟩ := idx_facts ⟨(i 0).val / 10000, ht⟩
  refine ⟨⟨(i 0).val / 10000, ht⟩, flush2_7 _, ?_⟩
  rw [mem_blk]
  intro a
  match a with
  | ⟨0, _⟩ =>
    show win2_7.index ⟨(i 0).val / 10000, ht⟩ (0 : Fin 2) * 10000 ≤ (i 0).val
      ∧ (i 0).val < win2_7.index ⟨(i 0).val / 10000, ht⟩ (0 : Fin 2) * 10000 + 10000
    rw [h70]
    show (i 0).val / 10000 * 10000 ≤ (i 0).val ∧ (i 0).val < (i 0).val / 10000 * 10000 + 10000
    omega
  | ⟨1, _⟩ =>
    show win2_7.index ⟨(i 0).val / 10000, ht⟩ (1 : Fin 2) * 128 ≤ (i 1).val
      ∧ (i 1).val < win2_7.index ⟨(i 0).val / 10000, ht⟩ (1 : Fin 2) * 128 + 128
    rw [h71]
    omega

/-- The result array after the ten write-backs is that function of the arrays at every node and channel. -/
theorem final (c : Dev nD) :
    normOut V c = fun i : Cert.Oct.Sx.Idx => normAt V c (i 0) (i 1) :=
  (dat2 (F := Ideal) V c).arrAt_eq_of_cover 7 (fun i : Cert.Oct.Sx.Idx => normAt V c (i 0) (i 1))
    (fun t _ => flushed_eq V c t) cover

end Normalize

/-- The third kernel's result array at node r, channel q: the convolution minus the mean, times the inverse standard
    deviation, each picked for the node's sample by a sum against the sample indicator and spread from groups to
    channels by a sum against the group indicator; then scaled and shifted. -/
theorem norm_arr (c : Dev nD) (r : Fin 100000) (q : Fin 128) :
    normOut V c (ix2 r q)
      = (xA V c (ix2 r q)
          - ∑ g : Fin 32, (∑ b : Fin 8, Cert.Oct.oh (bidA V c) r b * meanA V c (ix2 b g)) * gexpA V c (ix2 g q))
        * (∑ g : Fin 32, (∑ b : Fin 8, Cert.Oct.oh (bidA V c) r b * istdA V c (ix2 b g)) * gexpA V c (ix2 g q))
        * gwA V c (ix2 (0 : Fin 1) q) + gbA V c (ix2 (0 : Fin 1) q) :=
  congrFun (Normalize.final V c) (ix2 r q)

end Cert.KernelIdeal.Val

end
-- ==== Proof.HostK0.lean ====
import proofs.«424105_j4612794876216_1_alg».proof.Proof.Gen.KernelIdeal.Frame
import proofs.«424105_j4612794876216_1_alg».proof.Proof.Spec
import proofs.«424105_j4612794876216_1_alg».proof.Proof.Arrays
import proofs.«424105_j4612794876216_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- Entering the first kernel, the gathered neighbourhoods are what the reference's own first fifteen host operations
    make of the node features and the neighbour table (the two programs gather and mask alike; the kernel's change of
    float format is the identity on the extended reals). -/
theorem V3_col (c : Dev nD) :
    colA (V3 m ρ) c = (Cert.ReferenceIdeal.Read.val_main_v14 (F := Ideal) (m ((c : Thread nD τ).loc main_arg0))
      (m ((c : Thread nD τ).loc main_arg4)) : Cert.Oct.Scol.Idx → EReal) := by
  -- Read the fold back operation by operation: the array holds the composition of the host operations over the two
  -- arguments as launched (no operation writes an argument).
  show StableHlo.after hostOps0_2 (W2 m ρ c) (Proc.devRef .tc main_v15) = _
  after_results_simp
  -- The outlined selection's references carry their arrays' own types, so its transports are identities.
  simp only [StableHlo.TRef.ofBuf, StableHlo.TRef.toBuf, cast_eq, id_eq]
  -- Both programs compose the same fifteen operations, over shape records with equal fields, and the change of
  -- float format is the identity on the extended reals.
  rfl

/-- Entering the first kernel, the weight is the weight argument: the only operation that writes the weight's array
    is the change of float format, which is the identity on the extended reals, and nothing earlier writes the
    argument. -/
theorem V3_w (c : Dev nD) (k : Fin 1728) (q : Fin 128) :
    wA (V3 m ρ) c (ix2 k q) = m ((c : Thread nD τ).loc main_arg1) (ix2 k q) := by
  have e : (wA (V3 m ρ) c : Cert.Oct.Sw.Idx → EReal)
      = (m ((c : Thread nD τ).loc main_arg1) : Cert.Oct.Sw.Idx → EReal) := by
    show StableHlo.after hostOps0_2 (W2 m ρ c) (Proc.devRef .tc main_v16) = _
    after_results
    rfl
  rw [e]

/-- Entering the second kernel, the convolution's array is what the first kernel left: the one operation between
    the two kernels writes the batch-id column only. -/
theorem V5_conv (c : Dev nD) : xA (V5 m ρ) c = convOut (V3 m ρ) c := by
  show StableHlo.after hostOps1 (W4 m ρ c) (Proc.devRef .tc main_v17) = _
  after_results
  exact W4_arr m ρ c 2

/-- Before the second kernel nothing writes the batch-id argument (it is no array of the first kernel, and no host
    operation's result): it is as launched. -/
theorem W4_arg5 (c : Dev nD) : W4 m ρ c (Proc.devRef .tc main_arg5) = m ((c : Thread nD τ).loc main_arg5) := by
  rw [W4_of_ne m ρ c main_arg5 (by decide)]
  show StableHlo.after hostOps0_2 (W2 m ρ c) (Proc.devRef .tc main_arg5) = _
  after_results

/-- Entering the second kernel, the batch ids are the argument laid out as a column: a reshape keeps the row-major
    position, and position (r, 0) of a [100000, 1] array is position r of the [100000] one. -/
theorem V5_bid (c : Dev nD) : bidA (V5 m ρ) c = Cert.Oct.bidCol (m ((c : Thread nD τ).loc main_arg5)) := by
  have e : (bidA (V5 m ρ) c : Cert.Oct.Sbid.Idx → BitVec 32) =
      shapeCast _ (W4 m ρ c (Proc.devRef .tc main_arg5)) shapeCasts_S100000_S100000x1 := by
    show StableHlo.after hostOps1 (W4 m ρ c) (Proc.devRef .tc main_v18) = _
    after_results
    rfl
  rw [e, W4_arg5]
  funext i
  unfold Cert.Oct.bidCol
  refine shapeCast_apply _ shapeCasts_S100000_S100000x1 i (ix1 (i 0)) ?_
  rw [Shape.rowMajor_val_one, Shape.rowMajor_val_two]
  have h1 : (i 1).val < 1 := (i 1).isLt
  show (i 0).val = (i 0).val * 1 + (i 1).val
  omega

end Cert.KernelIdeal.Val

end
-- ==== Proof.HostK2.lean ====
import proofs.«424105_j4612794876216_1_alg».proof.Proof.Gen.KernelIdeal.Frame
import proofs.«424105_j4612794876216_1_alg».proof.Proof.Spec
import proofs.«424105_j4612794876216_1_alg».proof.Proof.Arrays
import proofs.«424105_j4612794876216_1_alg».proof.Proof.LibPlainDot
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- A buffer that no operation of a literal list writes keeps its contents through the list. -/
local macro "k2_unwritten" ops:ident : tactic =>
  `(tactic| (refine StableHlo.after_of_forall_not_mem _ _ (List.forall_iff_forall_mem.mp ?_)
             simp only [$ops:ident, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## The convolution's array and the batch ids reach the third kernel unchanged -/

/-- The host operations between the second and the third kernel do not write the convolution's array. -/
theorem HostK2.W9_v17 (c : Dev nD) : W9 m ρ c (Proc.devRef .tc main_v17) = W6 m ρ c (Proc.devRef .tc main_v17) :=
  calc W9 m ρ c (Proc.devRef .tc main_v17)
    _ = W8 m ρ c (Proc.devRef .tc main_v17) := by k2_unwritten hostOps2_2
    _ = W7 m ρ c (Proc.devRef .tc main_v17) := by k2_unwritten hostOps2_1
    _ = W6 m ρ c (Proc.devRef .tc main_v17) := by k2_unwritten hostOps2

/-- The second kernel only reads the convolution's array: an input window's array is never written back. -/
theorem HostK2.W6_v17 (c : Dev nD) : W6 m ρ c (Proc.devRef .tc main_v17) = W5 m ρ c (Proc.devRef .tc main_v17) :=
  calc W6 m ρ c (Proc.devRef .tc main_v17)
    _ = (dat1 (V5 m ρ) c).arrAt 0 cfg1.N := W6_arr m ρ c 0
    _ = (dat1 (V5 m ρ) c).A 0 := Pipeline.Dat.arrAt_in (dat1 (V5 m ρ) c) 0 rfl _
    _ = V5 m ρ c (Pipeline.arrRef spec1 0) := A_eq1 (V5 m ρ) c 0

/-- Entering the third kernel, the convolution's array is still what the first kernel left. -/
theorem V9_conv (c : Dev nD) : xA (V9 m ρ) c = convOut (V3 m ρ) c :=
  calc W9 m ρ c (Proc.devRef .tc main_v17)
    _ = W6 m ρ c (Proc.devRef .tc main_v17) := HostK2.W9_v17 m ρ c
    _ = W5 m ρ c (Proc.devRef .tc main_v17) := HostK2.W6_v17 m ρ c
    _ = W4 m ρ c (Proc.devRef .tc main_v17) := by k2_unwritten hostOps1
    _ = (dat0 (V3 m ρ) c).arrAt 2 cfg0.N := W4_arr m ρ c 2

/-- The batch-id argument is as launched when the first kernel has run. -/
theorem HostK2.W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by k2_unwritten hostOps0_2
    _ = W1 m ρ c (Proc.devRef .tc main_arg5) := by k2_unwritten hostOps0_1
    _ = W0 m ρ c (Proc.devRef .tc main_arg5) := by k2_unwritten hostOps0
    _ = m ((c : Thread nD τ).loc main_arg5) := rfl

/-- A vector laid out as a column reads, at row r, the vector's entry r. -/
theorem HostK2.col_of_vec {α : Type} {n : Nat} (a : (⟨1, ![n]⟩ : Shape).Idx → α)
    (h : (⟨1, ![n]⟩ : Shape).ShapeCasts ⟨2, ![n, 1]⟩) (i : (⟨2, ![n, 1]⟩ : Shape).Idx) :
    shapeCast ⟨2, ![n, 1]⟩ a h i = a (ix1 (i 0)) := by
  have h1 : (i 1).val = 0 := by have := idx2_lt1 i; omega
  refine shapeCast_apply a h i (ix1 (i 0)) ?_
  rw [Shape.rowMajor_val_one, Shape.rowMajor_val_two]
  show (i 0).val = (i 0).val * 1 + (i 1).val
  omega

/-- Entering the second kernel, the batch ids are the argument laid out as a column. -/
theorem HostK2.W5_v18 (c : Dev nD) :
    (W5 m ρ c (Proc.devRef .tc main_v18) : Cert.Oct.Sbid.Idx → BitVec 32) = Cert.Oct.bidCol (m ((c : Thread nD τ).loc main_arg5)) := by
  have e : (W5 m ρ c (Proc.devRef .tc main_v18) : Cert.Oct.Sbid.Idx → BitVec 32)
      = shapeCast S100000x1 (W4 m ρ c (Proc.devRef .tc main_arg5)) shapeCasts_S100000_S100000x1 := by
    show StableHlo.after hostOps1 (W4 m ρ c) (Proc.devRef .tc main_v18) = _
    after_results; rfl
  rw [e, HostK2.W4_arg5]
  funext i
  exact HostK2.col_of_vec (m ((c : Thread nD τ).loc main_arg5) : Cert.Oct.Sid.Idx → BitVec 32) shapeCasts_S100000_S100000x1 i

/-- Entering the third kernel, the batch ids are still the argument laid out as a column. -/
theorem V9_bid (c : Dev nD) : bidA (V9 m ρ) c = Cert.Oct.bidCol (m ((c : Thread nD τ).loc main_arg5)) :=
  calc W9 m ρ c (Proc.devRef .tc main_v18)
    _ = W8 m ρ c (Proc.devRef .tc main_v18) := by k2_unwritten hostOps2_2
    _ = W7 m ρ c (Proc.devRef .tc main_v18) := by k2_unwritten hostOps2_1
    _ = W6 m ρ c (Proc.devRef .tc main_v18) := by k2_unwritten hostOps2
    _ = (dat1 (V5 m ρ) c).arrAt 1 cfg1.N := W6_arr m ρ c 1
    _ = (dat1 (V5 m ρ) c).A 1 := Pipeline.Dat.arrAt_in (dat1 (V5 m ρ) c) 1 rfl _
    _ = V5 m ρ c (Pipeline.arrRef spec1 1) := A_eq1 (V5 m ρ) c 1
    _ = Cert.Oct.bidCol (m ((c : Thread nD τ).loc main_arg5)) := HostK2.W5_v18 m ρ c

/-! ## The group-to-channel indicator -/

/-- The sign of a word: 0, -1 or 1. -/
def HostK2.sgnW (x : BitVec 32) : BitVec 32 := if x = 0 then 0 else if x.msb then -1 else 1

/-- The floor of the quotient of two words as the host computes it: the quotient rounded toward zero, less one when the
    signs differ and the remainder is not zero. -/
def HostK2.fdivW (x d : BitVec 32) : BitVec 32 :=
  Scalar.select (IntOp.andi (IntOp.cmpi .ne (HostK2.sgnW x) (HostK2.sgnW d)) (IntOp.cmpi .ne (IntOp.remsi .host x d) 0#32))
    (IntOp.subi (IntOp.divsi .host x d) 1#32) (IntOp.divsi .host x d)

/-- On a channel number the floor of the quotient by four is the natural-number quotient. -/
theorem HostK2.fdivW_chan : ∀ q : Fin 128, HostK2.fdivW (BitVec.ofNat 32 q.val) 4#32 = BitVec.ofNat 32 (q.val / 4) := by
  decide

/-- The channel ramp divided by four, as the host's vector operations compute it. -/
def HostK2.fdivVec : S128.Idx → BitVec 32 :=
  select
    (andi
      (cmpi CmpIPredicate.ne (signi (iotaInDim S128 32 0))
        (broadcastInDim S128 ![] bcast_S_S128 (signi (id (constantI S_ 32 4#32)))))
      (cmpi CmpIPredicate.ne
        (Host.remsi (iotaInDim S128 32 0) (broadcastInDim S128 ![] bcast_S_S128 (id (constantI S_ 32 4#32))))
        (broadcastInDim S128 ![] bcast_S_S128 (constantI S_ 32 0#32))))
    (subi
      (Host.divsi (iotaInDim S128 32 0) (broadcastInDim S128 ![] bcast_S_S128 (id (constantI S_ 32 4#32))))
      (broadcastInDim S128 ![] bcast_S_S128 (constantI S_ 32 1#32)))
    (Host.divsi (iotaInDim S128 32 0)
      (broadcastInDim S128 ![] bcast_S_S128 (id (constantI S_ 32 4#32))))

/-- Entry q of it is the word of q / 4. -/
theorem HostK2.fdivVec_apply (q : Fin 128) : HostK2.fdivVec (ix1 q) = BitVec.ofNat 32 (q.val / 4) :=
  (show HostK2.fdivVec (ix1 q) = HostK2.fdivW (BitVec.ofNat 32 q.val) 4#32 from rfl).trans (HostK2.fdivW_chan q)

/-- The group-to-channel indicator as the host builds it: the group ramp along the rows compared with the channel ramp
    divided by four along the columns. -/
def HostK2.gexpTerm : S32x128.Idx → EReal :=
  uitofp (F := Ideal) FTy.f32 (cmpi CmpIPredicate.eq
    (broadcastInDim S32x128 ![0, 1] bcast_S32x1_S32x128_0_1
      (broadcastInDim S32x1 ![0] bcast_S32_S32x1_0 (iotaInDim S32 32 0)))
    (broadcastInDim S32x128 ![0, 1] bcast_S1x128_S32x128_0_1
      (broadcastInDim S1x128 ![1] bcast_S128_S1x128_1 HostK2.fdivVec)))

/-- A one-bit comparison of two small numbers' words, read as an extended real, is the indicator of their equality. -/
theorem HostK2.ind_of_words (a b : Nat) (ha : a < 2 ^ 32) (hb : b < 2 ^ 32) :
    (((IntOp.cmpi CmpIPredicate.eq (BitVec.ofNat 32 a) (BitVec.ofNat 32 b)).toNat : ℝ) : EReal) = if b = a then (1 : EReal) else 0 := by
  by_cases h : b = a
  · subst h
    rw [if_pos rfl]
    have : IntOp.cmpi CmpIPredicate.eq (BitVec.ofNat 32 b) (BitVec.ofNat 32 b) = 1#1 := by
      show BitVec.ofBool (BitVec.ofNat 32 b == BitVec.ofNat 32 b) = 1#1
      rw [beq_self_eq_true]; rfl
    rw [this]; simp
  · rw [if_neg h]
    have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this.symm
    have : IntOp.cmpi CmpIPredicate.eq (BitVec.ofNat 32 a) (BitVec.ofNat 32 b) = 0#1 := by
      show BitVec.ofBool (BitVec.ofNat 32 a == BitVec.ofNat 32 b) = 0#1
      rw [beq_eq_false_iff_ne.mpr hne]; rfl
    rw [this]; simp

/-- Entry (g, q) of the indicator is one exactly when channel q lies in group g. -/
theorem HostK2.gexpTerm_apply (g : Fin 32) (q : Fin 128) :
    HostK2.gexpTerm (ix2 g q) = if Cert.Oct.grp q = g then (1 : EReal) else 0 := by
  show (((IntOp.cmpi CmpIPredicate.eq
      (broadcastInDim S32x128 ![0, 1] bcast_S32x1_S32x128_0_1
          (broadcastInDim S32x1 ![0] bcast_S32_S32x1_0 (iotaInDim S32 32 0)) (ix2 g q))
      (broadcastInDim S32x128 ![0, 1] bcast_S1x128_S32x128_0_1
          (broadcastInDim S1x128 ![1] bcast_S128_S1x128_1 HostK2.fdivVec) (ix2 g q))).toNat : ℝ) : EReal) = _
  rw [broadcastInDim_apply ![0, 1] bcast_S32x1_S32x128_0_1 _ (ix2 g q) (ix2 g (0 : Fin 1))
        (by intro a; fin_cases a <;> rfl),
    broadcastInDim_apply ![0] bcast_S32_S32x1_0 _ (ix2 g (0 : Fin 1)) (ix1 g)
        (by intro a; fin_cases a; rfl),
    broadcastInDim_apply ![0, 1] bcast_S1x128_S32x128_0_1 _ (ix2 g q) (ix2 (0 : Fin 1) q)
        (by intro a; fin_cases a <;> rfl),
    broadcastInDim_apply ![1] bcast_S128_S1x128_1 _ (ix2 (0 : Fin 1) q) (ix1 q)
        (by intro a; fin_cases a; rfl),
    HostK2.fdivVec_apply]
  show (((IntOp.cmpi CmpIPredicate.eq (BitVec.ofNat 32 g.val) (BitVec.ofNat 32 (q.val / 4))).toNat : ℝ) : EReal) = _
  rw [HostK2.ind_of_words g.val (q.val / 4) (by have := g.isLt; omega) (by have := q.isLt; omega)]
  have hiff : (q.val / 4 = g.val) ↔ (Cert.Oct.grp q = g) :=
    ⟨fun h => Fin.ext h, fun h => congrArg Fin.val h⟩
  by_cases h : Cert.Oct.grp q = g
  · rw [if_pos h, if_pos (hiff.mpr h)]
  · rw [if_neg h, if_neg (fun h' => h (hiff.mp h'))]

/-- The indicator array before the third kernel is that term. -/
theorem HostK2.W9_v28 (c : Dev nD) : (W9 m ρ c (Proc.devRef .tc main_v28) : S32x128.Idx → EReal) = HostK2.gexpTerm := by
  show StableHlo.after hostOps2_2 (W8 m ρ c) (Proc.devRef .tc main_v28) = _
  after_results_simp
  simp only [cast_eq]
  rfl

/-- The group-to-channel indicator: one where channel q belongs to group g. -/
theorem V9_gexpT (c : Dev nD) (g : Fin 32) (q : Fin 128) :
    gexpA (V9 m ρ) c (ix2 g q) = if Cert.Oct.grp q = g then (1 : EReal) else 0 := by
  show (W9 m ρ c (Proc.devRef .tc main_v28) : S32x128.Idx → EReal) (ix2 g q) = _
  rw [HostK2.W9_v28]
  exact HostK2.gexpTerm_apply g q

/-! ## The scale and the shift rows -/

/-- The scale argument is as launched when the second kernel has run. -/
theorem HostK2.W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by k2_unwritten hostOps1
    _ = W3 m ρ c (Proc.devRef .tc main_arg2) := W4_of_ne m ρ c main_arg2 (by decide)
    _ = W2 m ρ c (Proc.devRef .tc main_arg2) := by k2_unwritten hostOps0_2
    _ = W1 m ρ c (Proc.devRef .tc main_arg2) := by k2_unwritten hostOps0_1
    _ = W0 m ρ c (Proc.devRef .tc main_arg2) := by k2_unwritten hostOps0
    _ = m ((c : Thread nD τ).loc main_arg2) := rfl

/-- The shift argument is as launched when the second kernel has run. -/
theorem HostK2.W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by k2_unwritten hostOps1
    _ = W3 m ρ c (Proc.devRef .tc main_arg3) := W4_of_ne m ρ c main_arg3 (by decide)
    _ = W2 m ρ c (Proc.devRef .tc main_arg3) := by k2_unwritten hostOps0_2
    _ = W1 m ρ c (Proc.devRef .tc main_arg3) := by k2_unwritten hostOps0_1
    _ = W0 m ρ c (Proc.devRef .tc main_arg3) := by k2_unwritten hostOps0
    _ = m ((c : Thread nD τ).loc main_arg3) := rfl

/-- A vector laid out as a row reads, at column q, the vector's entry q. -/
theorem HostK2.row_of_vec {α : Type} {n : Nat} (a : (⟨1, ![n]⟩ : Shape).Idx → α)
    (h : (⟨1, ![n]⟩ : Shape).ShapeCasts ⟨2, ![1, n]⟩) (i : (⟨2, ![1, n]⟩ : Shape).Idx) :
    shapeCast ⟨2, ![1, n]⟩ a h i = a (ix1 (i 1)) := by
  have h0 : (i 0).val = 0 := by have := idx2_lt0 i; omega
  refine shapeCast_apply a h i (ix1 (i 1)) ?_
  rw [Shape.rowMajor_val_one, Shape.rowMajor_val_two]
  show (i 1).val = (i 0).val * n + (i 1).val
  rw [h0]; omega

/-- The scale row is the scale argument. -/
theorem V9_gw (c : Dev nD) (q : Fin 128) :
    gwA (V9 m ρ) c (ix2 (0 : Fin 1) q) = m ((c : Thread nD τ).loc main_arg2) (ix1 q) := by
  have e : (W9 m ρ c (Proc.devRef .tc main_v47) : S1x128.Idx → EReal)
      = shapeCast S1x128 (W6 m ρ c (Proc.devRef .tc main_arg2)) shapeCasts_S128_S1x128 := by
    show StableHlo.after hostOps2_2 (W8 m ρ c) (Proc.devRef .tc main_v47) = _
    after_results_simp
    rfl
  show (W9 m ρ c (Proc.devRef .tc main_v47) : S1x128.Idx → EReal) (ix2 (0 : Fin 1) q) = _
  rw [e, HostK2.W6_arg2]
  exact HostK2.row_of_vec (m ((c : Thread nD τ).loc main_arg2) : S128.Idx → EReal) shapeCasts_S128_S1x128 (ix2 (0 : Fin 1) q)

/-- The shift row is the shift argument. -/
theorem V9_gb (c : Dev nD) (q : Fin 128) :
    gbA (V9 m ρ) c (ix2 (0 : Fin 1) q) = m ((c : Thread nD τ).loc main_arg3) (ix1 q) := by
  have e : (W9 m ρ c (Proc.devRef .tc main_v48) : S1x128.Idx → EReal)
      = shapeCast S1x128 (W6 m ρ c (Proc.devRef .tc main_arg3)) shapeCasts_S128_S1x128 := by
    show StableHlo.after hostOps2_2 (W8 m ρ c) (Proc.devRef .tc main_v48) = _
    after_results_simp
    rfl
  show (W9 m ρ c (Proc.devRef .tc main_v48) : S1x128.Idx → EReal) (ix2 (0 : Fin 1) q) = _
  rw [e, HostK2.W6_arg3]
  exact HostK2.row_of_vec (m ((c : Thread nD τ).loc main_arg3) : S128.Idx → EReal) shapeCasts_S128_S1x128 (ix2 (0 : Fin 1) q)

/-! ## The means and the inverse standard deviations -/

/-- One over (four times the second kernel's count of sample b, plus eps), as the host computes it. -/
def kinv (c : Dev nD) (b : Fin 8) : EReal :=
  Ideal.div (Ideal.ofBits .f32 0x3F800000#32)
    (cntOut (V5 m ρ) c (ix2 b (0 : Fin 1)) * Ideal.ofBits .f32 0x40800000#32 + Ideal.ofBits .f32 0x3727C5AC#32)

/-- The inverse count as the host builds it from the count column: one over (count times four, plus eps). -/
def HostK2.kinvTerm (cnt : S8x1.Idx → EReal) : S8x1.Idx → EReal :=
  Host.divf (F := Ideal) (φ := FTy.f32) (broadcastInDim S8x1 ![] bcast_S_S8x1 (constant (F := Ideal) S_ FTy.f32 0x3F800000#32))
    (addf (F := Ideal) (φ := FTy.f32)
      (mulf (F := Ideal) (φ := FTy.f32) cnt (broadcastInDim S8x1 ![] bcast_S_S8x1 (constant (F := Ideal) S_ FTy.f32 0x40800000#32)))
      (broadcastInDim S8x1 ![] bcast_S_S8x1 (constant (F := Ideal) S_ FTy.f32 0x3727C5AC#32)))

/-- Row b of it. -/
theorem HostK2.kinvTerm_apply (cnt : S8x1.Idx → EReal) (b : Fin 8) :
    HostK2.kinvTerm cnt (ix2 b (0 : Fin 1))
      = Ideal.div (Ideal.ofBits .f32 0x3F800000#32)
          (cnt (ix2 b (0 : Fin 1)) * Ideal.ofBits .f32 0x40800000#32 + Ideal.ofBits .f32 0x3727C5AC#32) := rfl

/-- A per-sample array summed over each group's channels: the product with the transposed indicator. -/
def HostK2.gdot (S : FVec Ideal S8x128 FTy.f32) : FVec Ideal S8x32 FTy.f32 :=
  Host.dotGeneral dot_S8x128_S128x32_S8x32_1_0_0_1_n_n none S
    (transpose S128x32 [1, 0] (HostK2.gexpTerm : FVec Ideal S32x128 FTy.f32) transposes_S32x128_S128x32_1_0 : FVec Ideal S128x32 FTy.f32)

/-- Entry (b, g) of it: the sum over the channels of the array's entry times the indicator of the group. -/
theorem HostK2.gdot_apply (S : FVec Ideal S8x128 FTy.f32) (b : Fin 8) (g : Fin 32) :
    HostK2.gdot S (ix2 b g) = ∑ q : Fin 128, S (ix2 b q) * (if Cert.Oct.grp q = g then (1 : EReal) else 0) := by
  show FloatOps.dotGeneral dot_S8x128_S128x32_S8x32_1_0_0_1_n_n none HostSchedule.single S
    (transpose S128x32 [1, 0] (HostK2.gexpTerm : FVec Ideal S32x128 FTy.f32) transposes_S32x128_S128x32_1_0 : FVec Ideal S128x32 FTy.f32) (ix2 b g) = _
  rw [Cert.PlainDot.dotGeneral_apply (M := 8) (K := 128) (N := 32) dot_S8x128_S128x32_S8x32_1_0_0_1_n_n rfl none HostSchedule.single
    S (transpose S128x32 [1, 0] (HostK2.gexpTerm : FVec Ideal S32x128 FTy.f32) transposes_S32x128_S128x32_1_0 : FVec Ideal S128x32 FTy.f32) (ix2 b g)]
  refine Finset.sum_congr rfl fun q _ => ?_
  rw [transpose_apply [1, 0] (HostK2.gexpTerm : FVec Ideal S32x128 FTy.f32) transposes_S32x128_S128x32_1_0 (ix2 q g) (ix2 g q)
    (by intro a; fin_cases a <;> rfl), HostK2.gexpTerm_apply]

/-- The inverse count spread along the groups. -/
def HostK2.kinvB (cnt : S8x1.Idx → EReal) : S8x32.Idx → EReal :=
  broadcastInDim S8x32 ![0, 1] bcast_S8x1_S8x32_0_1 (HostK2.kinvTerm cnt)

/-- Entry (b, g) of it is row b of the inverse count. -/
theorem HostK2.kinvB_apply (cnt : S8x1.Idx → EReal) (b : Fin 8) (g : Fin 32) :
    HostK2.kinvB cnt (ix2 b g) = HostK2.kinvTerm cnt (ix2 b (0 : Fin 1)) :=
  show broadcastInDim S8x32 ![0, 1] bcast_S8x1_S8x32_0_1 (HostK2.kinvTerm cnt) (ix2 b g) = _ from
  broadcastInDim_apply ![0, 1] bcast_S8x1_S8x32_0_1 (HostK2.kinvTerm cnt) (ix2 b g) (ix2 b (0 : Fin 1))
    (by intro a; fin_cases a <;> rfl)

/-- The means as the host builds them from the sums and the counts. -/
def HostK2.meanTerm (S : S8x128.Idx → EReal) (cnt : S8x1.Idx → EReal) : S8x32.Idx → EReal :=
  mulf (F := Ideal) (φ := FTy.f32) (HostK2.gdot S) (HostK2.kinvB cnt)

/-- The mean array before the third kernel is that term over the second kernel's sums and counts. -/
theorem HostK2.W9_v39 (c : Dev nD) : (W9 m ρ c (Proc.devRef .tc main_v39) : S8x32.Idx → EReal)
    = HostK2.meanTerm (W6 m ρ c (Proc.devRef .tc main_v19_0)) (W6 m ρ c (Proc.devRef .tc main_v19_2)) := by
  show StableHlo.after hostOps2_2 (W8 m ρ c) (Proc.devRef .tc main_v39) = _
  after_results_simp
  simp only [cast_eq]
  rfl

/-- The mean the host computes from the second kernel's sums: the sums of the group's channels, picked by a sum
    against the group indicator, times the inverse count. -/
theorem V9_mean (c : Dev nD) (b : Fin 8) (g : Fin 32) :
    meanA (V9 m ρ) c (ix2 b g)
      = (∑ q : Fin 128, sumOut (V5 m ρ) c (ix2 b q) * (if Cert.Oct.grp q = g then (1 : EReal) else 0)) * kinv m ρ c b := by
  have hs : (W6 m ρ c (Proc.devRef .tc main_v19_0) : S8x128.Idx → EReal) = sumOut (V5 m ρ) c := W6_arr m ρ c 2
  have hc : (W6 m ρ c (Proc.devRef .tc main_v19_2) : S8x1.Idx → EReal) = cntOut (V5 m ρ) c := W6_arr m ρ c 4
  show (W9 m ρ c (Proc.devRef .tc main_v39) : S8x32.Idx → EReal) (ix2 b g) = _
  rw [HostK2.W9_v39, hs, hc]
  show HostK2.gdot (sumOut (V5 m ρ) c) (ix2 b g) * HostK2.kinvB (cntOut (V5 m ρ) c) (ix2 b g) = _
  rw [HostK2.gdot_apply, HostK2.kinvB_apply, HostK2.kinvTerm_apply]
  rfl

/-- The inverse standard deviations as the host builds them from the sums of squares, the counts and the means. -/
def HostK2.istdTerm (Q : FVec Ideal S8x128 FTy.f32) (cnt : S8x1.Idx → EReal) (M : FVec Ideal S8x32 FTy.f32) : FVec Ideal S8x32 FTy.f32 :=
  Host.rsqrt (addf (subf (mulf (HostK2.gdot Q) (HostK2.kinvB cnt)) (mulf M M))
    (broadcastInDim S8x32 ![] bcast_S_S8x32 (constant (F := Ideal) S_ FTy.f32 0x3727C5AC#32)))

/-- Entry (b, g) of it. -/
theorem HostK2.istdTerm_apply (Q : FVec Ideal S8x128 FTy.f32) (cnt : S8x1.Idx → EReal) (M : FVec Ideal S8x32 FTy.f32) (b : Fin 8) (g : Fin 32) :
    HostK2.istdTerm Q cnt M (ix2 b g)
      = Ideal.rsqrt ((HostK2.gdot Q (ix2 b g) * HostK2.kinvB cnt (ix2 b g) - M (ix2 b g) * M (ix2 b g)) + Ideal.ofBits .f32 0x3727C5AC#32) := rfl

/-- The inverse-standard-deviation array before the third kernel is that term over the second kernel's sums of
    squares and counts and the mean array. -/
theorem HostK2.W9_v46 (c : Dev nD) : (W9 m ρ c (Proc.devRef .tc main_v46) : S8x32.Idx → EReal)
    = HostK2.istdTerm (W6 m ρ c (Proc.devRef .tc main_v19_1)) (W6 m ρ c (Proc.devRef .tc main_v19_2))
        (HostK2.meanTerm (W6 m ρ c (Proc.devRef .tc main_v19_0)) (W6 m ρ c (Proc.devRef .tc main_v19_2))) := by
  show StableHlo.after hostOps2_2 (W8 m ρ c) (Proc.devRef .tc main_v46) = _
  after_results_simp
  simp only [cast_eq]
  rfl

/-- The inverse standard deviation the host computes from the second kernel's sums of squares and the mean. -/
theorem V9_istd (c : Dev nD) (b : Fin 8) (g : Fin 32) :
    istdA (V9 m ρ) c (ix2 b g)
      = Ideal.rsqrt (((∑ q : Fin 128, sqOut (V5 m ρ) c (ix2 b q) * (if Cert.Oct.grp q = g then (1 : EReal) else 0)) * kinv m ρ c b
          - meanA (V9 m ρ) c (ix2 b g) * meanA (V9 m ρ) c (ix2 b g)) + Ideal.ofBits .f32 0x3727C5AC#32) := by
  have hq : (W6 m ρ c (Proc.devRef .tc main_v19_1) : S8x128.Idx → EReal) = sqOut (V5 m ρ) c := W6_arr m ρ c 3
  have hc : (W6 m ρ c (Proc.devRef .tc main_v19_2) : S8x1.Idx → EReal) = cntOut (V5 m ρ) c := W6_arr m ρ c 4
  have hM : (meanA (V9 m ρ) c : S8x32.Idx → EReal)
      = HostK2.meanTerm (W6 m ρ c (Proc.devRef .tc main_v19_0)) (W6 m ρ c (Proc.devRef .tc main_v19_2)) := HostK2.W9_v39 m ρ c
  show (W9 m ρ c (Proc.devRef .tc main_v46) : S8x32.Idx → EReal) (ix2 b g) = _
  rw [HostK2.W9_v46, ← hM, hq, hc, HostK2.istdTerm_apply, HostK2.gdot_apply, HostK2.kinvB_apply, HostK2.kinvTerm_apply]
  rfl

/-! ## The last boundary -/

/-- The result buffer at the end of the run is what the third kernel left. -/
theorem out_arr (c : Dev nD) :
    (W10 m ρ c (Proc.devRef .tc main_v49) : Cert.Oct.Sx.Idx → EReal) = normOut (V9 m ρ) c := W10_arr m ρ c 7

end Cert.KernelIdeal.Val

end
-- ==== Proof.KernelValue.lean ====
import proofs.«424105_j4612794876216_1_alg».proof.Proof.Gen.KernelIdeal.Frame
import proofs.«424105_j4612794876216_1_alg».proof.Proof.Spec
import proofs.«424105_j4612794876216_1_alg».proof.Proof.Arrays
import proofs.«424105_j4612794876216_1_alg».proof.Proof.Algebra
import proofs.«424105_j4612794876216_1_alg».proof.Proof.Region0
import proofs.«424105_j4612794876216_1_alg».proof.Proof.Region1
import proofs.«424105_j4612794876216_1_alg».proof.Proof.Region2
import proofs.«424105_j4612794876216_1_alg».proof.Proof.HostK0
import proofs.«424105_j4612794876216_1_alg».proof.Proof.HostK2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! The kernel program's result, index by index, as the specification's function of the arguments.

    The third kernel's array is read through its three inputs made by the host (means, inverse standard deviations,
    the group indicator), those through the second kernel's three sums, and those through the first kernel's product.
    Each sum against an indicator is then replaced by the value it picks. -/

/-- The gathered neighbourhoods and the weight as the first kernel finds them; its product is the convolution. -/
theorem conv_eq (c : Dev nD) :
    convOut (V3 m ρ) c = Cert.Oct.conv (Cert.ReferenceIdeal.Read.val_main_v14 (F := Ideal) (m ((c : Thread nD τ).loc main_arg0))
      (m ((c : Thread nD τ).loc main_arg4))) (m ((c : Thread nD τ).loc main_arg1)) := by
  have hw : wA (V3 m ρ) c = (m ((c : Thread nD τ).loc main_arg1) : Cert.Oct.Sw.Idx → EReal) := by
    funext i
    obtain ⟨k, q, rfl⟩ : ∃ (k : Fin 1728) (q : Fin 128), i = ix2 k q := ⟨i 0, i 1, eq_ix2 i⟩
    exact V3_w m ρ c k q
  funext i
  obtain ⟨r, q, rfl⟩ : ∃ (r : Fin 100000) (q : Fin 128), i = ix2 r q := ⟨i 0, i 1, eq_ix2 i⟩
  rw [conv_arr (V3 m ρ) c r q, V3_col m ρ c, hw]
  rfl

section
variable (c : Dev nD)

/-- The convolution, as a function of the arguments. -/
abbrev X : Cert.Oct.Sx.Idx → EReal :=
  Cert.Oct.conv (Cert.ReferenceIdeal.Read.val_main_v14 (F := Ideal) (m ((c : Thread nD τ).loc main_arg0))
    (m ((c : Thread nD τ).loc main_arg4))) (m ((c : Thread nD τ).loc main_arg1))
/-- The batch ids as a column. -/
abbrev B : Cert.Oct.Sbid.Idx → BitVec 32 := Cert.Oct.bidCol (m ((c : Thread nD τ).loc main_arg5))

/-- The host's inverse count is the specification's. -/
theorem kinv_eq (b : Fin 8) : kinv m ρ c b = Cert.Oct.inv (B m c) b := by
  unfold kinv Cert.Oct.inv
  rw [stats_cnt (V5 m ρ) c b, V5_bid m ρ c]

/-- The mean the third kernel is handed is the specification's. -/
theorem mean_eq (b : Fin 8) (g : Fin 32) : meanA (V9 m ρ) c (ix2 b g) = Cert.Oct.mean (X m c) (B m c) b g := by
  have hs : ∀ q : Fin 128, sumOut (V5 m ρ) c (ix2 b q) = Cert.Oct.segSum (X m c) (B m c) b q := fun q => by
    rw [stats_sum (V5 m ρ) c b q, V5_conv m ρ c, V5_bid m ρ c, conv_eq m ρ c]
  rw [V9_mean m ρ c b g, kinv_eq m ρ c b]
  simp only [hs]
  rw [Cert.Oct.sum_grp_reduce (fun q => Cert.Oct.segSum (X m c) (B m c) b q) g]
  rfl

/-- The inverse standard deviation the third kernel is handed is the specification's. -/
theorem istd_eq (b : Fin 8) (g : Fin 32) : istdA (V9 m ρ) c (ix2 b g) = Cert.Oct.istd (X m c) (B m c) b g := by
  have hs : ∀ q : Fin 128, sqOut (V5 m ρ) c (ix2 b q) = Cert.Oct.segSq (X m c) (B m c) b q := fun q => by
    rw [stats_sq (V5 m ρ) c b q, V5_conv m ρ c, V5_bid m ρ c, conv_eq m ρ c]
  rw [V9_istd m ρ c b g, kinv_eq m ρ c b, mean_eq m ρ c b g]
  simp only [hs]
  rw [Cert.Oct.sum_grp_reduce (fun q => Cert.Oct.segSq (X m c) (B m c) b q) g]
  rfl

/-- The kernel program's result at node r, channel q, when every batch id is one of the eight samples. -/
theorem kernel_out
    (hr : ∀ e : Fin 100000, 0 ≤ ((m ((c : Thread nD τ).loc main_arg5) : Cert.Oct.Sid.Idx → BitVec 32) (ix1 e)).toInt
      ∧ ((m ((c : Thread nD τ).loc main_arg5) : Cert.Oct.Sid.Idx → BitVec 32) (ix1 e)).toInt < 8)
    (r : Fin 100000) (q : Fin 128) :
    (W10 m ρ c (Proc.devRef .tc main_v49) : Cert.Oct.Sx.Idx → EReal) (ix2 r q)
      = Cert.Oct.out (X m c) (B m c) (m ((c : Thread nD τ).loc main_arg2)) (m ((c : Thread nD τ).loc main_arg3)) r q := by
  have h0 : 0 ≤ ((B m c) (ix2 r (0 : Fin 1))).toInt := (hr r).1
  have h1 : ((B m c) (ix2 r (0 : Fin 1))).toInt < 8 := (hr r).2
  rw [congrFun (out_arr m ρ c) (ix2 r q), norm_arr (V9 m ρ) c r q, V9_conv m ρ c, V9_bid m ρ c, conv_eq m ρ c,
    V9_gw m ρ c q, V9_gb m ρ c q]
  simp only [mean_eq m ρ c, istd_eq m ρ c, V9_gexpT m ρ c]
  rw [Cert.Oct.sum_grp_expand (fun g => ∑ b : Fin 8, Cert.Oct.oh (B m c) r b * Cert.Oct.mean (X m c) (B m c) b g) q,
    Cert.Oct.sum_grp_expand (fun g => ∑ b : Fin 8, Cert.Oct.oh (B m c) r b * Cert.Oct.istd (X m c) (B m c) b g) q,
    Cert.Oct.sum_oh_mul (B m c) r h0 h1 (fun b => Cert.Oct.mean (X m c) (B m c) b (Cert.Oct.grp q)),
    Cert.Oct.sum_oh_mul (B m c) r h0 h1 (fun b => Cert.Oct.istd (X m c) (B m c) b (Cert.Oct.grp q))]
  rfl

end

end Cert.KernelIdeal.Val

end
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«424105_j4612794876216_1_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.LibScatterRows3.lean ====
/-
  Accumulating scatters of slabs read at an index.

  A scatter of [S, D] slabs along the leading axis has operand [N, S, D], scatter indices [E, 1] and updates [E, S, D].
  Update (e, s, q) lands on operand element (idx[e, 0], s, q): the index word is read as a signed integer and NOT clamped,
  so an update slab whose row is outside the operand lands nowhere. At the extended reals the host's scatter-add holds, at
  each operand element, the element plus the sum of the updates that land there; at (i, s, q) that sum runs over entry (s, q)
  of the update slabs whose index word is i.

  Per operand axis the landing position is the window's start plus the window coordinate:
    axis 0 is named by the index map and inserted — start idx[e, 0], window coordinate 0;
    axes 1 and 2 are the two window axes, not named by the map — start 0, window coordinate the update's own s and q.
-/
import proofs.«424105_j4612794876216_1_alg».proof.Proof.LibScatter

noncomputable section

namespace Cert.ScatterRows3

open Idealize.ShloMosaic Idealize.ShloMosaic.ValueIdx

/-- The dimension numbers of a scatter of [S, D] slabs along the leading axis: operand [N, S, D], scatter indices [E, 1], updates [E, S, D]. -/
abbrev slabScatterDims (N E S D : Nat) (wf : ScatterDims.WF ⟨3, ![N, S, D]⟩ ⟨2, ![E, 1]⟩ ⟨3, ![E, S, D]⟩ [1, 2] [0] [0] 1) :
    ScatterDims ⟨3, ![N, S, D]⟩ ⟨2, ![E, 1]⟩ ⟨3, ![E, S, D]⟩ where
  updateWindowDims := [1, 2]
  insertedWindowDims := [0]
  scatterDimsToOperandDims := [0]
  indexVectorDim := 1
  wf := wf

/-- Slab scatter, axis 0: the index map names it, so the window starts at the signed index word read at [e, 0]. -/
theorem scatterSlabs_start0 {N E S D : Nat} (wf : ScatterDims.WF ⟨3, ![N, S, D]⟩ ⟨2, ![E, 1]⟩ ⟨3, ![E, S, D]⟩ [1, 2] [0] [0] 1)
    (idx : IVec ⟨2, ![E, 1]⟩ 32) (j : (⟨3, ![E, S, D]⟩ : Shape).Idx) :
    (slabScatterDims N E S D wf).start j idx 0 = (idx (ix2 (j 0) 0)).toInt := by
  unfold ScatterDims.start
  rw [dif_pos (show (0 : Fin 3) ∈ (slabScatterDims N E S D wf).scatterDimsToOperandDims from List.mem_singleton.mpr rfl)]
  -- the one component of the start index is read at the update's scatter coordinate e, on the index vector's axis at 0
  have hsi : (slabScatterDims N E S D wf).siIdx j
      ⟨List.idxOf (0 : Fin 3) (slabScatterDims N E S D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Slab scatter, axis 0: it is inserted, so its window coordinate is zero. -/
theorem scatterSlabs_window0 {N E S D : Nat} (wf : ScatterDims.WF ⟨3, ![N, S, D]⟩ ⟨2, ![E, 1]⟩ ⟨3, ![E, S, D]⟩ [1, 2] [0] [0] 1)
    (j : (⟨3, ![E, S, D]⟩ : Shape).Idx) : (slabScatterDims N E S D wf).window j 0 = 0 := by
  unfold ScatterDims.window
  rw [dif_neg (show ¬ (0 : Fin 3) ∈ (slabScatterDims N E S D wf).sKept from
    (show ¬ (0 : Fin 3) ∈ (List.finRange 3).filter (fun a => a ∉ ([0] : List (Fin 3))) by decide))]

/-- Slab scatter, axis 1: the index map does not name it, so the window starts at zero. -/
theorem scatterSlabs_start1 {N E S D : Nat} (wf : ScatterDims.WF ⟨3, ![N, S, D]⟩ ⟨2, ![E, 1]⟩ ⟨3, ![E, S, D]⟩ [1, 2] [0] [0] 1)
    (idx : IVec ⟨2, ![E, 1]⟩ 32) (j : (⟨3, ![E, S, D]⟩ : Shape).Idx) :
    (slabScatterDims N E S D wf).start j idx 1 = 0 := by
  unfold ScatterDims.start
  rw [dif_neg (show ¬ (1 : Fin 3) ∈ (slabScatterDims N E S D wf).scatterDimsToOperandDims from
    (show ¬ (1 : Fin 3) ∈ ([0] : List (Fin 3)) by decide))]

/-- Slab scatter, axis 1: it is the first kept operand axis, so its window coordinate is the update's first window coordinate s. -/
theorem scatterSlabs_window1 {N E S D : Nat} (wf : ScatterDims.WF ⟨3, ![N, S, D]⟩ ⟨2, ![E, 1]⟩ ⟨3, ![E, S, D]⟩ [1, 2] [0] [0] 1)
    (j : (⟨3, ![E, S, D]⟩ : Shape).Idx) : (slabScatterDims N E S D wf).window j 1 = (j 1).val := by
  unfold ScatterDims.window
  rw [dif_pos (show (1 : Fin 3) ∈ (slabScatterDims N E S D wf).sKept from
    (show (1 : Fin 3) ∈ (List.finRange 3).filter (fun a => a ∉ ([0] : List (Fin 3))) by decide))]
  rfl

/-- Slab scatter, axis 2: the index map does not name it, so the window starts at zero. -/
theorem scatterSlabs_start2 {N E S D : Nat} (wf : ScatterDims.WF ⟨3, ![N, S, D]⟩ ⟨2, ![E, 1]⟩ ⟨3, ![E, S, D]⟩ [1, 2] [0] [0] 1)
    (idx : IVec ⟨2, ![E, 1]⟩ 32) (j : (⟨3, ![E, S, D]⟩ : Shape).Idx) :
    (slabScatterDims N E S D wf).start j idx 2 = 0 := by
  unfold ScatterDims.start
  rw [dif_neg (show ¬ (2 : Fin 3) ∈ (slabScatterDims N E S D wf).scatterDimsToOperandDims from
    (show ¬ (2 : Fin 3) ∈ ([0] : List (Fin 3)) by decide))]

/-- Slab scatter, axis 2: it is the second kept operand axis, so its window coordinate is the update's second window coordinate q. -/
theorem scatterSlabs_window2 {N E S D : Nat} (wf : ScatterDims.WF ⟨3, ![N, S, D]⟩ ⟨2, ![E, 1]⟩ ⟨3, ![E, S, D]⟩ [1, 2] [0] [0] 1)
    (j : (⟨3, ![E, S, D]⟩ : Shape).Idx) : (slabScatterDims N E S D wf).window j 2 = (j 2).val := by
  unfold ScatterDims.window
  rw [dif_pos (show (2 : Fin 3) ∈ (slabScatterDims N E S D wf).sKept from
    (show (2 : Fin 3) ∈ (List.finRange 3).filter (fun a => a ∉ ([0] : List (Fin 3))) by decide))]
  rfl

/-- Slab scatter, axis 0: update (e, s, q) lands at row idx[e, 0], read signed. -/
theorem scatterSlabs_pos0 {N E S D : Nat} (wf : ScatterDims.WF ⟨3, ![N, S, D]⟩ ⟨2, ![E, 1]⟩ ⟨3, ![E, S, D]⟩ [1, 2] [0] [0] 1)
    (idx : IVec ⟨2, ![E, 1]⟩ 32) (j : (⟨3, ![E, S, D]⟩ : Shape).Idx) :
    (slabScatterDims N E S D wf).start j idx 0 + ((slabScatterDims N E S D wf).window j 0 : Nat) = (idx (ix2 (j 0) 0)).toInt := by
  rw [scatterSlabs_start0 wf idx j, scatterSlabs_window0 wf j]
  simp only [Nat.cast_zero, Int.add_zero]

/-- Slab scatter, axis 1: update (e, s, q) lands at position s. -/
theorem scatterSlabs_pos1 {N E S D : Nat} (wf : ScatterDims.WF ⟨3, ![N, S, D]⟩ ⟨2, ![E, 1]⟩ ⟨3, ![E, S, D]⟩ [1, 2] [0] [0] 1)
    (idx : IVec ⟨2, ![E, 1]⟩ 32) (j : (⟨3, ![E, S, D]⟩ : Shape).Idx) :
    (slabScatterDims N E S D wf).start j idx 1 + ((slabScatterDims N E S D wf).window j 1 : Nat) = ((j 1).val : Int) := by
  rw [scatterSlabs_start1 wf idx j, scatterSlabs_window1 wf j]
  simp only [Int.zero_add]

/-- Slab scatter, axis 2: update (e, s, q) lands at position q. -/
theorem scatterSlabs_pos2 {N E S D : Nat} (wf : ScatterDims.WF ⟨3, ![N, S, D]⟩ ⟨2, ![E, 1]⟩ ⟨3, ![E, S, D]⟩ [1, 2] [0] [0] 1)
    (idx : IVec ⟨2, ![E, 1]⟩ 32) (j : (⟨3, ![E, S, D]⟩ : Shape).Idx) :
    (slabScatterDims N E S D wf).start j idx 2 + ((slabScatterDims N E S D wf).window j 2 : Nat) = ((j 2).val : Int) := by
  rw [scatterSlabs_start2 wf idx j, scatterSlabs_window2 wf j]
  simp only [Int.zero_add]

/-- Update (e, s, q) lands at (n, s', q') exactly when idx[e, 0] = n as a signed integer, s = s' and q = q'. -/
theorem scatterSlabs_resultIdx_iff {N E S D : Nat} (wf : ScatterDims.WF ⟨3, ![N, S, D]⟩ ⟨2, ![E, 1]⟩ ⟨3, ![E, S, D]⟩ [1, 2] [0] [0] 1)
    (idx : IVec ⟨2, ![E, 1]⟩ 32) (j : (⟨3, ![E, S, D]⟩ : Shape).Idx) (i : (⟨3, ![N, S, D]⟩ : Shape).Idx) :
    (slabScatterDims N E S D wf).resultIdx? j idx = some i
      ↔ (idx (ix2 (j 0) 0)).toInt = ((i 0).val : Int) ∧ j 1 = i 1 ∧ j 2 = i 2 := by
  have hp0 := scatterSlabs_pos0 wf idx j
  have hp1 := scatterSlabs_pos1 wf idx j
  have hp2 := scatterSlabs_pos2 wf idx j
  have hi0 : (i 0).val < N := (i 0).isLt
  have hi1 : (i 1).val < S := (i 1).isLt
  have hi2 : (i 2).val < D := (i 2).isLt
  constructor
  · -- a landing position is inside the operand on every axis and is the target's coordinate there
    intro h
    unfold ScatterDims.resultIdx? at h
    split at h
    · rename_i hr
      have hf := Option.some.inj h
      have h0 : ((slabScatterDims N E S D wf).start j idx 0 + ((slabScatterDims N E S D wf).window j 0 : Nat)).toNat
          = (i 0).val := congrArg Fin.val (congrFun hf 0)
      have h1 : ((slabScatterDims N E S D wf).start j idx 1 + ((slabScatterDims N E S D wf).window j 1 : Nat)).toNat
          = (i 1).val := congrArg Fin.val (congrFun hf 1)
      have h2 : ((slabScatterDims N E S D wf).start j idx 2 + ((slabScatterDims N E S D wf).window j 2 : Nat)).toNat
          = (i 2).val := congrArg Fin.val (congrFun hf 2)
      have hr0 := (hr 0).1
      rw [hp0] at h0 hr0
      rw [hp1] at h1
      rw [hp2] at h2
      simp only [Int.toNat_natCast] at h1 h2
      exact ⟨by omega, Fin.ext h1, Fin.ext h2⟩
    · exact absurd h (by simp)
  · -- conversely the three positions are the target's coordinates, each inside its axis
    rintro ⟨h0, h1, h2⟩
    have h1v : (j 1).val = (i 1).val := congrArg Fin.val h1
    have h2v : (j 2).val = (i 2).val := congrArg Fin.val h2
    have hall : ∀ a, 0 ≤ (slabScatterDims N E S D wf).start j idx a + ((slabScatterDims N E S D wf).window j a : Nat) ∧
        (slabScatterDims N E S D wf).start j idx a + ((slabScatterDims N E S D wf).window j a : Nat)
          < ((⟨3, ![N, S, D]⟩ : Shape).size a : Nat) := by
      intro a
      match a with
      | ⟨0, _⟩ =>
        show 0 ≤ (slabScatterDims N E S D wf).start j idx 0 + ((slabScatterDims N E S D wf).window j 0 : Nat) ∧
          (slabScatterDims N E S D wf).start j idx 0 + ((slabScatterDims N E S D wf).window j 0 : Nat) < (N : Int)
        rw [hp0, h0]
        omega
      | ⟨1, _⟩ =>
        show 0 ≤ (slabScatterDims N E S D wf).start j idx 1 + ((slabScatterDims N E S D wf).window j 1 : Nat) ∧
          (slabScatterDims N E S D wf).start j idx 1 + ((slabScatterDims N E S D wf).window j 1 : Nat) < (S : Int)
        rw [hp1, h1v]
        omega
      | ⟨2, _⟩ =>
        show 0 ≤ (slabScatterDims N E S D wf).start j idx 2 + ((slabScatterDims N E S D wf).window j 2 : Nat) ∧
          (slabScatterDims N E S D wf).start j idx 2 + ((slabScatterDims N E S D wf).window j 2 : Nat) < (D : Int)
        rw [hp2, h2v]
        omega
    unfold ScatterDims.resultIdx?
    rw [dif_pos hall]
    congr 1
    funext a
    refine Fin.ext ?_
    match a with
    | ⟨0, _⟩ =>
      show ((slabScatterDims N E S D wf).start j idx 0 + ((slabScatterDims N E S D wf).window j 0 : Nat)).toNat = (i 0).val
      rw [hp0, h0]
      exact Int.toNat_natCast _
    | ⟨1, _⟩ =>
      show ((slabScatterDims N E S D wf).start j idx 1 + ((slabScatterDims N E S D wf).window j 1 : Nat)).toNat = (i 1).val
      rw [hp1, h1v]
      exact Int.toNat_natCast _
    | ⟨2, _⟩ =>
      show ((slabScatterDims N E S D wf).start j idx 2 + ((slabScatterDims N E S D wf).window j 2 : Nat)).toNat = (i 2).val
      rw [hp2, h2v]
      exact Int.toNat_natCast _

/-- A slab scatter-add at (i, s, q): the operand there plus entry (s, q) of the update slabs whose index word, read signed, is i. -/
theorem scatterAddSlabs_apply {N E S D : Nat} (wf : ScatterDims.WF ⟨3, ![N, S, D]⟩ ⟨2, ![E, 1]⟩ ⟨3, ![E, S, D]⟩ [1, 2] [0] [0] 1)
    (x : (⟨3, ![N, S, D]⟩ : Shape).Idx → EReal) (idx : IVec ⟨2, ![E, 1]⟩ 32)
    (upd : (⟨3, ![E, S, D]⟩ : Shape).Idx → EReal) (i : Fin N) (s : Fin S) (q : Fin D) :
    Ideal.hostScatterAdd (slabScatterDims N E S D wf) x idx upd (ix3 i s q)
      = x (ix3 i s q) + ∑ e ∈ Finset.univ.filter (fun e : Fin E => (idx (ix2 e (0 : Fin 1))).toInt = (i.val : Int)), upd (ix3 e s q) := by
  show x (ix3 i s q) + ∑ j ∈ Finset.univ.filter
      (fun j => (slabScatterDims N E S D wf).resultIdx? j idx = some (ix3 i s q)), upd j = _
  congr 1
  -- an update that lands at (i, s, q) has window coordinates (s, q), so it is (e, s, q) for a slab e whose index word is i
  have hslab : ∀ j : (⟨3, ![E, S, D]⟩ : Shape).Idx,
      (slabScatterDims N E S D wf).resultIdx? j idx = some (ix3 i s q) → ix3 (j 0) s q = j := by
    intro j hj
    obtain ⟨_, h1, h2⟩ := (scatterSlabs_resultIdx_iff wf idx j (ix3 i s q)).mp hj
    have hs : j 1 = s := h1
    have hq : j 2 = q := h2
    rw [← hs, ← hq]
    exact (eq_ix3 j).symm
  -- so the updates landing there correspond, through the slab coordinate, to the e whose index word is i
  refine Finset.sum_nbij' (fun j => j 0) (fun e => ix3 e s q) ?_ ?_ ?_ ?_ ?_
  · intro j hj
    exact Finset.mem_filter.mpr ⟨Finset.mem_univ _,
      ((scatterSlabs_resultIdx_iff wf idx j (ix3 i s q)).mp (Finset.mem_filter.mp hj).2).1⟩
  · intro e he
    exact Finset.mem_filter.mpr ⟨Finset.mem_univ _,
      (scatterSlabs_resultIdx_iff wf idx (ix3 e s q) (ix3 i s q)).mpr ⟨(Finset.mem_filter.mp he).2, rfl, rfl⟩⟩
  · intro j hj
    exact hslab j (Finset.mem_filter.mp hj).2
  · intro e _
    rfl
  · intro j hj
    exact congrArg upd (hslab j (Finset.mem_filter.mp hj).2).symm

end Cert.ScatterRows3

end
-- ==== Proof.RefStats.lean ====
import proofs.«424105_j4612794876216_1_alg».proof.Proof.Gen.ReferenceIdeal.Run
import proofs.«424105_j4612794876216_1_alg».proof.Proof.Gen.ReferenceIdeal.Read
import proofs.«424105_j4612794876216_1_alg».proof.Proof.Spec
import proofs.«424105_j4612794876216_1_alg».proof.Proof.LibScatterRows3
import proofs.«424105_j4612794876216_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen

variable (a0 : (⟨S100000x64, .f32⟩ : BufTy).Contents (Elt Ideal)) (a1 : (⟨S1728x128, .f32⟩ : BufTy).Contents (Elt Ideal))
  (a4 : (⟨S100000x27, .i32⟩ : BufTy).Contents (Elt Ideal)) (a5 : (⟨S100000, .i32⟩ : BufTy).Contents (Elt Ideal))

/-- The reference's convolution at node r, channel q. -/
theorem ref_conv (r : Fin 100000) (q : Fin 128) :
    Read.val_main_v15 (F := Ideal) a0 a1 a4 (ix2 r q) = Cert.Oct.conv (Read.val_main_v14 (F := Ideal) a0 a4) a1 (ix2 r q) := by
  rw [Read.val_main_v15_apply]
  unfold Cert.Oct.conv
  refine Finset.sum_congr rfl fun k _ => ?_
  have hl : Read.lidx_main_v15 (ix2 r q) k = ix2 r k := by
    funext a
    match a with
    | ⟨0, _⟩ => rfl
    | ⟨1, _⟩ => rfl
  have hr : Read.ridx_main_v15 (ix2 r q) k = ix2 k q := by
    funext a
    match a with
    | ⟨0, _⟩ => rfl
    | ⟨1, _⟩ => rfl
  rw [hl, hr]

/-- The literal 1.0 denotes the extended real one. -/
theorem lit_one : Ideal.ofBits .f32 0x3F800000#32 = (1 : EReal) := by
  simp [Ideal.ofBits, Ideal.ieee, -EReal.coe_mul]
  norm_num

/-- The reference's scatter of counts: 100000 single elements into eight cells, the cell named by the update's id. -/
theorem vec_dims :
    scatter_S8_S100000x1_S100000_n_0_0_1
      = Cert.Gcn.vecScatterDims 8 100000 Facts₀.scatter_S8_S100000x1_S100000_n_0_0_1_wf := rfl

/-- The reference's scatter of sums: 100000 slabs of [32, 4] into eight rows, the row named by the update's id. -/
theorem slab_dims :
    scatter_S8x32x4_S100000x1_S100000x32x4_12_0_0_1
      = Cert.ScatterRows3.slabScatterDims 8 100000 32 4 Facts₀.scatter_S8x32x4_S100000x1_S100000x32x4_12_0_0_1_wf := rfl

/-- Each of the three id columns the reference lays out is the batch ids as a column: the first. -/
theorem ref_bid18 : Read.val_main_v18 (F := Ideal) a5 = Cert.Oct.bidCol a5 := by
  funext i
  rw [Read.val_main_v18_apply]
  unfold Cert.Oct.bidCol
  exact congrArg a5 (funext fun a => by match a with | ⟨0, _⟩ => rfl)

/-- The second id column. -/
theorem ref_bid28 : Read.val_main_v28 (F := Ideal) a5 = Cert.Oct.bidCol a5 := by
  funext i
  rw [Read.val_main_v28_apply]
  unfold Cert.Oct.bidCol
  exact congrArg a5 (funext fun a => by match a with | ⟨0, _⟩ => rfl)

/-- The third id column. -/
theorem ref_bid33 : Read.val_main_v33 (F := Ideal) a5 = Cert.Oct.bidCol a5 := by
  funext i
  rw [Read.val_main_v33_apply]
  unfold Cert.Oct.bidCol
  exact congrArg a5 (funext fun a => by match a with | ⟨0, _⟩ => rfl)

/-- The reference's count of sample b: ones scattered into zeros by the id column. -/
theorem ref_cnt (b : Fin 8) :
    Read.val_main_v19 (F := Ideal) a5 (ix1 b) = Cert.Oct.segCnt (Cert.Oct.bidCol a5) b := by
  unfold Read.val_main_v19 Host.scatterAdd
  rw [Ideal.hostScatterAdd_def, vec_dims, Cert.Gcn.scatterAddVec_apply, ref_bid18,
    Read.val_main_v17_apply, Read.val_main_cst_3_apply, Ideal.ofBits_def, Ideal.ofBits_zero_f32, zero_add]
  unfold Cert.Oct.segCnt Cert.Oct.seg
  refine Finset.sum_congr rfl fun e _ => ?_
  rw [Read.val_main_v16_apply, Read.val_main_cst_apply, Ideal.ofBits_def, lit_one]

/-- The reference's reciprocal of (four times the count of sample b, plus eps). -/
theorem ref_inv (b : Fin 8) :
    Read.val_main_v25 (F := Ideal) a5 (ix1 b) = Cert.Oct.inv (Cert.Oct.bidCol a5) b := by
  rw [Read.val_main_v25_apply, Ideal.hostDivf_def, Read.val_main_v24_apply, Read.val_main_cst_6_apply,
    Read.val_main_v23_apply, Ideal.addf_def, Read.val_main_v21_apply, Ideal.mulf_def, Read.val_main_v20_apply,
    Read.val_main_cst_4_apply, Read.val_main_v22_apply, Read.val_main_cst_5_apply, ref_cnt]
  rfl

/-- Entry (e, g, j) of the convolution regrouped by four channels is the convolution at (e, 4g + j). -/
theorem ref_regroup (e : Fin 100000) (g : Fin 32) (j : Fin 4) :
    Read.val_main_v26 (F := Ideal) a0 a1 a4 (ix3 e g j)
      = Cert.Oct.conv (Read.val_main_v14 (F := Ideal) a0 a4) a1 (ix2 e (Cert.Oct.chan g j)) := by
  rw [Read.val_main_v26_apply, ← ref_conv]
  refine congrArg (Read.val_main_v15 (F := Ideal) a0 a1 a4) (funext fun a => Fin.ext ?_)
  have he : e.val < 100000 := e.isLt
  have hg : g.val < 32 := g.isLt
  have hj : j.val < 4 := j.isLt
  match a with
  | ⟨0, _⟩ =>
    show ((e.val * 32 + g.val) * 4 + j.val) / 128 = e.val
    omega
  | ⟨1, _⟩ =>
    show ((e.val * 32 + g.val) * 4 + j.val) % 128 = 4 * g.val + j.val
    omega

/-- The reference's slab of sums: cell (b, g, j) holds channel 4g + j summed over the nodes of sample b. -/
theorem ref_slab (b : Fin 8) (g : Fin 32) (j : Fin 4) :
    Read.val_main_v29 (F := Ideal) a0 a1 a4 a5 (ix3 b g j)
      = Cert.Oct.segSum (Cert.Oct.conv (Read.val_main_v14 (F := Ideal) a0 a4) a1) (Cert.Oct.bidCol a5) b (Cert.Oct.chan g j) := by
  unfold Read.val_main_v29 Host.scatterAdd
  rw [Ideal.hostScatterAdd_def, slab_dims, Cert.ScatterRows3.scatterAddSlabs_apply, ref_bid28,
    Read.val_main_v27_apply, Read.val_main_cst_7_apply, Ideal.ofBits_def, Ideal.ofBits_zero_f32, zero_add]
  unfold Cert.Oct.segSum Cert.Oct.seg
  exact Finset.sum_congr rfl fun e _ => ref_regroup a0 a1 a4 e g j

/-- The reference's sum over sample b and group g. -/
theorem ref_gsum (b : Fin 8) (g : Fin 32) :
    Read.val_main_v30 (F := Ideal) a0 a1 a4 a5 (ix2 b g)
      = Cert.Oct.gSum (Cert.Oct.conv (Read.val_main_v14 (F := Ideal) a0 a4) a1) (Cert.Oct.bidCol a5) b g := by
  rw [Read.val_main_v30_apply, Read.val_main_cst_8_apply, Ideal.ofBits_def, Ideal.ofBits_zero_f32, zero_add]
  unfold Cert.Oct.gSum
  refine Finset.sum_congr rfl fun j _ => ?_
  rw [← ref_slab]
  exact congrArg (Read.val_main_v29 (F := Ideal) a0 a1 a4 a5)
    (funext fun a => by match a with | ⟨0, _⟩ => rfl | ⟨1, _⟩ => rfl | ⟨2, _⟩ => rfl)

/-- The reciprocal of sample b, spread over the groups. -/
theorem ref_inv37 (b : Fin 8) (g : Fin 32) :
    Read.val_main_v37 (F := Ideal) a5 (ix2 b g) = Cert.Oct.inv (Cert.Oct.bidCol a5) b := by
  rw [Read.val_main_v37_apply, Read.val_main_v36_apply, ← ref_inv]
  exact congrArg (Read.val_main_v25 (F := Ideal) a5) (funext fun a => by match a with | ⟨0, _⟩ => rfl)

/-- The reference's mean of sample b and group g. -/
theorem ref_mean (b : Fin 8) (g : Fin 32) :
    Read.val_main_v38 (F := Ideal) a0 a1 a4 a5 (ix2 b g)
      = Cert.Oct.mean (Cert.Oct.conv (Read.val_main_v14 (F := Ideal) a0 a4) a1) (Cert.Oct.bidCol a5) b g := by
  rw [Read.val_main_v38_apply, Ideal.mulf_def, ref_gsum, ref_inv37]
  rfl

/-- The reference's slab of sums of squares: cell (b, g, j) holds the squares of channel 4g + j summed over the nodes of sample b. -/
theorem ref_slabSq (b : Fin 8) (g : Fin 32) (j : Fin 4) :
    Read.val_main_v34 (F := Ideal) a0 a1 a4 a5 (ix3 b g j)
      = Cert.Oct.segSq (Cert.Oct.conv (Read.val_main_v14 (F := Ideal) a0 a4) a1) (Cert.Oct.bidCol a5) b (Cert.Oct.chan g j) := by
  unfold Read.val_main_v34 Host.scatterAdd
  rw [Ideal.hostScatterAdd_def, slab_dims, Cert.ScatterRows3.scatterAddSlabs_apply, ref_bid33,
    Read.val_main_v32_apply, Read.val_main_cst_9_apply, Ideal.ofBits_def, Ideal.ofBits_zero_f32, zero_add]
  unfold Cert.Oct.segSq Cert.Oct.seg
  refine Finset.sum_congr rfl fun e _ => ?_
  rw [Read.val_main_v31_apply, Ideal.mulf_def, ref_regroup]

/-- The reference's sum of squares over sample b and group g. -/
theorem ref_gsq (b : Fin 8) (g : Fin 32) :
    Read.val_main_v35 (F := Ideal) a0 a1 a4 a5 (ix2 b g)
      = Cert.Oct.gSq (Cert.Oct.conv (Read.val_main_v14 (F := Ideal) a0 a4) a1) (Cert.Oct.bidCol a5) b g := by
  rw [Read.val_main_v35_apply, Read.val_main_cst_10_apply, Ideal.ofBits_def, Ideal.ofBits_zero_f32, zero_add]
  unfold Cert.Oct.gSq
  refine Finset.sum_congr rfl fun j _ => ?_
  rw [← ref_slabSq]
  exact congrArg (Read.val_main_v34 (F := Ideal) a0 a1 a4 a5)
    (funext fun a => by match a with | ⟨0, _⟩ => rfl | ⟨1, _⟩ => rfl | ⟨2, _⟩ => rfl)

/-- The reciprocal of sample b, spread over the groups a second time. -/
theorem ref_inv40 (b : Fin 8) (g : Fin 32) :
    Read.val_main_v40 (F := Ideal) a5 (ix2 b g) = Cert.Oct.inv (Cert.Oct.bidCol a5) b := by
  rw [Read.val_main_v40_apply, Read.val_main_v39_apply, ← ref_inv]
  exact congrArg (Read.val_main_v25 (F := Ideal) a5) (funext fun a => by match a with | ⟨0, _⟩ => rfl)

/-- The reference's inverse standard deviation of sample b and group g. -/
theorem ref_istd (b : Fin 8) (g : Fin 32) :
    Read.val_main_v46 (F := Ideal) a0 a1 a4 a5 (ix2 b g)
      = Cert.Oct.istd (Cert.Oct.conv (Read.val_main_v14 (F := Ideal) a0 a4) a1) (Cert.Oct.bidCol a5) b g := by
  rw [Read.val_main_v46_apply, Ideal.hostUnary_rsqrt_def, Read.val_main_v45_apply, Ideal.addf_def,
    Read.val_main_v43_apply, Ideal.subf_def, Read.val_main_v41_apply, Ideal.mulf_def, Read.val_main_v42_apply,
    Ideal.mulf_def, ref_mean, ref_gsq, ref_inv40, Read.val_main_v44_apply, Read.val_main_cst_11_apply]
  rfl

end Cert.ReferenceIdeal.RefVal

end
-- ==== Proof.RefValue.lean ====
import proofs.«424105_j4612794876216_1_alg».proof.Proof.Gen.ReferenceIdeal.Run
import proofs.«424105_j4612794876216_1_alg».proof.Proof.Gen.ReferenceIdeal.Read
import proofs.«424105_j4612794876216_1_alg».proof.Proof.Spec
import proofs.«424105_j4612794876216_1_alg».proof.Proof.RefStats
import proofs.«424105_j4612794876216_1_alg».proof.Proof.LibScatterRows3
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal.Out

open Idealize.ShloMosaic Idealize.ShloMosaic.TcCoe Idealize.SL.Sem Idealize.ShloMosaic.ValueIdx
open Cert.ReferenceIdeal Cert.ReferenceIdeal.Gen

/-! ## Where each layout step reads

Channel q of a row is entry (q / 4, q % 4) of the row seen as 32 groups of 4, and back: (r * 32 + q / 4) * 4 + q % 4
is r * 128 + q. A broadcast along a new axis of size one, or along the channels of a group, drops that coordinate. -/

/-- The place of channel q inside its group. -/
def sub (q : Fin 128) : Fin 4 := ⟨q.val % 4, by omega⟩

/-- Entry (r, q) of the flat rows is entry (r, q / 4, q % 4) of the grouped rows. -/
theorem idx67 (r : Fin 100000) (q : Fin 128) :
    Read.idx_main_v67 (ix2 r q) = ix3 r (Cert.Oct.grp q) (sub q) := by
  funext a
  match a with
  | ⟨0, _⟩ => exact Fin.ext (by show (r.val * 128 + q.val) / 128 = r.val; have := q.isLt; omega)
  | ⟨1, _⟩ => exact Fin.ext (by show (r.val * 128 + q.val) / 4 % 32 = q.val / 4; have := q.isLt; omega)
  | ⟨2, _⟩ => exact Fin.ext (by show (r.val * 128 + q.val) % 4 = q.val % 4; omega)

/-- Entry (r, q / 4, q % 4) of the grouped convolution is entry (r, q) of the convolution. -/
theorem idx26 (r : Fin 100000) (q : Fin 128) :
    Read.idx_main_v26 (ix3 r (Cert.Oct.grp q) (sub q)) = ix2 r q := by
  funext a
  match a with
  | ⟨0, _⟩ => exact Fin.ext (by show ((r.val * 32 + q.val / 4) * 4 + q.val % 4) / 128 = r.val; have := q.isLt; omega)
  | ⟨1, _⟩ => exact Fin.ext (by show ((r.val * 32 + q.val / 4) * 4 + q.val % 4) % 128 = q.val; have := q.isLt; omega)

/-- The mean spread over the four channels of a group reads column zero. -/
theorem idx55 (r : Fin 100000) (g : Fin 32) (j : Fin 4) :
    Read.idx_main_v55 (ix3 r g j) = ix3 r g (0 : Fin 1) := by
  funext a
  match a with
  | ⟨0, _⟩ => rfl
  | ⟨1, _⟩ => rfl
  | ⟨2, _⟩ => rfl

/-- The mean with a trailing axis of size one reads (r, g). -/
theorem idx54 (r : Fin 100000) (g : Fin 32) :
    Read.idx_main_v54 (ix3 r g (0 : Fin 1)) = ix2 r g := by
  funext a
  match a with
  | ⟨0, _⟩ => rfl
  | ⟨1, _⟩ => rfl

/-- The inverse standard deviation spread over the four channels of a group reads column zero. -/
theorem idx65 (r : Fin 100000) (g : Fin 32) (j : Fin 4) :
    Read.idx_main_v65 (ix3 r g j) = ix3 r g (0 : Fin 1) := by
  funext a
  match a with
  | ⟨0, _⟩ => rfl
  | ⟨1, _⟩ => rfl
  | ⟨2, _⟩ => rfl

/-- The inverse standard deviation with a trailing axis of size one reads (r, g). -/
theorem idx64 (r : Fin 100000) (g : Fin 32) :
    Read.idx_main_v64 (ix3 r g (0 : Fin 1)) = ix2 r g := by
  funext a
  match a with
  | ⟨0, _⟩ => rfl
  | ⟨1, _⟩ => rfl

/-- The shift spread over the rows reads row zero. -/
theorem idx72 (r : Fin 100000) (q : Fin 128) :
    Read.idx_main_v72 (ix2 r q) = ix2 (0 : Fin 1) q := by
  funext a
  match a with
  | ⟨0, _⟩ => rfl
  | ⟨1, _⟩ => rfl

/-- The shift as one row reads channel q. -/
theorem idx71 (q : Fin 128) :
    Read.idx_main_v71 (ix2 (0 : Fin 1) q) = ix1 q := by
  funext a
  match a with
  | ⟨0, _⟩ => rfl

/-- The scale spread over the rows reads row zero. -/
theorem idx69 (r : Fin 100000) (q : Fin 128) :
    Read.idx_main_v69 (ix2 r q) = ix2 (0 : Fin 1) q := by
  funext a
  match a with
  | ⟨0, _⟩ => rfl
  | ⟨1, _⟩ => rfl

/-- The scale as one row reads channel q. -/
theorem idx68 (q : Fin 128) :
    Read.idx_main_v68 (ix2 (0 : Fin 1) q) = ix1 q := by
  funext a
  match a with
  | ⟨0, _⟩ => rfl

/-- The ids as a column, for the gather of the means, read id r. -/
theorem idx52 (r : Fin 100000) :
    Read.idx_main_v52 (ix2 r (0 : Fin 1)) = ix1 r := by
  funext a
  match a with
  | ⟨0, _⟩ => rfl

/-- The ids as a column, for the gather of the inverse standard deviations, read id r. -/
theorem idx62 (r : Fin 100000) :
    Read.idx_main_v62 (ix2 r (0 : Fin 1)) = ix1 r := by
  funext a
  match a with
  | ⟨0, _⟩ => rfl

/-! ## The gathers by the batch ids

A negative id would be wrapped by adding eight; an id in [0, 8) is not negative, so the wrap keeps it, and the gather
reads the table's row at the id clamped into the eight samples, which is the node's sample. -/

/-- A word that is not negative as a signed integer does not compare below the zero word. -/
theorem slt_zero_of_nonneg (x : BitVec 32) (h : 0 ≤ x.toInt) : IntOp.cmpi .slt x 0#32 = 0#1 := by
  have hs : x.slt 0#32 = false := by
    unfold BitVec.slt
    simp only [BitVec.toInt_zero, decide_eq_false_iff_not, not_lt]
    exact h
  show BitVec.ofBool (x.slt 0#32) = 0#1
  rw [hs]
  rfl

section
variable (a0 : (⟨S100000x64, .f32⟩ : BufTy).Contents (Elt Ideal)) (a1 : (⟨S1728x128, .f32⟩ : BufTy).Contents (Elt Ideal))
  (a4 : (⟨S100000x27, .i32⟩ : BufTy).Contents (Elt Ideal)) (a5 : (⟨S100000, .i32⟩ : BufTy).Contents (Elt Ideal))

/-- The wrapped id column of the first gather is the id itself when the id is one of the eight samples. -/
theorem col52 (hr : ∀ e : Fin 100000, 0 ≤ (a5 (ix1 e)).toInt ∧ (a5 (ix1 e)).toInt < 8) (r : Fin 100000) :
    Read.val_main_v52 (F := Ideal) a5 (ix2 r (0 : Fin 1)) = a5 (ix1 r) := by
  rw [Read.val_main_v52_apply, idx52, Read.val_main_v51_apply, Read.val_main_v48_apply, Read.val_main_v47_apply,
    Read.val_main_c_12_apply, slt_zero_of_nonneg _ (hr r).1, select_zero]

/-- The wrapped id column of the second gather, likewise. -/
theorem col62 (hr : ∀ e : Fin 100000, 0 ≤ (a5 (ix1 e)).toInt ∧ (a5 (ix1 e)).toInt < 8) (r : Fin 100000) :
    Read.val_main_v62 (F := Ideal) a5 (ix2 r (0 : Fin 1)) = a5 (ix1 r) := by
  rw [Read.val_main_v62_apply, idx62, Read.val_main_v61_apply, Read.val_main_v58_apply, Read.val_main_v57_apply,
    Read.val_main_c_14_apply, slt_zero_of_nonneg _ (hr r).1, select_zero]

/-- The gathers' dimension numbers are those of a row gather of an [8, 32] table by a column of 100000 indices. -/
theorem gdims :
    gather_S8x32_S100000x1_S100000x32_1_0_n_n_0_1_132
      = Cert.Gcn.rowGatherDims 8 100000 32 Facts₀.gather_S8x32_S100000x1_S100000x32_1_0_n_n_0_1_132_wf := rfl

/-- The gathered means at (r, g): the mean of node r's sample and group g. -/
theorem gat53 (hr : ∀ e : Fin 100000, 0 ≤ (a5 (ix1 e)).toInt ∧ (a5 (ix1 e)).toInt < 8) (r : Fin 100000) (g : Fin 32) :
    Read.val_main_v53 (F := Ideal) a0 a1 a4 a5 (ix2 r g)
      = Read.val_main_v38 (F := Ideal) a0 a1 a4 a5 (ix2 (Cert.Oct.sample (Cert.Oct.bidCol a5) r) g) := by
  unfold Read.val_main_v53
  rw [gdims, Cert.Gcn.gatherRows_apply (by decide)]
  show Read.val_main_v38 a0 a1 a4 a5 (ix2 (Cert.Gcn.crow 8 _ (Read.val_main_v52 a5 (ix2 r (0 : Fin 1)))) g) = _
  rw [col52 a5 hr]
  rfl

/-- The gathered inverse standard deviations at (r, g): that of node r's sample and group g. -/
theorem gat63 (hr : ∀ e : Fin 100000, 0 ≤ (a5 (ix1 e)).toInt ∧ (a5 (ix1 e)).toInt < 8) (r : Fin 100000) (g : Fin 32) :
    Read.val_main_v63 (F := Ideal) a0 a1 a4 a5 (ix2 r g)
      = Read.val_main_v46 (F := Ideal) a0 a1 a4 a5 (ix2 (Cert.Oct.sample (Cert.Oct.bidCol a5) r) g) := by
  unfold Read.val_main_v63
  rw [gdims, Cert.Gcn.gatherRows_apply (by decide)]
  show Read.val_main_v46 a0 a1 a4 a5 (ix2 (Cert.Gcn.crow 8 _ (Read.val_main_v62 a5 (ix2 r (0 : Fin 1)))) g) = _
  rw [col62 a5 hr]
  rfl

end

end Cert.ReferenceIdeal.RefVal.Out

namespace Cert.ReferenceIdeal.RefVal

open Idealize.ShloMosaic Idealize.ShloMosaic.TcCoe Idealize.SL.Sem Idealize.ShloMosaic.ValueIdx
open Cert.ReferenceIdeal Cert.ReferenceIdeal.Gen

/-- The reference's result at node r, channel q, when every batch id is one of the eight samples: the convolution
    normalised by the mean and inverse standard deviation of the node's sample and the channel's group, scaled and
    shifted. -/
theorem ref_out (a0 : (⟨S100000x64, .f32⟩ : BufTy).Contents (Elt Ideal)) (a1 : (⟨S1728x128, .f32⟩ : BufTy).Contents (Elt Ideal))
    (a2 a3 : (⟨S128, .f32⟩ : BufTy).Contents (Elt Ideal)) (a4 : (⟨S100000x27, .i32⟩ : BufTy).Contents (Elt Ideal))
    (a5 : (⟨S100000, .i32⟩ : BufTy).Contents (Elt Ideal))
    (hr : ∀ e : Fin 100000, 0 ≤ (a5 (ix1 e)).toInt ∧ (a5 (ix1 e)).toInt < 8) (r : Fin 100000) (q : Fin 128) :
    Read.val_main_v73 (F := Ideal) a0 a1 a2 a3 a4 a5 (ix2 r q)
      = Cert.Oct.out (Cert.Oct.conv (Read.val_main_v14 (F := Ideal) a0 a4) a1) (Cert.Oct.bidCol a5) a2 a3 r q := by
  -- the result is ((x - mean) * istd) * scale + shift, each factor read at (r, q) through its layout steps
  rw [Read.val_main_v73_apply, Read.val_main_v70_apply, Read.val_main_v72_apply, Read.val_main_v71_apply,
    Read.val_main_v69_apply, Read.val_main_v68_apply, Read.val_main_v67_apply, Read.val_main_v66_apply,
    Read.val_main_v56_apply, Read.val_main_v55_apply, Read.val_main_v54_apply, Read.val_main_v65_apply,
    Read.val_main_v64_apply, Read.val_main_v26_apply]
  rw [Out.idx67, Out.idx26, Out.idx55, Out.idx54, Out.idx65, Out.idx64, Out.idx72, Out.idx71, Out.idx69, Out.idx68]
  -- the two gathers read the statistics of node r's sample at group q / 4; then the three statistics are the specification's
  rw [Out.gat53 a0 a1 a4 a5 hr, Out.gat63 a0 a1 a4 a5 hr, ref_conv, ref_mean, ref_istd]
  rfl

end Cert.ReferenceIdeal.RefVal

end
-- ==== Proof.PreRange.lean ====
import proofs.«424105_j4612794876216_1_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Range

open Idealize.ShloMosaic Idealize.ShloMosaic.ValueIdx Cert.Pre_finite_inputs

/-- Under the precondition every batch id, read as a signed integer, is one of the eight samples. -/
theorem bid_range {F : FTy → Type} [FloatOps F] (a0 : FVec F S100000x64 .f32) (a1 : FVec F S1728x128 .f32) (a2 a3 : FVec F S128 .f32)
    (a4 : IVec S100000x27 32) (a5 : IVec S100000 32)
    (h : Cert.Pre_finite_inputs.fn (F := F) a0 a1 a2 a3 a4 a5 = fun _ => 1#1) (e : Fin 100000) :
    0 ≤ (a5 (ix1 e)).toInt ∧ (a5 (ix1 e)).toInt < 8 := by
  -- the predicate at its one index
  have h0 := congrFun h ix0
  dsimp only [fn, fn_part1] at h0
  -- the outer conjunction: its right member is the range test, itself a conjunction over all nodes
  have hall := (IntOp.andi_eq_one.1 h0).2
  -- the scalar shape has a single index
  haveI : Subsingleton S_.Idx := ⟨fun a b => funext fun d => d.elim0⟩
  -- a conjunction over all nodes that holds, holds at node e; there it is the conjunction of two compares
  have hi := Host.reduce_andi_all _ _ _ _ _ hall (ix1 e)
  obtain ⟨hge, hlt⟩ := IntOp.andi_eq_one.1 hi
  -- a compare of arrays at an index compares the two words, and a broadcast constant reads the constant
  have hge' : IntOp.cmpi .sge (a5 (ix1 e)) 0#32 = 1#1 := hge
  have hlt' : IntOp.cmpi .slt (a5 (ix1 e)) 8#32 = 1#1 := hlt
  -- signed compares read both words as signed integers; the constants read 0 and 8
  rw [IntOp.cmpi_sge, show (0#32 : BitVec 32).toInt = 0 from by decide] at hge'
  rw [IntOp.cmpi_slt, show (8#32 : BitVec 32).toInt = 8 from by decide] at hlt'
  exact ⟨hge', hlt'⟩

end Cert.Pre_finite_inputs.Range

end
-- ==== Proof.lean ====
/- The five conjuncts of the certificate.

   The three frames: the two kernel programs' are the generated frame certificates; the reference's is its generated run
   with the result dropped. The idealisation rewrote nothing, so its conjunct is trivial. The value conjunct: both
   idealised programs compute, at every node r and channel q, the convolution of the gathered neighbourhoods with the
   weight, normalised by the mean and inverse standard deviation of the node's batch sample and the channel's group,
   scaled and shifted. The kernel reaches the per-sample statistics by sums against the sample indicator and the
   reference by scatter-adds over the ids, the kernel picks a node's statistics by a sum against the indicator and
   the reference by indexing: these agree exactly when every batch id is one of the eight samples, which the
   precondition states. No finiteness is used: the two sides are equal on all extended reals. -/
import proofs.«424105_j4612794876216_1_alg».proof.Defs
import proofs.«424105_j4612794876216_1_alg».proof.Proof.Gen.Kernel
import proofs.«424105_j4612794876216_1_alg».proof.Proof.Gen.Kernel.Frame
import proofs.«424105_j4612794876216_1_alg».proof.Proof.Gen.KernelIdeal
import proofs.«424105_j4612794876216_1_alg».proof.Proof.Gen.KernelIdeal.Frame
import proofs.«424105_j4612794876216_1_alg».proof.Proof.Gen.ReferenceIdeal
import proofs.«424105_j4612794876216_1_alg».proof.Proof.Gen.ReferenceIdeal.Run
import proofs.«424105_j4612794876216_1_alg».proof.Proof.Gen.ReferenceIdeal.Read
import proofs.«424105_j4612794876216_1_alg».proof.Proof.Gen.Pre_finite_inputs
import proofs.«424105_j4612794876216_1_alg».proof.Proof.RunValue
import proofs.«424105_j4612794876216_1_alg».proof.Proof.KernelValue
import proofs.«424105_j4612794876216_1_alg».proof.Proof.RefValue
import proofs.«424105_j4612794876216_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, the two idealised programs end with equal results: at every index
    both hold the specification's function of the arguments, the ids being in range by the precondition. -/
theorem algebraic : Cert.algebraic_KernelIdeal_ReferenceIdeal := by
  intro m ρ m' ρ' hpre hagree
  refine ⟨fun c => Cert.KernelIdeal.Gen.W10 m ρ c (Proc.devRef .tc Cert.KernelIdeal.main_v49),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  have hr := fun e : Fin 100000 => Cert.Pre_finite_inputs.Range.bid_range (F := Ideal) _ _ _ _ _ _ (hpre c) e
  rw [Cert.ReferenceIdeal.Read.val_main_v73_eq, (hagree c).1, (hagree c).2.1, (hagree c).2.2.1, (hagree c).2.2.2.1,
    (hagree c).2.2.2.2.1, (hagree c).2.2.2.2.2]
  funext i
  obtain ⟨r, q, rfl⟩ : ∃ (r : Fin 100000) (q : Fin 128), i = ix2 r q := ⟨i 0, i 1, eq_ix2 i⟩
  exact (Cert.ReferenceIdeal.RefVal.ref_out _ _ _ _ _ _ hr r q).trans (Cert.KernelIdeal.Val.kernel_out m ρ c hr r q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
